-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x17 : Shape := ⟨2, ![100000, 17]⟩
abbrev S2x1600000 : Shape := ⟨2, ![2, 1600000]⟩
abbrev S100000 : Shape := ⟨1, ![100000]⟩
abbrev S17x64 : Shape := ⟨2, ![17, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S_ : Shape := ⟨0, ![]⟩

class Facts : Prop where
  bcast_S_S100000x17 : S_.BroadcastsInDim S100000x17 (![] : Fin 0 → Fin S100000x17.rank)
  reducesTo_S100000x17_S_d0_1 : S100000x17.ReducesTo [0, 1] S_
  h_S_ : 0 < S_.numel
  bcast_S_S17x64 : S_.BroadcastsInDim S17x64 (![] : Fin 0 → Fin S17x64.rank)
  reducesTo_S17x64_S_d0_1 : S17x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part2 {F : FTy → Type} [FloatOps F] (main_arg9 : FVec F S32x32 .f32) (main_arg10 : FVec F S32 .f32) (main_v33 : IVec S_ 1) : IVec S_ 1 :=
  let main_v34 : FVec F S32x32 .f32 := Host.absf main_arg9
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg6 : FVec F S32 .f32) (main_arg7 : FVec F S32x32 .f32) (main_arg8 : FVec F S32 .f32) (main_arg9 : FVec F S32x32 .f32) (main_arg10 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg7
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_v33

def fn {F : FTy → Type} [FloatOps F] (main_arg0 : FVec F S100000x17 .f32) (main_arg1 : IVec S2x1600000 32) (main_arg2 : IVec S100000 32) (main_arg3 : FVec F S17x64 .f32) (main_arg4 : FVec F S64 .f32) (main_arg5 : FVec F S64x32 .f32) (main_arg6 : FVec F S32 .f32) (main_arg7 : FVec F S32x32 .f32) (main_arg8 : FVec F S32 .f32) (main_arg9 : FVec F S32x32 .f32) (main_arg10 : FVec F S32 .f32) : IVec S_ 1 :=
  let main_v0 : FVec F S100000x17 .f32 := Host.absf main_arg0
  let main_cst : FVec F S_ .f32 := constant S_ .f32 0x7F800000#32
  let main_v1 : FVec F S100000x17 .f32 := broadcastInDim S100000x17 ![] bcast_S_S100000x17 main_cst
  let main_v2 : IVec S100000x17 1 := cmpf .olt main_v0 main_v1
  let main_c : IVec S_ 1 := constantI S_ 1 1#1
  let main_v3 : IVec S_ 1 := (fun x v => Host.reduce IntOp.andi x v reducesTo_S100000x17_S_d0_1 h_S_) main_v2 main_c
  let main_v4 : FVec F S17x64 .f32 := Host.absf main_arg3
  let main_cst_0 : FVec F S_ .f32 := constant S_ .f32 0x7F800000#32
  let main_v5 : FVec F S17x64 .f32 := broadcastInDim S17x64 ![] bcast_S_S17x64 main_cst_0
  let main_v6 : IVec S17x64 1 := cmpf .olt main_v4 main_v5
  let main_c_1 : IVec S_ 1 := constantI S_ 1 1#1
  let main_v7 : IVec S_ 1 := (fun x v => Host.reduce IntOp.andi x v reducesTo_S17x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg5
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg6 main_arg7 main_arg8 main_arg9 main_arg10 main_v13 main_v16
-- ==== Kernel.lean ====
abbrev S100000x17 : Shape := ⟨2, ![100000, 17]⟩
abbrev S2x1600000 : Shape := ⟨2, ![2, 1600000]⟩
abbrev S100000 : Shape := ⟨1, ![100000]⟩
abbrev S17x64 : Shape := ⟨2, ![17, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S2000x17 : Shape := ⟨2, ![2000, 17]⟩
abbrev S2000x64 : Shape := ⟨2, ![2000, 64]⟩
abbrev S1700000x64 : Shape := ⟨2, ![1700000, 64]⟩
abbrev S1x64 : Shape := ⟨2, ![1, 64]⟩
abbrev S100000x32 : Shape := ⟨2, ![100000, 32]⟩
abbrev S2000x32 : Shape := ⟨2, ![2000, 32]⟩
abbrev S1700000x32 : Shape := ⟨2, ![1700000, 32]⟩
abbrev S1x32 : Shape := ⟨2, ![1, 32]⟩
abbrev S100000x1 : Shape := ⟨2, ![100000, 1]⟩
abbrev S32x1 : Shape := ⟨2, ![32, 1]⟩
abbrev S32x512 : Shape := ⟨2, ![32, 512]⟩
abbrev S2000x1 : Shape := ⟨2, ![2000, 1]⟩
abbrev S1x512 : Shape := ⟨2, ![1, 512]⟩
abbrev S2000x512 : Shape := ⟨2, ![2000, 512]⟩
abbrev S512 : Shape := ⟨1, ![512]⟩
abbrev S512x32 : Shape := ⟨2, ![512, 32]⟩

abbrev nBuf : Space → Nat
  | .hbm => 99
  | .vmem => 31
  | .smem => 0
  | _ => 0

abbrev bufTy : (tb : Table) → Fin (tcTables nBuf tb) → BufTy
  | .hbm, ⟨0, _⟩ => ⟨S100000x17, .f32⟩
  | .hbm, ⟨1, _⟩ => ⟨S2x1600000, .i32⟩
  | .hbm, ⟨2, _⟩ => ⟨S100000, .i32⟩
  | .hbm, ⟨3, _⟩ => ⟨S17x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S32x32, .f32⟩
  | .hbm, ⟨10, _⟩ => ⟨S32, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000, .f32⟩
  | .hbm, ⟨53, _⟩ => ⟨S1700000, .f32⟩
  | .hbm, ⟨54, _⟩ => ⟨S100000x64, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x64, .f32⟩
  | .hbm, ⟨64, _⟩ => ⟨S1700000x1, .f32⟩
  | .hbm, ⟨65, _⟩ => ⟨S1700000x64, .f32⟩
  | .hbm, ⟨66, _⟩ => ⟨S1700000x64, .f32⟩
  | .hbm, ⟨67, _⟩ => ⟨S_, .f32⟩
  | .hbm, ⟨68, _⟩ => ⟨S100000x64, .f32⟩
  | .hbm, ⟨69, _⟩ => ⟨S1700000x1, .i32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x32, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x32, .f32⟩
  | .hbm, ⟨83, _⟩ => ⟨S1700000x1, .f32⟩
  | .hbm, ⟨84, _⟩ => ⟨S1700000x32, .f32⟩
  | .hbm, ⟨85, _⟩ => ⟨S1700000x32, .f32⟩
  | .hbm, ⟨86, _⟩ => ⟨S_, .f32⟩
  | .hbm, ⟨87, _⟩ => ⟨S100000x32, .f32⟩
  | .hbm, ⟨88, _⟩ => ⟨S1700000x1, .i32⟩
  | .hbm, ⟨89, _⟩ => ⟨S100000x32, .f32⟩
  | .hbm, ⟨90, _⟩ => ⟨S1x32, .f32⟩
  | .hbm, ⟨91, _⟩ => ⟨S100000x32, .f32⟩
  | .hbm, ⟨92, _⟩ => ⟨S100000x1, .i32⟩
  | .hbm, ⟨93, _⟩ => ⟨S32x32, .f32⟩
  | .hbm, ⟨94, _⟩ => ⟨S32x32, .f32⟩
  | .hbm, ⟨95, _⟩ => ⟨S32x1, .f32⟩
  | .hbm, ⟨96, _⟩ => ⟨S32x1, .f32⟩
  | .hbm, ⟨97, _⟩ => ⟨S32x512, .f32⟩
  | .hbm, ⟨98, _⟩ => ⟨S512x32, .f32⟩
  | .local _ .vmem, ⟨0, _⟩ => ⟨S2000x17, .f32⟩
  | .local _ .vmem, ⟨1, _⟩ => ⟨S2000x17, .f32⟩
  | .local _ .vmem, ⟨2, _⟩ => ⟨S17x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S64x32, .f32⟩
  | .local _ .vmem, ⟨13, _⟩ => ⟨S2000x32, .f32⟩
  | .local _ .vmem, ⟨14, _⟩ => ⟨S2000x32, .f32⟩
  | .local _ .vmem, ⟨15, _⟩ => ⟨S2000x32, .f32⟩
  | .local _ .vmem, ⟨16, _⟩ => ⟨S2000x32, .f32⟩
  | .local _ .vmem, ⟨17, _⟩ => ⟨S1x32, .f32⟩
  | .local _ .vmem, ⟨18, _⟩ => ⟨S2000x32, .f32⟩
  | .local _ .vmem, ⟨19, _⟩ => ⟨S2000x32, .f32⟩
  | .local _ .vmem, ⟨20, _⟩ => ⟨S2000x32, .f32⟩
  | .local _ .vmem, ⟨21, _⟩ => ⟨S2000x32, .f32⟩
  | .local _ .vmem, ⟨22, _⟩ => ⟨S2000x1, .i32⟩
  | .local _ .vmem, ⟨23, _⟩ => ⟨S2000x1, .i32⟩
  | .local _ .vmem, ⟨24, _⟩ => ⟨S32x32, .f32⟩
  | .local _ .vmem, ⟨25, _⟩ => ⟨S32x1, .f32⟩
  | .local _ .vmem, ⟨26, _⟩ => ⟨S32x32, .f32⟩
  | .local _ .vmem, ⟨27, _⟩ => ⟨S32x1, .f32⟩
  | .local _ .vmem, ⟨28, _⟩ => ⟨S32x512, .f32⟩
  | .local _ .vmem, ⟨29, _⟩ => ⟨S32x512, .f32⟩
  | .local _ .vmem, ⟨30, _⟩ => ⟨S1x512, .f32⟩
  | _, _ => ⟨S100000x17, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_10 : Ref sig .tc := ⟨.hbm, 74, rfl⟩
abbrev main_v49 : Ref sig .tc := ⟨.hbm, 75, rfl⟩
abbrev main_v50 : Ref sig .tc := ⟨.hbm, 76, rfl⟩
abbrev main_c_11 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg4_0 : Ref sig .tc := ⟨.vmem, 26, rfl⟩
abbrev cc4_stg5_0 : Ref sig .tc := ⟨.vmem, 27, rfl⟩
abbrev cc4_stg6_0 : Ref sig .tc := ⟨.vmem, 28, rfl⟩
abbrev cc4_scratch0 : Ref sig .tc := ⟨.vmem, 29, rfl⟩
abbrev cc4_scratch1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem3_0 : DmaSem sig := 25
abbrev cc4_sem4_0 : DmaSem sig := 26
abbrev cc4_sem5_0 : DmaSem sig := 27
abbrev cc4_sem6_0 : DmaSem sig := 28

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x17 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S17x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def k4_cond2 (i : grid4.Coords) : BitVec 1 :=
  let arg0 : BitVec 32 := BitVec.ofNat 32 (i 0).val
  let c49_i32 : BitVec 32 := 49#32
  let v25 : BitVec 1 := Scalar.cmpi .eq arg0 c49_i32
  let v26 : BitVec 32 := Scalar.extui v25
  let c0_i32_13 : BitVec 32 := 0#32
  let v27 : BitVec 1 := Scalar.cmpi .ne v26 c0_i32_13
  v27

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S32x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S32x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S32x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S32x512 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x17_S2000x17_0_0 : ∀ a, (![0, 0] : Fin 2 → Nat) a + S2000x17.size a ≤ S2000x17.size a
  h_S2000x17 : 0 < S2000x17.numel
  inb_S17x64_S17x64_0_0 : ∀ a, (![0, 0] : Fin 2 → Nat) a + S17x64.size a ≤ S17x64.size a
  h_S17x64 : 0 < S17x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x32_S64x32_0_0 : ∀ a, (![0, 0] : Fin 2 → Nat) a + S64x32.size a ≤ S64x32.size a
  h_S64x32 : 0 < S64x32.numel
  inb_S2000x32_S2000x32_0_0 : ∀ a, (![0, 0] : Fin 2 → Nat) a + S2000x32.size a ≤ S2000x32.size a
  h_S2000x32 : 0 < S2000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S2000x32_S2000x32 : S2000x32.ShapeCasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  shapeCasts_S100000_S100000x1 : S100000.ShapeCasts S100000x1
  transposes_S32x32_S32x32_1_0 : S32x32.Transposes [1, 0] S32x32
  shapeCasts_S32_S32x1 : S32.ShapeCasts S32x1
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x512_d1_w32 : S2000x512.Iotas .tc 32 [1]
  broadcasts_S2000x1_S2000x512 : S2000x1.Broadcasts S2000x512
  natLt_1_32 : 1 < 32
  reduces_S2000x512_S512 : S2000x512.Reduces [0] S512
  shapeCasts_S512_S1x512 : S512.ShapeCasts S1x512
  broadcasts_S1x512_S32x512 : S1x512.Broadcasts S32x512
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x512 : S32x1.Broadcasts S32x512
  transposes_S32x512_S512x32_1_0 : S32x512.Transposes [1, 0] S512x32
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x17_S17x64_S2000x64_1_0_0_1_n_n_wf : DotDims.WF S2000x17 S17x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S64x32_S2000x32_1_0_0_1_n_n_wf : DotDims.WF S2000x64 S64x32 S2000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S2000x32_S2000x512_S32x512_0_0_1_1_n_n_wf : DotDims.WF S2000x32 S2000x512 S32x512 [0] [0] [1] [1] [] []
  dot_S32x32_S32x512_S32x512_1_0_0_1_n_n_wf : DotDims.WF S32x32 S32x512 S32x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x17.size a ≤ S100000x17.size a
  hwx0_0 : ∀ i : grid0.Coords, EltTy.bits .f32 = 32 ∨ (Rect.block (s := S100000x17) S2000x17.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S17x64.size a ≤ S17x64.size a
  hwx0_1 : ∀ i : grid0.Coords, EltTy.bits .f32 = 32 ∨ (Rect.block (s := S17x64) S17x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x32.size a ≤ S100000x32.size a
  hwx2_2 : ∀ i : grid2.Coords, EltTy.bits .f32 = 32 ∨ (Rect.block (s := S100000x32) S2000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x32.size a ≤ S100000x32.size a
  hwx3_0 : ∀ i : grid3.Coords, EltTy.bits .f32 = 32 ∨ (Rect.block (s := S100000x32) S2000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x32.size a ≤ S100000x32.size a
  hwx3_2 : ∀ i : grid3.Coords, EltTy.bits .f32 = 32 ∨ (Rect.block (s := S100000x32) S2000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x32.size a ≤ S100000x32.size a
  hwx4_0 : ∀ i : grid4.Coords, EltTy.bits .f32 = 32 ∨ (Rect.block (s := S100000x32) S2000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S100000x1.size a
  hwx4_1 : ∀ i : grid4.Coords, EltTy.bits .i32 = 32 ∨ (Rect.block (s := S100000x1) S2000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32x32.size a ≤ S32x32.size a
  hwx4_2 : ∀ i : grid4.Coords, EltTy.bits .f32 = 32 ∨ (Rect.block (s := S32x32) S32x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x1.size a ≤ S32x1.size a
  hwx4_3 : ∀ i : grid4.Coords, EltTy.bits .f32 = 32 ∨ (Rect.block (s := S32x1) S32x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S32x32.size a ≤ S32x32.size a
  hwx4_4 : ∀ i : grid4.Coords, EltTy.bits .f32 = 32 ∨ (Rect.block (s := S32x32) S32x32.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S32x1.size a ≤ S32x1.size a
  hwx4_5 : ∀ i : grid4.Coords, EltTy.bits .f32 = 32 ∨ (Rect.block (s := S32x1) S32x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S32x512.size a ≤ S32x512.size a
  hwx4_6 : ∀ i : grid4.Coords, EltTy.bits .f32 = 32 ∨ (Rect.block (s := S32x512) S32x512.size (cc4_transform_6 i) (hinb4_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x17_S17x64_S2000x64_1_0_0_1_n_n : DotDims S2000x17 S17x64 S2000x64 where
  lhsContracting := [1]
  rhsContracting := [0]
  lhsNonContracting := [0]
  rhsNonContracting := [1]
  lhsBatch := []
  rhsBatch := []
  wf := dot_S2000x17_S17x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S2000x32_S2000x512_S32x512_0_0_1_1_n_n : DotDims S2000x32 S2000x512 S32x512 where
  lhsContracting := [0]
  rhsContracting := [0]
  lhsNonContracting := [1]
  rhsNonContracting := [1]
  lhsBatch := []
  rhsBatch := []
  wf := dot_S2000x32_S2000x512_S32x512_0_0_1_1_n_n_wf
def dot_S32x32_S32x512_S32x512_1_0_0_1_n_n : DotDims S32x32 S32x512 S32x512 where
  lhsContracting := [1]
  rhsContracting := [0]
  lhsNonContracting := [0]
  rhsNonContracting := [1]
  lhsBatch := []
  rhsBatch := []
  wf := dot_S32x32_S32x512_S32x512_1_0_0_1_n_n_wf

abbrev win0_0 : Pipeline.Window sig grid0 :=
  Pipeline.Window.ofSpec (Memref.whole main_arg0) S2000x17.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S17x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S2000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S2000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S2000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v64) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v65) S32x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v67) S32x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v66) S32x32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v68) S32x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v69) S32x512.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun _ => false | 6 => fun i => !(k4_cond2 i == 1#1) | ⟨_ + 7, h⟩ => absurd h (Nat.not_lt.2 (Nat.le_add_left _ _))

class Facts : Prop extends Facts₀ where

variable [Facts]
-- ==== ReferenceIdeal.lean ====
abbrev S100000x17 : Shape := ⟨2, ![100000, 17]⟩
abbrev S2x1600000 : Shape := ⟨2, ![2, 1600000]⟩
abbrev S100000 : Shape := ⟨1, ![100000]⟩
abbrev S17x64 : Shape := ⟨2, ![17, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩
abbrev S512 : Shape := ⟨1, ![512]⟩
abbrev S100000x1 : Shape := ⟨2, ![100000, 1]⟩
abbrev S512x32 : Shape := ⟨2, ![512, 32]⟩
abbrev S512x1 : Shape := ⟨2, ![512, 1]⟩

abbrev nBuf : Space → Nat
  | .hbm => 125
  | .vmem => 0
  | .smem => 0
  | _ => 0

abbrev bufTy : (tb : Table) → Fin (tcTables nBuf tb) → BufTy
  | .hbm, ⟨0, _⟩ => ⟨S100000x17, .f32⟩
  | .hbm, ⟨1, _⟩ => ⟨S2x1600000, .i32⟩
  | .hbm, ⟨2, _⟩ => ⟨S100000, .i32⟩
  | .hbm, ⟨3, _⟩ => ⟨S17x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S32x32, .f32⟩
  | .hbm, ⟨10, _⟩ => ⟨S32, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000, .f32⟩
  | .hbm, ⟨53, _⟩ => ⟨S1700000, .f32⟩
  | .hbm, ⟨54, _⟩ => ⟨S100000x64, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x64, .f32⟩
  | .hbm, ⟨64, _⟩ => ⟨S1700000x1, .f32⟩
  | .hbm, ⟨65, _⟩ => ⟨S1700000x64, .f32⟩
  | .hbm, ⟨66, _⟩ => ⟨S1700000x64, .f32⟩
  | .hbm, ⟨67, _⟩ => ⟨S_, .f32⟩
  | .hbm, ⟨68, _⟩ => ⟨S100000x64, .f32⟩
  | .hbm, ⟨69, _⟩ => ⟨S1700000x1, .i32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S_, .f32⟩
  | .hbm, ⟨75, _⟩ => ⟨S100000x64, .f32⟩
  | .hbm, ⟨76, _⟩ => ⟨S100000x64, .f32⟩
  | .hbm, ⟨77, _⟩ => ⟨S100000x32, .f32⟩
  | .hbm, ⟨78, _⟩ => ⟨S_, .i32⟩
  | .hbm, ⟨79, _⟩ => ⟨S1700000, .i32⟩
  | .hbm, ⟨80, _⟩ => ⟨S1700000, .i1⟩
  | .hbm, ⟨81, _⟩ => ⟨S_, .i32⟩
  | .hbm, ⟨82, _⟩ => ⟨S1700000, .i32⟩
  | .hbm, ⟨83, _⟩ => ⟨S1700000, .i32⟩
  | .hbm, ⟨84, _⟩ => ⟨S1700000, .i32⟩
  | .hbm, ⟨85, _⟩ => ⟨S1700000x1, .i32⟩
  | .hbm, ⟨86, _⟩ => ⟨S1700000x32, .f32⟩
  | .hbm, ⟨87, _⟩ => ⟨S1700000x1, .f32⟩
  | .hbm, ⟨88, _⟩ => ⟨S1700000x32, .f32⟩
  | .hbm, ⟨89, _⟩ => ⟨S1700000x32, .f32⟩
  | .hbm, ⟨90, _⟩ => ⟨S_, .f32⟩
  | .hbm, ⟨91, _⟩ => ⟨S100000x32, .f32⟩
  | .hbm, ⟨92, _⟩ => ⟨S1700000x1, .i32⟩
  | .hbm, ⟨93, _⟩ => ⟨S100000x32, .f32⟩
  | .hbm, ⟨94, _⟩ => ⟨S1x32, .f32⟩
  | .hbm, ⟨95, _⟩ => ⟨S100000x32, .f32⟩
  | .hbm, ⟨96, _⟩ => ⟨S100000x32, .f32⟩
  | .hbm, ⟨97, _⟩ => ⟨S_, .f32⟩
  | .hbm, ⟨98, _⟩ => ⟨S100000, .f32⟩
  | .hbm, ⟨99, _⟩ => ⟨S_, .f32⟩
  | .hbm, ⟨100, _⟩ => ⟨S512, .f32⟩
  | .hbm, ⟨101, _⟩ => ⟨S100000x1, .i32⟩
  | .hbm, ⟨102, _⟩ => ⟨S512, .f32⟩
  | .hbm, ⟨103, _⟩ => ⟨S_, .f32⟩
  | .hbm, ⟨104, _⟩ => ⟨S512x32, .f32⟩
  | .hbm, ⟨105, _⟩ => ⟨S100000x1, .i32⟩
  | .hbm, ⟨106, _⟩ => ⟨S512x32, .f32⟩
  | .hbm, ⟨107, _⟩ => ⟨S_, .f32⟩
  | .hbm, ⟨108, _⟩ => ⟨S_, .f32⟩
  | .hbm, ⟨109, _⟩ => ⟨S512, .f32⟩
  | .hbm, ⟨110, _⟩ => ⟨S512, .f32⟩
  | .hbm, ⟨111, _⟩ => ⟨S512x1, .f32⟩
  | .hbm, ⟨112, _⟩ => ⟨S512x32, .f32⟩
  | .hbm, ⟨113, _⟩ => ⟨S512x32, .f32⟩
  | .hbm, ⟨114, _⟩ => ⟨S512x32, .f32⟩
  | .hbm, ⟨115, _⟩ => ⟨S1x32, .f32⟩
  | .hbm, ⟨116, _⟩ => ⟨S512x32, .f32⟩
  | .hbm, ⟨117, _⟩ => ⟨S512x32, .f32⟩
  | .hbm, ⟨118, _⟩ => ⟨S_, .f32⟩
  | .hbm, ⟨119, _⟩ => ⟨S512x32, .f32⟩
  | .hbm, ⟨120, _⟩ => ⟨S512x32, .f32⟩
  | .hbm, ⟨121, _⟩ => ⟨S512x32, .f32⟩
  | .hbm, ⟨122, _⟩ => ⟨S1x32, .f32⟩
  | .hbm, ⟨123, _⟩ => ⟨S512x32, .f32⟩
  | .hbm, ⟨124, _⟩ => ⟨S512x32, .f32⟩
  | _, _ => ⟨S100000x17, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_13 : Ref sig .tc := ⟨.hbm, 97, rfl⟩
abbrev main_v67 : Ref sig .tc := ⟨.hbm, 98, rfl⟩
abbrev main_cst_14 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_15 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_16 : Ref sig .tc := ⟨.hbm, 107, rfl⟩
abbrev main_call2_v0 : Ref sig .tc := ⟨.hbm, 108, rfl⟩
abbrev main_call2_v1 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_call3_cst : Ref sig .tc := ⟨.hbm, 118, rfl⟩
abbrev main_call3_v0 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S512 : S_.BroadcastsInDim S512 (![] : Fin 0 → Fin S512.rank)
  bcast_S100000_S100000x1_0 : S100000.BroadcastsInDim S100000x1 (![0] : Fin 1 → Fin S100000x1.rank)
  bcast_S_S512x32 : S_.BroadcastsInDim S512x32 (![] : Fin 0 → Fin S512x32.rank)
  bcast_S512_S512x1_0 : S512.BroadcastsInDim S512x1 (![0] : Fin 1 → Fin S512x1.rank)
  bcast_S512x1_S512x32_0_1 : S512x1.BroadcastsInDim S512x32 (![0, 1] : Fin 2 → Fin S512x32.rank)
  bcast_S1x32_S512x32_0_1 : S1x32.BroadcastsInDim S512x32 (![0, 1] : Fin 2 → Fin S512x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x17_S17x64_S100000x64_1_0_0_1_n_n_wf : DotDims.WF S100000x17 S17x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  scatter_S512_S100000x1_S100000_n_0_0_1_wf : ScatterDims.WF S512 S100000x1 S100000 [] [0] [0] 1
  scatter_S512x32_S100000x1_S100000x32_1_0_0_1_wf : ScatterDims.WF S512x32 S100000x1 S100000x32 [1] [0] [0] 1
  dot_S512x32_S32x32_S512x32_1_0_0_1_n_n_wf : DotDims.WF S512x32 S32x32 S512x32 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x17_S17x64_S100000x64_1_0_0_1_n_n : DotDims S100000x17 S17x64 S100000x64 where
  lhsContracting := [1]
  rhsContracting := [0]
  lhsNonContracting := [0]
  rhsNonContracting := [1]
  lhsBatch := []
  rhsBatch := []
  wf := dot_S100000x17_S17x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def scatter_S512x32_S100000x1_S100000x32_1_0_0_1 : ScatterDims S512x32 S100000x1 S100000x32 where
  updateWindowDims := [1]
  insertedWindowDims := [0]
  scatterDimsToOperandDims := [0]
  indexVectorDim := 1
  wf := scatter_S512x32_S100000x1_S100000x32_1_0_0_1_wf
def dot_S512x32_S32x32_S512x32_1_0_0_1_n_n : DotDims S512x32 S32x32 S512x32 where
  lhsContracting := [1]
  rhsContracting := [0]
  lhsNonContracting := [0]
  rhsNonContracting := [1]
  lhsBatch := []
  rhsBatch := []
  wf := dot_S512x32_S32x32_S512x32_1_0_0_1_n_n_wf

class Facts : Prop extends Facts₀ where

variable [Facts]
-- ==== Proof.KB.R0.lean ====
import proofs.«409944_j24326694765162_4_alg».proof.Proof.Gen.Kernel.Launch
import proofs.«409944_j24326694765162_4_alg».proof.Proof.Gen.Kernel.Skeleton
import proofs.«409944_j24326694765162_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the first matrix product (2000×17 row blocks of the features times the 17×64 weights)

Three windows over a grid of 50 points: window 0 is a row block of the first operand, moved in at every point;
window 1 is the whole second operand, moved in once (its block index is constant); window 2 is the row block of
the result, moved out at every point. Everything is stated at the contents `V` the region is entered with. -/

/-! ## Blocks of the windows -/

/-- The block of window `w` at grid point `t`: the window's rectangle there, read from the array as `V` has it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 0 is an input moved in at every point, so the buffer handed to the body holds the block of that point.
    Stated for any proof data with the array of `V` (`hA`) whose body leaves the block untouched (`hafter`); the
    window is neither clipped nor idle anywhere. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1 is an input moved in at the first point only. At a later point nothing is moved, but the block index
    has not changed since the point before and the body left the buffer as it found it, so by induction along the
    grid the buffer still holds the block of the current point (which is the same block at every point). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## Rectangles the body touches: each buffer, whole -/

abbrev r0_0 : Rect S2000x17 := Rect.unit (s := S2000x17) ![0, 0] S2000x17.size inb_S2000x17_S2000x17_0_0
abbrev r0_1 : Rect S17x64 := Rect.unit (s := S17x64) ![0, 0] S17x64.size inb_S17x64_S17x64_0_0
abbrev r0_2 : Rect S2000x64 := Rect.unit (s := S2000x64) ![0, 0] S2000x64.size inb_S2000x64_S2000x64_0_0

/-! ## Contents of the output buffer after the body -/

/-- The output buffer after the body, as a function of the two input blocks: a single store of the payload over
    the whole buffer, written as a one-piece list. -/
def out0_2 (x0 : Vec F S2000x17 .f32) (x1 : Vec F S17x64 .f32) : Vec F S2000x64 .f32 :=
  View.canon [⟨r0_2, k0_pay1 (View.ld x0 r0_0) (View.ld x1 r0_1)⟩]

/-- The one stored rectangle is the whole buffer, so every index of the buffer lies in it. -/
theorem cover0_2 (p0 : Vec F S2000x64 .f32) (y : S2000x64.Idx) :
    ∃ pc ∈ ([⟨r0_2, p0⟩] : List (View.Piece (Elt F) S2000x64 .f32)), y ∈ pc.1.set :=
  View.cover_of_tiled [⟨r0_2, p0⟩] S2000x64.size (by rfl) y

/-! ## Hoare triple of the kernel -/

set_option maxHeartbeats 1000000 in
/-- Run on three whole buffers, the two inputs holding `x0` and `x1` and the output holding anything, the kernel
    reaches its continuation with the inputs unchanged and the output at `out0_2 x0 x1`. The kernel loads both
    inputs, loads the output (the value is discarded), and stores the payload over the whole output; after the
    store, reading the buffer back gives the one-piece list because that piece covers it. -/
theorem sound_kernel0 (c : Dev nD) (E : Set ℕ) (i : grid0.Coords) (arg1 : Memref sig .tc .vmem S2000x17 .f32) (harg1 : arg1.IsWhole) (arg2 : Memref sig .tc .vmem S17x64 .f32) (harg2 : arg2.IsWhole) (arg3 : Memref sig .tc .vmem S2000x64 .f32) (harg3 : arg3.IsWhole)
    (x0 : Vec F S2000x17 .f32) (x1 : Vec F S17x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## Proof data of the pipeline -/

/-- Proof data on core `c`: the arrays are those of `V`; after the body at point `t` each input buffer still
    holds its block and the output buffer holds `out0_2` of the two input blocks; the invariant is the one that
    keeps the remaining scoped buffers and the generator register as they are; nothing is owed; all shares full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The arrays of the proof data are those of `V` (a projection of the definition). -/
theorem A_eq0 (c : Dev nD) (w : Fin cfg0.W) : (dat0 V c).A w = V c (Pipeline.arrRef spec0 w) := by
  dsimp only [dat0]

/-- What the body leaves in each window (the case split of the definition, reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input buffer handed to the body holds the block of the current point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The obligation on the body, at an arbitrary point -/

/-- What holds when the body is entered at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what holds when it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the kernel's triple applies with those blocks
    as `x0`, `x1`; the invariant and what is owed are the same before and after and are carried across. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation in the form the pipeline theorems take it: the conjunction over the three windows, unfolded. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.R1.lean ====
import proofs.«409944_j24326694765162_4_alg».proof.Proof.Gen.Kernel.Launch
import proofs.«409944_j24326694765162_4_alg».proof.Proof.Gen.Kernel.Skeleton
import proofs.«409944_j24326694765162_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: bias and rectification (2000×64 row blocks plus the 1×64 bias row, then the maximum with zero)

Three windows over a grid of 50 points: window 0 is a row block of the first operand, moved in at every point;
window 1 is the whole second operand, moved in once (its block index is constant); window 2 is the row block of
the result, moved out at every point. Everything is stated at the contents `V` the region is entered with. -/

/-! ## Blocks of the windows -/

/-- The block of window `w` at grid point `t`: the window's rectangle there, read from the array as `V` has it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0 is an input moved in at every point, so the buffer handed to the body holds the block of that point.
    Stated for any proof data with the array of `V` (`hA`) whose body leaves the block untouched (`hafter`); the
    window is neither clipped nor idle anywhere. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1 is an input moved in at the first point only. At a later point nothing is moved, but the block index
    has not changed since the point before and the body left the buffer as it found it, so by induction along the
    grid the buffer still holds the block of the current point (which is the same block at every point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## Rectangles the body touches: each buffer, whole -/

abbrev r1_0 : Rect S2000x64 := Rect.unit (s := S2000x64) ![0, 0] S2000x64.size inb_S2000x64_S2000x64_0_0
abbrev r1_1 : Rect S1x64 := Rect.unit (s := S1x64) ![0, 0] S1x64.size inb_S1x64_S1x64_0_0
abbrev r1_2 : Rect S2000x64 := Rect.unit (s := S2000x64) ![0, 0] S2000x64.size inb_S2000x64_S2000x64_0_0

/-! ## Contents of the output buffer after the body -/

/-- The output buffer after the body, as a function of the two input blocks: a single store of the payload over
    the whole buffer, written as a one-piece list. -/
def out1_2 (x0 : Vec F S2000x64 .f32) (x1 : Vec F S1x64 .f32) : Vec F S2000x64 .f32 :=
  View.canon [⟨r1_2, k1_pay1 (View.ld x0 r1_0) (View.ld x1 r1_1)⟩]

/-- The one stored rectangle is the whole buffer, so every index of the buffer lies in it. -/
theorem cover1_2 (p0 : Vec F S2000x64 .f32) (y : S2000x64.Idx) :
    ∃ pc ∈ ([⟨r1_2, p0⟩] : List (View.Piece (Elt F) S2000x64 .f32)), y ∈ pc.1.set :=
  View.cover_of_tiled [⟨r1_2, p0⟩] S2000x64.size (by rfl) y

/-! ## Hoare triple of the kernel -/

set_option maxHeartbeats 1000000 in
/-- Run on three whole buffers, the two inputs holding `x0` and `x1` and the output holding anything, the kernel
    reaches its continuation with the inputs unchanged and the output at `out1_2 x0 x1`. The kernel loads both
    inputs, loads the output (the value is discarded), and stores the payload over the whole output; after the
    store, reading the buffer back gives the one-piece list because that piece covers it. -/
theorem sound_kernel1 (c : Dev nD) (E : Set ℕ) (i : grid1.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole)
    (x0 : Vec F S2000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_act_kernel i arg1 harg1 arg2 harg2 arg3 harg3) K := by
  simp only [cc1__bias_act_kernel_eq_skeleton]; unfold cc1__bias_act_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## Proof data of the pipeline -/

/-- Proof data on core `c`: the arrays are those of `V`; after the body at point `t` each input buffer still
    holds its block and the output buffer holds `out1_2` of the two input blocks; the invariant is the one that
    keeps the remaining scoped buffers and the generator register as they are; nothing is owed; all shares full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The arrays of the proof data are those of `V` (a projection of the definition). -/
theorem A_eq1 (c : Dev nD) (w : Fin cfg1.W) : (dat1 V c).A w = V c (Pipeline.arrRef spec1 w) := by
  dsimp only [dat1]

/-- What the body leaves in each window (the case split of the definition, reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input buffer handed to the body holds the block of the current point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The obligation on the body, at an arbitrary point -/

/-- What holds when the body is entered at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what holds when it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input buffers hold their blocks, so the kernel's triple applies with those blocks
    as `x0`, `x1`; the invariant and what is owed are the same before and after and are carried across. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation in the form the pipeline theorems take it: the conjunction over the three windows, unfolded. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.R2.lean ====
import proofs.«409944_j24326694765162_4_alg».proof.Proof.Gen.Kernel.Launch
import proofs.«409944_j24326694765162_4_alg».proof.Proof.Gen.Kernel.Skeleton
import proofs.«409944_j24326694765162_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the second matrix product (2000×64 row blocks times the 64×32 weights)

Three windows over a grid of 50 points: window 0 is a row block of the first operand, moved in at every point;
window 1 is the whole second operand, moved in once (its block index is constant); window 2 is the row block of
the result, moved out at every point. Everything is stated at the contents `V` the region is entered with. -/

/-! ## Blocks of the windows -/

/-- The block of window `w` at grid point `t`: the window's rectangle there, read from the array as `V` has it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Window 0 is an input moved in at every point, so the buffer handed to the body holds the block of that point.
    Stated for any proof data with the array of `V` (`hA`) whose body leaves the block untouched (`hafter`); the
    window is neither clipped nor idle anywhere. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1 is an input moved in at the first point only. At a later point nothing is moved, but the block index
    has not changed since the point before and the body left the buffer as it found it, so by induction along the
    grid the buffer still holds the block of the current point (which is the same block at every point). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## Rectangles the body touches: each buffer, whole -/

abbrev r2_0 : Rect S2000x64 := Rect.unit (s := S2000x64) ![0, 0] S2000x64.size inb_S2000x64_S2000x64_0_0
abbrev r2_1 : Rect S64x32 := Rect.unit (s := S64x32) ![0, 0] S64x32.size inb_S64x32_S64x32_0_0
abbrev r2_2 : Rect S2000x32 := Rect.unit (s := S2000x32) ![0, 0] S2000x32.size inb_S2000x32_S2000x32_0_0

/-! ## Contents of the output buffer after the body -/

/-- The output buffer after the body, as a function of the two input blocks: a single store of the payload over
    the whole buffer, written as a one-piece list. -/
def out2_2 (x0 : Vec F S2000x64 .f32) (x1 : Vec F S64x32 .f32) : Vec F S2000x32 .f32 :=
  View.canon [⟨r2_2, k2_pay1 (View.ld x0 r2_0) (View.ld x1 r2_1)⟩]

/-- The one stored rectangle is the whole buffer, so every index of the buffer lies in it. -/
theorem cover2_2 (p0 : Vec F S2000x32 .f32) (y : S2000x32.Idx) :
    ∃ pc ∈ ([⟨r2_2, p0⟩] : List (View.Piece (Elt F) S2000x32 .f32)), y ∈ pc.1.set :=
  View.cover_of_tiled [⟨r2_2, p0⟩] S2000x32.size (by rfl) y

/-! ## Hoare triple of the kernel -/

set_option maxHeartbeats 1000000 in
/-- Run on three whole buffers, the two inputs holding `x0` and `x1` and the output holding anything, the kernel
    reaches its continuation with the inputs unchanged and the output at `out2_2 x0 x1`. The kernel loads both
    inputs, loads the output (the value is discarded), and stores the payload over the whole output; after the
    store, reading the buffer back gives the one-piece list because that piece covers it. -/
theorem sound_kernel2 (c : Dev nD) (E : Set ℕ) (i : grid2.Coords) (arg1 : Memref sig .tc .vmem S2000x64 .f32) (harg1 : arg1.IsWhole) (arg2 : Memref sig .tc .vmem S64x32 .f32) (harg2 : arg2.IsWhole) (arg3 : Memref sig .tc .vmem S2000x32 .f32) (harg3 : arg3.IsWhole)
    (x0 : Vec F S2000x64 .f32) (x1 : Vec F S64x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## Proof data of the pipeline -/

/-- Proof data on core `c`: the arrays are those of `V`; after the body at point `t` each input buffer still
    holds its block and the output buffer holds `out2_2` of the two input blocks; the invariant is the one that
    keeps the remaining scoped buffers and the generator register as they are; nothing is owed; all shares full. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The arrays of the proof data are those of `V` (a projection of the definition). -/
theorem A_eq2 (c : Dev nD) (w : Fin cfg2.W) : (dat2 V c).A w = V c (Pipeline.arrRef spec2 w) := by
  dsimp only [dat2]

/-- What the body leaves in each window (the case split of the definition, reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input buffer handed to the body holds the block of the current point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The obligation on the body, at an arbitrary point -/

/-- What holds when the body is entered at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what holds when it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input buffers hold their blocks, so the kernel's triple applies with those blocks
    as `x0`, `x1`; the invariant and what is owed are the same before and after and are carried across. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation in the form the pipeline theorems take it: the conjunction over the three windows, unfolded. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.R3.lean ====
import proofs.«409944_j24326694765162_4_alg».proof.Proof.Gen.Kernel.Launch
import proofs.«409944_j24326694765162_4_alg».proof.Proof.Gen.Kernel.Skeleton
import proofs.«409944_j24326694765162_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: bias (2000×32 row blocks plus the 1×32 bias row)

Three windows over a grid of 50 points: window 0 is a row block of the first operand, moved in at every point;
window 1 is the whole second operand, moved in once (its block index is constant); window 2 is the row block of
the result, moved out at every point. Everything is stated at the contents `V` the region is entered with. -/

/-! ## Blocks of the windows -/

/-- The block of window `w` at grid point `t`: the window's rectangle there, read from the array as `V` has it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Window 0 is an input moved in at every point, so the buffer handed to the body holds the block of that point.
    Stated for any proof data with the array of `V` (`hA`) whose body leaves the block untouched (`hafter`); the
    window is neither clipped nor idle anywhere. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Window 1 is an input moved in at the first point only. At a later point nothing is moved, but the block index
    has not changed since the point before and the body left the buffer as it found it, so by induction along the
    grid the buffer still holds the block of the current point (which is the same block at every point). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## Rectangles the body touches: each buffer, whole -/

abbrev r3_0 : Rect S2000x32 := Rect.unit (s := S2000x32) ![0, 0] S2000x32.size inb_S2000x32_S2000x32_0_0
abbrev r3_1 : Rect S1x32 := Rect.unit (s := S1x32) ![0, 0] S1x32.size inb_S1x32_S1x32_0_0
abbrev r3_2 : Rect S2000x32 := Rect.unit (s := S2000x32) ![0, 0] S2000x32.size inb_S2000x32_S2000x32_0_0

/-! ## Contents of the output buffer after the body -/

/-- The output buffer after the body, as a function of the two input blocks: a single store of the payload over
    the whole buffer, written as a one-piece list. -/
def out3_2 (x0 : Vec F S2000x32 .f32) (x1 : Vec F S1x32 .f32) : Vec F S2000x32 .f32 :=
  View.canon [⟨r3_2, k3_pay1 (View.ld x0 r3_0) (View.ld x1 r3_1)⟩]

/-- The one stored rectangle is the whole buffer, so every index of the buffer lies in it. -/
theorem cover3_2 (p0 : Vec F S2000x32 .f32) (y : S2000x32.Idx) :
    ∃ pc ∈ ([⟨r3_2, p0⟩] : List (View.Piece (Elt F) S2000x32 .f32)), y ∈ pc.1.set :=
  View.cover_of_tiled [⟨r3_2, p0⟩] S2000x32.size (by rfl) y

/-! ## Hoare triple of the kernel -/

set_option maxHeartbeats 1000000 in
/-- Run on three whole buffers, the two inputs holding `x0` and `x1` and the output holding anything, the kernel
    reaches its continuation with the inputs unchanged and the output at `out3_2 x0 x1`. The kernel loads both
    inputs, loads the output (the value is discarded), and stores the payload over the whole output; after the
    store, reading the buffer back gives the one-piece list because that piece covers it. -/
theorem sound_kernel3 (c : Dev nD) (E : Set ℕ) (i : grid3.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole)
    (x0 : Vec F S2000x32 .f32) (x1 : Vec F S1x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_act_kernel i arg1 harg1 arg2 harg2 arg3 harg3) K := by
  simp only [cc3__bias_act_kernel_eq_skeleton]; unfold cc3__bias_act_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## Proof data of the pipeline -/

/-- Proof data on core `c`: the arrays are those of `V`; after the body at point `t` each input buffer still
    holds its block and the output buffer holds `out3_2` of the two input blocks; the invariant is the one that
    keeps the remaining scoped buffers and the generator register as they are; nothing is owed; all shares full. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The arrays of the proof data are those of `V` (a projection of the definition). -/
theorem A_eq3 (c : Dev nD) (w : Fin cfg3.W) : (dat3 V c).A w = V c (Pipeline.arrRef spec3 w) := by
  dsimp only [dat3]

/-- What the body leaves in each window (the case split of the definition, reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input buffer handed to the body holds the block of the current point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The obligation on the body, at an arbitrary point -/

/-- What holds when the body is entered at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what holds when it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the input buffers hold their blocks, so the kernel's triple applies with those blocks
    as `x0`, `x1`; the invariant and what is owed are the same before and after and are carried across. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation in the form the pipeline theorems take it: the conjunction over the three windows, unfolded. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KB.R4Runs.lean ====
import proofs.«409944_j24326694765162_4_alg».proof.Proof.Gen.Kernel.Launch
import proofs.«409944_j24326694765162_4_alg».proof.Proof.Gen.Kernel.Skeleton
import proofs.«409944_j24326694765162_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s and whose body leaves the block in place: an unfetched input's block index has not
    moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof
    data whose array is `V`'s and whose body leaves the block in place: an unfetched input's block index has not
    moved; the window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof
    data whose array is `V`'s and whose body leaves the block in place: an unfetched input's block index has not
    moved; the window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof
    data whose array is `V`'s and whose body leaves the block in place: an unfetched input's block index has not
    moved; the window is uncut and never idle. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for any proof
    data whose array is `V`'s and whose body leaves the block in place: an unfetched input's block index has not
    moved; the window is uncut and never idle. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not, for any proof
    data whose array is `V`'s and whose body leaves the block in place: an unfetched input's block index has not
    moved; the window is uncut and never idle. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the body's first `scf.if` (the reset of the two accumulators), from the grid coordinates:
    the skeleton's scalar chain substituted. -/
abbrev cond4_0 (i : grid4.Coords) : Prop := (Scalar.cmpi .ne (Scalar.extui (Scalar.cmpi .eq (BitVec.ofNat 32 (i 0).val) 0#32)) 0#32) = 1#1
/-- It holds at the first point only — decided over the grid. -/
theorem hcond4_0 : ∀ t : Fin cfg4.N, cond4_0 (grid4.coords t) ↔ t.val = 0 :=
  (by decide +kernel : ∀ t : Fin grid4.N, cond4_0 (grid4.coords t) ↔ t.val = 0)

/-- The condition of the body's second `scf.if` (the store of the output block). -/
abbrev cond4_1 (i : grid4.Coords) : Prop := k4_cond2 i = 1#1
/-- It holds at the last point only — decided over the grid. -/
theorem hcond4_1 : ∀ t : Fin cfg4.N, cond4_1 (grid4.coords t) ↔ t.val = 49 :=
  (by decide +kernel : ∀ t : Fin grid4.N, cond4_1 (grid4.coords t) ↔ t.val = 49)

/-! ## Where the windows are idle -/

/-- Window 0 is never idle (an input). -/
theorem liveAt4_0 : ∀ t : Fin cfg4.N, cfg4.idle 0 (grid4.coords t) = false := by decide +kernel
/-- Window 1 is never idle (an input). -/
theorem liveAt4_1 : ∀ t : Fin cfg4.N, cfg4.idle 1 (grid4.coords t) = false := by decide +kernel
/-- Window 2 is never idle (an input). -/
theorem liveAt4_2 : ∀ t : Fin cfg4.N, cfg4.idle 2 (grid4.coords t) = false := by decide +kernel
/-- Window 3 is never idle (an input). -/
theorem liveAt4_3 : ∀ t : Fin cfg4.N, cfg4.idle 3 (grid4.coords t) = false := by decide +kernel
/-- Window 4 is never idle (an input). -/
theorem liveAt4_4 : ∀ t : Fin cfg4.N, cfg4.idle 4 (grid4.coords t) = false := by decide +kernel
/-- Window 5 is never idle (an input). -/
theorem liveAt4_5 : ∀ t : Fin cfg4.N, cfg4.idle 5 (grid4.coords t) = false := by decide +kernel
/-- At the first point the configuration calls output 6 idle: the body stores nothing into it there. -/
theorem idleAt4_6_A : ∀ t : Fin cfg4.N, cond4_0 (grid4.coords t) → ¬cond4_1 (grid4.coords t) → cfg4.idle 6 (grid4.coords t) = true := by decide +kernel
/-- At the first point the pipeline does not write output 6's block back. -/
theorem noFlush4_6_A : ∀ t : Fin cfg4.N, cond4_0 (grid4.coords t) → ¬cond4_1 (grid4.coords t) → (cfg4.win 6).flush t = false := by decide +kernel
/-- At the middle points output 6 is idle as well. -/
theorem idleAt4_6_B : ∀ t : Fin cfg4.N, ¬cond4_0 (grid4.coords t) → ¬cond4_1 (grid4.coords t) → cfg4.idle 6 (grid4.coords t) = true := by decide +kernel
/-- At the middle points the pipeline does not write output 6's block back. -/
theorem noFlush4_6_B : ∀ t : Fin cfg4.N, ¬cond4_0 (grid4.coords t) → ¬cond4_1 (grid4.coords t) → (cfg4.win 6).flush t = false := by decide +kernel
/-- At the last point output 6 is live: the body stores into it. -/
theorem liveAt4_6_C : ∀ t : Fin cfg4.N, ¬cond4_0 (grid4.coords t) → cond4_1 (grid4.coords t) → cfg4.idle 6 (grid4.coords t) = false := by decide +kernel

/-! ## The staging and scratch memrefs the body is called with -/

/-- One staging buffer of output window 6, through which its contents are stated (the choice does not matter: the
    pieces cover the block). -/
abbrev VO4_6 : View sig .tc .vmem S32x512 .f32 := (Memref.whole cc4_stg6_0 : Memref sig .tc .vmem S32x512 .f32).view
/-- Each window's current staging memref at point `t`, spelled as the pipeline passes it, and its wholeness. -/
abbrev ms4_0 (t : Fin cfg4.N) : Memref sig .tc .vmem S2000x32 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2000x1 .i32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S32x32 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S32x1 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S32x32 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S32x1 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S32x512 .f32 := win4_6.stage (cfg4.slots t 6)
abbrev hs4_6 (t : Fin cfg4.N) : (ms4_6 t).IsWhole := hstage4_6 ((cfg4.slots t 6).cast nbuf4_6)
/-- The scratch operands: whole scoped buffers of the kernel's own, passed beside the windows — the running sum and
    the running count. -/
abbrev scM4_0 : Memref sig .tc .vmem S32x512 .f32 := Memref.whole cc4_scratch0
abbrev scM4_1 : Memref sig .tc .vmem S1x512 .f32 := Memref.whole cc4_scratch1
/-- The two carried scratches as views: what they hold is stated through these. -/
abbrev VS4_0 : View sig .tc .vmem S32x512 .f32 := scM4_0.view
abbrev VS4_1 : View sig .tc .vmem S1x512 .f32 := scM4_1.view

/-- Every scoped buffer of the core that is neither a staging buffer of this call nor one of its two scratch
    operands (the other calls' staging buffers), each at some contents: carried through the region unopened. -/
abbrev rest4 (c : Dev nD) : sProp 𝕄 :=
  Pipeline.scopedRestBut (Ix := Unit) (Name := ℕ) (U := UR sig nD τ) (Lvl := ℕ) (Val := Elt F) spec4 c [cc4_scratch0, cc4_scratch1]

/-- The scoped rest split at the call's own two scratch operands. -/
theorem scopedRest4_split (c : Dev nD) :
    (Pipeline.scopedRest (Ix := Unit) (Name := ℕ) (U := UR sig nD τ) (Lvl := ℕ) (Val := Elt F) spec4 c : sProp 𝕄)
      = iprop(iprop((∃ f : Buf (Elt F) ((c : Thread nD τ).loc cc4_scratch0), ((c : Thread nD τ).loc cc4_scratch0) ↦{fullShare} f) ∗ (∃ f : Buf (Elt F) ((c : Thread nD τ).loc cc4_scratch1), ((c : Thread nD τ).loc cc4_scratch1) ↦{fullShare} f))
          ∗ rest4 (F := F) c) :=
  Pipeline.scopedRest_split_of_list spec4 c [cc4_scratch0, cc4_scratch1] (by decide) (by decide)

/-- The region's entry invariant with the two scratch operands as memrefs owned at some contents, the other scoped
    buffers unopened, the generator register at some state: what the body obligation hands the run and takes back. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d)) ∗ rest4 (F := F) c) ∗ (∃ r, prngReg c r)) := by
  unfold Pipeline.ΦA; rw [scopedRest4_split]; simp only [scM4_0, scM4_1, owns_whole]; try rfl

end Cert.Kernel.Hand

end
-- ==== Proof.KB.R4RunA.lean ====
import proofs.«409944_j24326694765162_4_alg».proof.Proof.KB.R4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in the output's staging memref and in the two scratch memrefs, as pieces (last
    first), AT THE FIRST POINT (the reset taken, the output's store not), with the proof that on whole memrefs — the six
    inputs' at their contents, the output's at contents handed back untouched (no store: the window is idle there),
    the two scratches at anything — the body runs to the continuation holding the inputs' and the output's as they
    were and each scratch with its pieces written: the reset then the update. -/
noncomputable def kernelRun4_A (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : cond4_0 i) (hc1 : ¬cond4_1 i)
    (x0 : Vec F S2000x32 .f32) (x1 : Vec F S2000x1 .i32) (x2 : Vec F S32x32 .f32) (x3 : Vec F S32x1 .f32) (x4 : Vec F S32x32 .f32) (x5 : Vec F S32x1 .f32) :
    Σ' (L6 : List (View.Piece (Elt F) S32x512 .f32)) (LS0 : List (View.Piece (Elt F) S32x512 .f32)), { LS1 : List (View.Piece (Elt F) S1x512 .f32) //
      ∀ (xi6 : Vec F S32x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__pool_mlp_kernel i arg1 harg1 arg2 harg2 arg3 harg3 arg4 harg4 arg5 harg5 arg6 harg6 arg7 harg7 arg8 harg8 arg9 harg9) K } := by
  refine ⟨[], ?_, ?_, fun xi6 E K => ?run⟩
  case run =>
    simp only [cc4__pool_mlp_kernel_eq_skeleton]; unfold cc4__pool_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.Kernel.Hand

end
-- ==== Proof.KB.R4RunB.lean ====
import proofs.«409944_j24326694765162_4_alg».proof.Proof.KB.R4RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The same AT A MIDDLE POINT (neither branch taken): the two scratches come in at what the point before left
    (`xs0`, `xs1`) and go out with the update's piece written; the output's buffer is handed back untouched. -/
noncomputable def kernelRun4_B (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : ¬cond4_0 i) (hc1 : ¬cond4_1 i)
    (x0 : Vec F S2000x32 .f32) (x1 : Vec F S2000x1 .i32) (x2 : Vec F S32x32 .f32) (x3 : Vec F S32x1 .f32) (x4 : Vec F S32x32 .f32) (x5 : Vec F S32x1 .f32) (xs0 : Vec F S32x512 .f32) (xs1 : Vec F S1x512 .f32) :
    Σ' (L6 : List (View.Piece (Elt F) S32x512 .f32)) (LS0 : List (View.Piece (Elt F) S32x512 .f32)), { LS1 : List (View.Piece (Elt F) S1x512 .f32) //
      ∀ (xi6 : Vec F S32x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__pool_mlp_kernel i arg1 harg1 arg2 harg2 arg3 harg3 arg4 harg4 arg5 harg5 arg6 harg6 arg7 harg7 arg8 harg8 arg9 harg9) K } := by
  refine ⟨[], ?_, ?_, fun xi6 E K => ?run⟩
  case run =>
    simp only [cc4__pool_mlp_kernel_eq_skeleton]; unfold cc4__pool_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.Kernel.Hand

end
-- ==== Proof.KB.R4RunC.lean ====
import proofs.«409944_j24326694765162_4_alg».proof.Proof.KB.R4RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The same AT THE LAST POINT (the output's store taken): the two scratches come in at what the point before
    left and go out with the update's piece written; the output's buffer comes in at anything and goes out with the
    stored block's piece written, computed from the updated scratches and the four small inputs. -/
noncomputable def kernelRun4_C (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : ¬cond4_0 i) (hc1 : cond4_1 i)
    (x0 : Vec F S2000x32 .f32) (x1 : Vec F S2000x1 .i32) (x2 : Vec F S32x32 .f32) (x3 : Vec F S32x1 .f32) (x4 : Vec F S32x32 .f32) (x5 : Vec F S32x1 .f32) (xs0 : Vec F S32x512 .f32) (xs1 : Vec F S1x512 .f32) :
    Σ' (L6 : List (View.Piece (Elt F) S32x512 .f32)) (LS0 : List (View.Piece (Elt F) S32x512 .f32)), { LS1 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__pool_mlp_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc4__pool_mlp_kernel_eq_skeleton]; unfold cc4__pool_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]; · iexists _; iexact HS0
    iexists _; iexact HS1

end Cert.Kernel.Hand

end
-- ==== Proof.KB.R4.lean ====
import proofs.«409944_j24326694765162_4_alg».proof.Proof.KB.R4RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each control case leaves in the output's buffer and in the two scratches -/

/-- At the first point nothing is stored into output 6 (the window is idle there and not written back): no pieces — a
    placeholder (junk read back) that nothing consults. -/
def out4_A_6 (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : cond4_0 i) (hc1 : ¬cond4_1 i)
    (x0 : Vec F S2000x32 .f32) (x1 : Vec F S2000x1 .i32) (x2 : Vec F S32x32 .f32) (x3 : Vec F S32x1 .f32) (x4 : Vec F S32x32 .f32) (x5 : Vec F S32x1 .f32) : Vec F S32x512 .f32 :=
  VO4_6.read (Elt F) (VO4_6.writes (Elt F) VO4_6.junk (kernelRun4_A c i arg1 harg1 arg2 harg2 arg3 harg3 arg4 harg4 arg5 harg5 arg6 harg6 arg7 harg7 arg8 harg8 arg9 harg9 hc0 hc1 x0 x1 x2 x3 x4 x5).1)

/-- At the first point the pieces for the running sum (scratch `arg8`) cover it: whole-buffer stores. -/
theorem scover4_A_0 (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : cond4_0 i) (hc1 : ¬cond4_1 i)
    (x0 : Vec F S2000x32 .f32) (x1 : Vec F S2000x1 .i32) (x2 : Vec F S32x32 .f32) (x3 : Vec F S32x1 .f32) (x4 : Vec F S32x32 .f32) (x5 : Vec F S32x1 .f32) (y : S32x512.Idx) :
    ∃ pc ∈ (kernelRun4_A c i arg1 harg1 arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun4_A c i arg1 harg1 arg2 harg2 arg3 harg3 arg4 harg4 arg5 harg5 arg6 harg6 arg7 harg7 arg8 harg8 arg9 harg9 hc0 hc1 x0 x1 x2 x3 x4 x5).2.1 S32x512.size (by sl_kernel_rfl) y

/-- What the first point leaves in the running sum: its pieces read back over junk. -/
def sout4_A_0 (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : cond4_0 i) (hc1 : ¬cond4_1 i)
    (x0 : Vec F S2000x32 .f32) (x1 : Vec F S2000x1 .i32) (x2 : Vec F S32x32 .f32) (x3 : Vec F S32x1 .f32) (x4 : Vec F S32x32 .f32) (x5 : Vec F S32x1 .f32) : Vec F S32x512 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 hc0 hc1 x0 x1 x2 x3 x4 x5).2.1)

/-- At the first point the pieces for the running count (scratch `arg9`) cover it: whole-buffer stores. -/
theorem scover4_A_1 (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : cond4_0 i) (hc1 : ¬cond4_1 i)
    (x0 : Vec F S2000x32 .f32) (x1 : Vec F S2000x1 .i32) (x2 : Vec F S32x32 .f32) (x3 : Vec F S32x1 .f32) (x4 : Vec F S32x32 .f32) (x5 : Vec F S32x1 .f32) (y : S1x512.Idx) :
    ∃ pc ∈ (kernelRun4_A c i arg1 harg1 arg2 harg2 arg3 harg3 arg4 harg4 arg5 harg5 arg6 harg6 arg7 harg7 arg8 harg8 arg9 harg9 hc0 hc1 x0 x1 x2 x3 x4 x5).2.2.1, y ∈ pc.1.set :=
  View.cover_of_tiledL (kernelRun4_A c i arg1 harg1 arg2 harg2 arg3 harg3 arg4 harg4 arg5 harg5 arg6 harg6 arg7 harg7 arg8 harg8 arg9 harg9 hc0 hc1 x0 x1 x2 x3 x4 x5).2.2.1 S1x512.size (by sl_kernel_rfl) y

/-- What the first point leaves in the running count: its pieces read back over junk. -/
def sout4_A_1 (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : cond4_0 i) (hc1 : ¬cond4_1 i)
    (x0 : Vec F S2000x32 .f32) (x1 : Vec F S2000x1 .i32) (x2 : Vec F S32x32 .f32) (x3 : Vec F S32x1 .f32) (x4 : Vec F S32x32 .f32) (x5 : Vec F S32x1 .f32) : Vec F S1x512 .f32 :=
  VS4_1.read (Elt F) (VS4_1.writes (Elt F) VS4_1.junk (kernelRun4_A c i arg1 harg1 arg2 harg2 arg3 harg3 arg4 harg4 arg5 harg5 arg6 harg6 arg7 harg7 arg8 harg8 arg9 harg9 hc0 hc1 x0 x1 x2 x3 x4 x5).2.2.1)

/-- At a middle point nothing is stored into output 6 (the window is idle there and not written back): no pieces — a
    placeholder (junk read back) that nothing consults. -/
def out4_B_6 (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : ¬cond4_0 i) (hc1 : ¬cond4_1 i)
    (x0 : Vec F S2000x32 .f32) (x1 : Vec F S2000x1 .i32) (x2 : Vec F S32x32 .f32) (x3 : Vec F S32x1 .f32) (x4 : Vec F S32x32 .f32) (x5 : Vec F S32x1 .f32) (xs0 : Vec F S32x512 .f32) (xs1 : Vec F S1x512 .f32) : Vec F S32x512 .f32 :=
  VO4_6.read (Elt F) (VO4_6.writes (Elt F) VO4_6.junk (kernelRun4_B c i arg1 harg1 arg2 harg2 arg3 harg3 arg4 harg4 arg5 harg5 arg6 harg6 arg7 harg7 arg8 harg8 arg9 harg9 hc0 hc1 x0 x1 x2 x3 x4 x5 xs0 xs1).1)

/-- At a middle point the pieces for the running sum (scratch `arg8`) cover it: whole-buffer stores. -/
theorem scover4_B_0 (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : ¬cond4_0 i) (hc1 : ¬cond4_1 i)
    (x0 : Vec F S2000x32 .f32) (x1 : Vec F S2000x1 .i32) (x2 : Vec F S32x32 .f32) (x3 : Vec F S32x1 .f32) (x4 : Vec F S32x32 .f32) (x5 : Vec F S32x1 .f32) (xs0 : Vec F S32x512 .f32) (xs1 : Vec F S1x512 .f32) (y : S32x512.Idx) :
    ∃ pc ∈ (kernelRun4_B c i arg1 harg1 arg2 harg2 arg3 harg3 arg4 harg4 arg5 harg5 arg6 harg6 arg7 harg7 arg8 harg8 arg9 harg9 hc0 hc1 x0 x1 x2 x3 x4 x5 xs0 xs1).2.1, y ∈ pc.1.set :=
  View.cover_of_tiledL (kernelRun4_B c i arg1 harg1 arg2 harg2 arg3 harg3 arg4 harg4 arg5 harg5 arg6 harg6 arg7 harg7 arg8 harg8 arg9 harg9 hc0 hc1 x0 x1 x2 x3 x4 x5 xs0 xs1).2.1 S32x512.size (by sl_kernel_rfl) y

/-- What a middle point leaves in the running sum: its pieces read back over junk. -/
def sout4_B_0 (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : ¬cond4_0 i) (hc1 : ¬cond4_1 i)
    (x0 : Vec F S2000x32 .f32) (x1 : Vec F S2000x1 .i32) (x2 : Vec F S32x32 .f32) (x3 : Vec F S32x1 .f32) (x4 : Vec F S32x32 .f32) (x5 : Vec F S32x1 .f32) (xs0 : Vec F S32x512 .f32) (xs1 : Vec F S1x512 .f32) : Vec F S32x512 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 hc0 hc1 x0 x1 x2 x3 x4 x5 xs0 xs1).2.1)

/-- At a middle point the pieces for the running count (scratch `arg9`) cover it: whole-buffer stores. -/
theorem scover4_B_1 (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : ¬cond4_0 i) (hc1 : ¬cond4_1 i)
    (x0 : Vec F S2000x32 .f32) (x1 : Vec F S2000x1 .i32) (x2 : Vec F S32x32 .f32) (x3 : Vec F S32x1 .f32) (x4 : Vec F S32x32 .f32) (x5 : Vec F S32x1 .f32) (xs0 : Vec F S32x512 .f32) (xs1 : Vec F S1x512 .f32) (y : S1x512.Idx) :
    ∃ pc ∈ (kernelRun4_B c i arg1 harg1 arg2 harg2 arg3 harg3 arg4 harg4 arg5 harg5 arg6 harg6 arg7 harg7 arg8 harg8 arg9 harg9 hc0 hc1 x0 x1 x2 x3 x4 x5 xs0 xs1).2.2.1, y ∈ pc.1.set :=
  View.cover_of_tiledL (kernelRun4_B c i arg1 harg1 arg2 harg2 arg3 harg3 arg4 harg4 arg5 harg5 arg6 harg6 arg7 harg7 arg8 harg8 arg9 harg9 hc0 hc1 x0 x1 x2 x3 x4 x5 xs0 xs1).2.2.1 S1x512.size (by sl_kernel_rfl) y

/-- What a middle point leaves in the running count: its pieces read back over junk. -/
def sout4_B_1 (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : ¬cond4_0 i) (hc1 : ¬cond4_1 i)
    (x0 : Vec F S2000x32 .f32) (x1 : Vec F S2000x1 .i32) (x2 : Vec F S32x32 .f32) (x3 : Vec F S32x1 .f32) (x4 : Vec F S32x32 .f32) (x5 : Vec F S32x1 .f32) (xs0 : Vec F S32x512 .f32) (xs1 : Vec F S1x512 .f32) : Vec F S1x512 .f32 :=
  VS4_1.read (Elt F) (VS4_1.writes (Elt F) VS4_1.junk (kernelRun4_B c i arg1 harg1 arg2 harg2 arg3 harg3 arg4 harg4 arg5 harg5 arg6 harg6 arg7 harg7 arg8 harg8 arg9 harg9 hc0 hc1 x0 x1 x2 x3 x4 x5 xs0 xs1).2.2.1)

/-- At the last point the pieces for output 6 tile its block (one whole-block store), so they cover it. -/
theorem cover4_C_6 (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : ¬cond4_0 i) (hc1 : cond4_1 i)
    (x0 : Vec F S2000x32 .f32) (x1 : Vec F S2000x1 .i32) (x2 : Vec F S32x32 .f32) (x3 : Vec F S32x1 .f32) (x4 : Vec F S32x32 .f32) (x5 : Vec F S32x1 .f32) (xs0 : Vec F S32x512 .f32) (xs1 : Vec F S1x512 .f32) (y : S32x512.Idx) :
    ∃ pc ∈ (kernelRun4_C c i arg1 harg1 arg2 harg2 arg3 harg3 arg4 harg4 arg5 harg5 arg6 harg6 arg7 harg7 arg8 harg8 arg9 harg9 hc0 hc1 x0 x1 x2 x3 x4 x5 xs0 xs1).1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 x4 x5 xs0 xs1).1 S32x512.size (by sl_kernel_rfl) y

/-- What the last point leaves in output 6's staging buffer: its pieces read back over junk. -/
def out4_C_6 (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : ¬cond4_0 i) (hc1 : cond4_1 i)
    (x0 : Vec F S2000x32 .f32) (x1 : Vec F S2000x1 .i32) (x2 : Vec F S32x32 .f32) (x3 : Vec F S32x1 .f32) (x4 : Vec F S32x32 .f32) (x5 : Vec F S32x1 .f32) (xs0 : Vec F S32x512 .f32) (xs1 : Vec F S1x512 .f32) : Vec F S32x512 .f32 :=
  VO4_6.read (Elt F) (VO4_6.writes (Elt F) VO4_6.junk (kernelRun4_C c i arg1 harg1 arg2 harg2 arg3 harg3 arg4 harg4 arg5 harg5 arg6 harg6 arg7 harg7 arg8 harg8 arg9 harg9 hc0 hc1 x0 x1 x2 x3 x4 x5 xs0 xs1).1)

/-- At the last point the pieces for the running sum (scratch `arg8`) cover it: whole-buffer stores. -/
theorem scover4_C_0 (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : ¬cond4_0 i) (hc1 : cond4_1 i)
    (x0 : Vec F S2000x32 .f32) (x1 : Vec F S2000x1 .i32) (x2 : Vec F S32x32 .f32) (x3 : Vec F S32x1 .f32) (x4 : Vec F S32x32 .f32) (x5 : Vec F S32x1 .f32) (xs0 : Vec F S32x512 .f32) (xs1 : Vec F S1x512 .f32) (y : S32x512.Idx) :
    ∃ pc ∈ (kernelRun4_C c i arg1 harg1 arg2 harg2 arg3 harg3 arg4 harg4 arg5 harg5 arg6 harg6 arg7 harg7 arg8 harg8 arg9 harg9 hc0 hc1 x0 x1 x2 x3 x4 x5 xs0 xs1).2.1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 x4 x5 xs0 xs1).2.1 S32x512.size (by sl_kernel_rfl) y

/-- What the last point leaves in the running sum: its pieces read back over junk. -/
def sout4_C_0 (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : ¬cond4_0 i) (hc1 : cond4_1 i)
    (x0 : Vec F S2000x32 .f32) (x1 : Vec F S2000x1 .i32) (x2 : Vec F S32x32 .f32) (x3 : Vec F S32x1 .f32) (x4 : Vec F S32x32 .f32) (x5 : Vec F S32x1 .f32) (xs0 : Vec F S32x512 .f32) (xs1 : Vec F S1x512 .f32) : Vec F S32x512 .f32 :=
  VS4_0.read (Elt F) (VS4_0.writes (Elt F) VS4_0.junk (kernelRun4_C c i arg1 harg1 arg2 harg2 arg3 harg3 arg4 harg4 arg5 harg5 arg6 harg6 arg7 harg7 arg8 harg8 arg9 harg9 hc0 hc1 x0 x1 x2 x3 x4 x5 xs0 xs1).2.1)

/-- At the last point the pieces for the running count (scratch `arg9`) cover it: whole-buffer stores. -/
theorem scover4_C_1 (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : ¬cond4_0 i) (hc1 : cond4_1 i)
    (x0 : Vec F S2000x32 .f32) (x1 : Vec F S2000x1 .i32) (x2 : Vec F S32x32 .f32) (x3 : Vec F S32x1 .f32) (x4 : Vec F S32x32 .f32) (x5 : Vec F S32x1 .f32) (xs0 : Vec F S32x512 .f32) (xs1 : Vec F S1x512 .f32) (y : S1x512.Idx) :
    ∃ pc ∈ (kernelRun4_C c i arg1 harg1 arg2 harg2 arg3 harg3 arg4 harg4 arg5 harg5 arg6 harg6 arg7 harg7 arg8 harg8 arg9 harg9 hc0 hc1 x0 x1 x2 x3 x4 x5 xs0 xs1).2.2.1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 x4 x5 xs0 xs1).2.2.1 S1x512.size (by sl_kernel_rfl) y

/-- What the last point leaves in the running count: its pieces read back over junk. -/
def sout4_C_1 (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : ¬cond4_0 i) (hc1 : cond4_1 i)
    (x0 : Vec F S2000x32 .f32) (x1 : Vec F S2000x1 .i32) (x2 : Vec F S32x32 .f32) (x3 : Vec F S32x1 .f32) (x4 : Vec F S32x32 .f32) (x5 : Vec F S32x1 .f32) (xs0 : Vec F S32x512 .f32) (xs1 : Vec F S1x512 .f32) : Vec F S1x512 .f32 :=
  VS4_1.read (Elt F) (VS4_1.writes (Elt F) VS4_1.junk (kernelRun4_C c i arg1 harg1 arg2 harg2 arg3 harg3 arg4 harg4 arg5 harg5 arg6 harg6 arg7 harg7 arg8 harg8 arg9 harg9 hc0 hc1 x0 x1 x2 x3 x4 x5 xs0 xs1).2.2.1)

/-! ## What the output's buffer and the two scratches hold after each point -/

/-- THE ACCUMULATION. What output 6's staging buffer, the running sum and the running count hold after the body at
    position `n`: the case the closed forms select at `n`, run at the point's memrefs and input blocks, the two
    scratches coming in at what this leaves at `n - 1`. -/
def outsAt4 (c : Dev nD) : (n : ℕ) → n < cfg4.N → Vec F S32x512 .f32 × Vec F S32x512 .f32 × Vec F S1x512 .f32
  | 0, hn => (out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => (by decide : ¬(0 : ℕ) = 49) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => (by decide : ¬(0 : ℕ) = 49) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => (by decide : ¬(0 : ℕ) = 49) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩))
  | n + 1, hn =>
    if h1 : n + 1 = 49 then
      (out4_C_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.1 (outsAt4 c n (Nat.lt_of_succ_lt hn)).2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.1 (outsAt4 c n (Nat.lt_of_succ_lt hn)).2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.1 (outsAt4 c n (Nat.lt_of_succ_lt hn)).2.2)
    else
      (out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.1 (outsAt4 c n (Nat.lt_of_succ_lt hn)).2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.1 (outsAt4 c n (Nat.lt_of_succ_lt hn)).2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.1 (outsAt4 c n (Nat.lt_of_succ_lt hn)).2.2)

/-- `outsAt4` at the first point: that case's contents. -/
theorem outsAt4_A (c : Dev nD) (t : Fin cfg4.N) (h0 : t.val = 0) (h1 : ¬t.val = 49) :
    outsAt4 V c t.val t.isLt = (out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t)) := by
  obtain ⟨n, hn⟩ := t
  cases n with
  | zero => exact rfl
  | succ n => exact absurd h0 (Nat.succ_ne_zero n)

/-- `outsAt4` at a middle point: that case's contents, over what the point before left. -/
theorem outsAt4_B (c : Dev nD) (t : Fin cfg4.N) (h0 : ¬t.val = 0) (h1 : ¬t.val = 49) :
    outsAt4 V c t.val t.isLt = (out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2) := by
  obtain ⟨n, hn⟩ := t
  cases n with
  | zero => exact absurd rfl h0
  | succ n => exact (dif_neg h1).trans rfl

/-- `outsAt4` at the last point: that case's contents, over what the point before left. -/
theorem outsAt4_C (c : Dev nD) (t : Fin cfg4.N) (h0 : ¬t.val = 0) (h1 : t.val = 49) :
    outsAt4 V c t.val t.isLt = (out4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2, sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2) := by
  obtain ⟨n, hn⟩ := t
  cases n with
  | zero => exact absurd rfl h0
  | succ n => exact (dif_pos h1).trans rfl

/-- The region invariant before position `n`: before the first point the region's entry invariant (both scratches at
    anything); afterwards the scoped rest with the running sum and the running count at what the point before left
    in them (`outsAt4`'s scratch components), the other scoped buffers unopened, the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.1) ∗ owns (c : Thread nD τ) scM4_1 fullShare ((outsAt4 V c n hn).2.2)) ∗ rest4 (F := F) c) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the two scratches at that point's contents. -/
theorem PhiS4_succ (c : Dev nD) (n : ℕ) (hn : n < cfg4.N) :
    PhiS4 V c (n + 1) hn = iprop(iprop(iprop(owns (c : Thread nD τ) scM4_0 fullShare ((outsAt4 V c n hn).2.1) ∗ owns (c : Thread nD τ) scM4_1 fullShare ((outsAt4 V c n hn).2.2)) ∗ rest4 (F := F) c) ∗ (∃ r, prngReg c r)) := rfl

/-- Before a point that is not the first: the two scratches at what the point before left. -/
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.1) ∗ owns (c : Thread nD τ) scM4_1 fullShare ((outsAt4 V c (n - 1) (by omega)).2.2)) ∗ rest4 (F := F) c) ∗ (∃ r, prngReg c r)) := by
  cases n with
  | zero => exact absurd rfl hz
  | succ n => rfl

/-! ## The pipeline's proof data -/

/-- The proof data of the region's pipeline on core `c`: the arrays as the region finds them (`V`); after the body
    at point `t` each input's buffer at its block and the output's at `outsAt4`'s first component; the invariant
    `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t | ⟨1, _⟩ => iblk4 V c 1 t | ⟨2, _⟩ => iblk4 V c 2 t | ⟨3, _⟩ => iblk4 V c 3 t
    | ⟨4, _⟩ => iblk4 V c 4 t | ⟨5, _⟩ => iblk4 V c 5 t
    | ⟨6, _⟩ => (outsAt4 V c t.val t.isLt).1
  Φ t := PhiS4 V c t.val (Nat.le_of_lt_succ t.isLt)
  q _ := fullShare
  owed _ := 0

/-- The proof data's arrays are the region-entry contents (the definition projected, `V` never unfolded). -/
theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).1 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

/-- What the body is called with at point `t` (the obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4800000 in
/-- The body at any point: the inputs' memrefs hold their blocks; the closed forms say which case the point is in; so
    that case's run applies. The invariant hands the body the two scratches at what the point before left (at
    anything at the first point), the other scoped buffers and the generator register untouched, and takes the
    scratches back at this point's contents (their pieces cover them); the output's buffer is handed back as found
    where the window is idle, and at the stored block (its piece covers it) at the last point; the core owes nothing
    throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  have hN : t.val < 50 := lt_of_lt_of_eq t.isLt (show cfg4.N = 50 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  rw [show (dat4 V c).leavesExact 5 t = owns (c : Thread nD τ) (ms4_5 t) fullShare ((dat4 V c).after 5 t) from by
    unfold Dat.leavesExact; rw [liveAt4_5 t], after4_5]
  by_cases h0 : t.val = 0
  · have h1 : ¬t.val = 49 := by omega
    rw [Dat.leavesExact_idle (dat4 V c) 6 t (idleAt4_6_A t ((hcond4_0 t).mpr h0) (fun h => h1 ((hcond4_1 t).mp h))) (noFlush4_6_A t ((hcond4_0 t).mpr h0) (fun h => h1 ((hcond4_1 t).mp h)))]
    rw [outsAt4_A V c t h0 h1]
    unfold sout4_A_0 sout4_A_1; (try dsimp only)
    rw [PhiS4_castSucc V c t, PhiS4_zero V c _ _ h0, PhiA4_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun4_A c (grid4.coords t) _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover4_A_0 c _ _ _ _ _ _ _ _ _ _ _ _ _ _ _ _ _ _ _ _ _ _ _ _ _ _ _)
          unfold owns; iexists _; isplitr
          swap; · iexact HS1
          ipureintro; exact View.read_writes_of_cover _ _ _ _ _ (scover4_A_1 c _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6

  · by_cases h1 : t.val = 49
    · rw [show (dat4 V c).leavesExact 6 t = owns (c : Thread nD τ) (ms4_6 t) fullShare ((dat4 V c).after 6 t) from by
        unfold Dat.leavesExact; rw [liveAt4_6_C t (fun h => h0 ((hcond4_0 t).mp h)) ((hcond4_1 t).mpr h1)], after4_6]
      rw [outsAt4_C V c t h0 h1]
      unfold out4_C_6 sout4_C_0 sout4_C_1; (try dsimp only)
      rw [PhiS4_castSucc V c t, PhiS4_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun4_C c (grid4.coords t) _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) (iblk4 V c 5 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%e6, H6⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_C_0 c _ _ _ _ _ _ _ _ _ _ _ _ _ _ _ _ _ _ _ _ _ _ _ _ _ _ _ _ _)
            unfold owns; iexists _; isplitr
            swap; · iexact HS1
            ipureintro; exact View.read_writes_of_cover _ _ _ _ _ (scover4_C_1 c _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover4_C_6 c _ _ _ _ _ _ _ _ _ _ _ _ _ _ _ _ _ _ _ _ _ _ _ _ _ _ _ _ _)

    · rw [Dat.leavesExact_idle (dat4 V c) 6 t (idleAt4_6_B t (fun h => h0 ((hcond4_0 t).mp h)) (fun h => h1 ((hcond4_1 t).mp h))) (noFlush4_6_B t (fun h => h0 ((hcond4_0 t).mp h)) (fun h => h1 ((hcond4_1 t).mp h)))]
      rw [outsAt4_B V c t h0 h1]
      unfold sout4_B_0 sout4_B_1; (try dsimp only)
      rw [PhiS4_castSucc V c t, PhiS4_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun4_B c (grid4.coords t) _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_B_0 c _ _ _ _ _ _ _ _ _ _ _ _ _ _ _ _ _ _ _ _ _ _ _ _ _ _ _ _ _)
            unfold owns; iexists _; isplitr
            swap; · iexact HS1
            ipureintro; exact View.read_writes_of_cover _ _ _ _ _ (scover4_B_1 c _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : (Pipeline.ΦA spec4 c : sProp 𝕄) ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the entry invariant back: the scratches' named contents are
    forgotten. -/
theorem Phi_out4 (c : Dev nD) (t : Fin (cfg4.N + 1)) (ht : t.val ≠ 0) : (dat4 V c).Φ t ⊢ (Pipeline.ΦA spec4 c : sProp 𝕄) := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout4 (c : Dev nD) : (dat4 V c).Φ (Fin.last cfg4.N) ⊢ (Pipeline.ΦA spec4 c : sProp 𝕄) :=
  Phi_out4 V c _ (by rw [Fin.val_last]; have : cfg4.N = 50 := N_4; omega)

end Cert.Kernel.Hand

end
-- ==== Proof.KB.Launch.lean ====
/-
  The run of the kernel program as a whole: its @main is seven stretches of host operations and five kernel
  regions. The buffer contents at every boundary are a fold from the launch memory — a host stretch applies its
  operations, a region leaves its arrays at what its write-backs amount to and every other buffer untouched — and
  each region's proof data is taken at the contents the fold has reached when the region is entered. Composing the
  segments gives: every weakly fair execution terminates, and the final memory holds the fold's last valuation at
  every unscoped buffer. The argument arrays are never written, so they end as launched; the result is read off the
  same valuation.
-/
import proofs.«409944_j24326694765162_4_alg».proof.Proof.KB.R0
import proofs.«409944_j24326694765162_4_alg».proof.Proof.KB.R1
import proofs.«409944_j24326694765162_4_alg».proof.Proof.KB.R2
import proofs.«409944_j24326694765162_4_alg».proof.Proof.KB.R3
import proofs.«409944_j24326694765162_4_alg».proof.Proof.KB.R4
import proofs.«409944_j24326694765162_4_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- After the three leading host stretches (the edge lists, the degrees, the normalisation). -/
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
/-- The same read at the TensorCore's references: what region 0's proof data take. -/
abbrev V3 : (c : Dev nD) → (b : Ref sig .tc) → Buf (Elt F) ((c : Thread nD τ).loc b) := fun c b => W3 m c b
/-- After region 0 (the first projection). -/
def W4 (c : Dev nD) : Valuation τ sig (Elt F) :=
  Pipeline.withArrays spec0 c (W3 m c) fun w => (dat0 (V3 m) c).arrAt w cfg0.N
/-- After the first gather / scatter stretch. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b
/-- After region 1 (bias and max with zero). -/
def W6 (c : Dev nD) : Valuation τ sig (Elt F) :=
  Pipeline.withArrays spec1 c (W5 m c) fun w => (dat1 (V5 m) c).arrAt w cfg1.N
abbrev V6 : (c : Dev nD) → (b : Ref sig .tc) → Buf (Elt F) ((c : Thread nD τ).loc b) := fun c b => W6 m c b
/-- After region 2 (the second projection). -/
def W7 (c : Dev nD) : Valuation τ sig (Elt F) :=
  Pipeline.withArrays spec2 c (W6 m c) fun w => (dat2 (V6 m) c).arrAt w cfg2.N
/-- After the second gather / scatter stretch. -/
abbrev W8 : Dev nD → Valuation τ sig (Elt F) := fun c => StableHlo.after hostOps3 (W7 m c)
abbrev V8 : (c : Dev nD) → (b : Ref sig .tc) → Buf (Elt F) ((c : Thread nD τ).loc b) := fun c b => W8 m c b
/-- After region 3 (the second bias). -/
def W9 (c : Dev nD) : Valuation τ sig (Elt F) :=
  Pipeline.withArrays spec3 c (W8 m c) fun w => (dat3 (V8 m) c).arrAt w cfg3.N
/-- After the reshapes and transposes that feed the pooling head. -/
abbrev W10 : Dev nD → Valuation τ sig (Elt F) := fun c => StableHlo.after hostOps4 (W9 m c)
abbrev V10 : (c : Dev nD) → (b : Ref sig .tc) → Buf (Elt F) ((c : Thread nD τ).loc b) := fun c b => W10 m c b
/-- After region 4 (the pooling head). -/
def W11 (c : Dev nD) : Valuation τ sig (Elt F) :=
  Pipeline.withArrays spec4 c (W10 m c) fun w => (dat4 (V10 m) c).arrAt w cfg4.N
/-- After the closing transpose: the contents @main returns from. -/
abbrev W12 : Dev nD → Valuation τ sig (Elt F) := fun c => StableHlo.after hostOps5 (W11 m c)

/-- A region's arrays end at what its write-backs leave; every other buffer is as the region found it. -/
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4x : (c : Dev nD) → (b : Ref sig .tc) → Buf (Elt F) ((c : Thread nD τ).loc b) := fun c b => W4 m c b
theorem hF0 (c : Dev nD) (w : Fin cfg0.W) : (dat0 (V3 m) c).arrAt w cfg0.N = V4x m c (Pipeline.arrRef spec0 w) :=
  (W4_arr m c w).symm
theorem hrest0 (c : Dev nD) : ∀ b, b ∉ Finset.univ.image (Pipeline.arrRef spec0) → V4x m c b = V3 m c b :=
  fun b hb => W4_of_ne m c b fun w e => hb (Finset.mem_image.mpr ⟨w, Finset.mem_univ _, e⟩)

/-- A region's arrays end at what its write-backs leave; every other buffer is as the region found it. -/
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6x : (c : Dev nD) → (b : Ref sig .tc) → Buf (Elt F) ((c : Thread nD τ).loc b) := fun c b => W6 m c b
theorem hF1 (c : Dev nD) (w : Fin cfg1.W) : (dat1 (V5 m) c).arrAt w cfg1.N = V6x m c (Pipeline.arrRef spec1 w) :=
  (W6_arr m c w).symm
theorem hrest1 (c : Dev nD) : ∀ b, b ∉ Finset.univ.image (Pipeline.arrRef spec1) → V6x m c b = V5 m c b :=
  fun b hb => W6_of_ne m c b fun w e => hb (Finset.mem_image.mpr ⟨w, Finset.mem_univ _, e⟩)

/-- A region's arrays end at what its write-backs leave; every other buffer is as the region found it. -/
theorem W7_arr (c : Dev nD) (w : Fin cfg2.W) :
    W7 m c (Proc.devRef .tc (Pipeline.arrRef spec2 w)) = (dat2 (V6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
abbrev V7x : (c : Dev nD) → (b : Ref sig .tc) → Buf (Elt F) ((c : Thread nD τ).loc b) := fun c b => W7 m c b
theorem hF2 (c : Dev nD) (w : Fin cfg2.W) : (dat2 (V6 m) c).arrAt w cfg2.N = V7x m c (Pipeline.arrRef spec2 w) :=
  (W7_arr m c w).symm
theorem hrest2 (c : Dev nD) : ∀ b, b ∉ Finset.univ.image (Pipeline.arrRef spec2) → V7x m c b = V6 m c b :=
  fun b hb => W7_of_ne m c b fun w e => hb (Finset.mem_image.mpr ⟨w, Finset.mem_univ _, e⟩)

/-- A region's arrays end at what its write-backs leave; every other buffer is as the region found it. -/
theorem W9_arr (c : Dev nD) (w : Fin cfg3.W) :
    W9 m c (Proc.devRef .tc (Pipeline.arrRef spec3 w)) = (dat3 (V8 m) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m c (Proc.devRef .tc b) = W8 m c (Proc.devRef .tc b) := by
  unfold W9; exact Pipeline.withArrays_of_ne spec3 c _ _ b hb
abbrev V9x : (c : Dev nD) → (b : Ref sig .tc) → Buf (Elt F) ((c : Thread nD τ).loc b) := fun c b => W9 m c b
theorem hF3 (c : Dev nD) (w : Fin cfg3.W) : (dat3 (V8 m) c).arrAt w cfg3.N = V9x m c (Pipeline.arrRef spec3 w) :=
  (W9_arr m c w).symm
theorem hrest3 (c : Dev nD) : ∀ b, b ∉ Finset.univ.image (Pipeline.arrRef spec3) → V9x m c b = V8 m c b :=
  fun b hb => W9_of_ne m c b fun w e => hb (Finset.mem_image.mpr ⟨w, Finset.mem_univ _, e⟩)

/-- A region's arrays end at what its write-backs leave; every other buffer is as the region found it. -/
theorem W11_arr (c : Dev nD) (w : Fin cfg4.W) :
    W11 m c (Proc.devRef .tc (Pipeline.arrRef spec4 w)) = (dat4 (V10 m) c).arrAt w cfg4.N := by
  unfold W11; exact Pipeline.withArrays_arr spec4 launch4.win.arr_inj c _ _ w
theorem W11_of_ne (c : Dev nD) (b : Ref sig .tc) (hb : ∀ w, Pipeline.arrRef spec4 w ≠ b) :
    W11 m c (Proc.devRef .tc b) = W10 m c (Proc.devRef .tc b) := by
  unfold W11; exact Pipeline.withArrays_of_ne spec4 c _ _ b hb
abbrev V11x : (c : Dev nD) → (b : Ref sig .tc) → Buf (Elt F) ((c : Thread nD τ).loc b) := fun c b => W11 m c b
theorem hF4 (c : Dev nD) (w : Fin cfg4.W) : (dat4 (V10 m) c).arrAt w cfg4.N = V11x m c (Pipeline.arrRef spec4 w) :=
  (W11_arr m c w).symm
theorem hrest4 (c : Dev nD) : ∀ b, b ∉ Finset.univ.image (Pipeline.arrRef spec4) → V11x m c b = V10 m c b :=
  fun b hb => W11_of_ne m c b fun w e => hb (Finset.mem_image.mpr ⟨w, Finset.mem_univ _, e⟩)

/-! ## The proof data family and what rides beside the buffers -/

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V6 m) c
  | ⟨3, _⟩ => fun c => dat3 (V8 m) c
  | ⟨4, _⟩ => fun c => dat4 (V10 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 as a segment: entered with every unscoped buffer at the fold's contents before it, left with them at the
    contents after it. Its arrays are split out of the unscoped buffers at entry and put back at exit; the generator
    register goes into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4x m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the fold's contents before it, left with them at the
    contents after it. Its arrays are split out of the unscoped buffers at entry and put back at exit; the generator
    register goes into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6x m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at the fold's contents before it, left with them at the
    contents after it. Its arrays are split out of the unscoped buffers at entry and put back at exit; the generator
    register goes into the region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m) c).loose
  hwaits := Pipeline.hwaits_of_owed_zero _ _ _ _ L lv 2 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec2 c (V6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V6 m c) (V7x m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at the fold's contents before it, left with them at the
    contents after it. Its arrays are split out of the unscoped buffers at entry and put back at exit; the generator
    register goes into the region's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m) c).loose
  hwaits := Pipeline.hwaits_of_owed_zero _ _ _ _ L lv 3 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec3 c (V8 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V8 m c) (V9x m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered with every unscoped buffer at the fold's contents before it, left with them at the
    contents after it. Its arrays are split out of the unscoped buffers at entry and put back at exit; the generator
    register goes into the region's invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V10 m) c).loose
  hwaits := Pipeline.hwaits_of_owed_zero _ _ _ _ L lv 4 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec4 c (V10 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 4).pre c (fun _ => fullShare) (adm (F := F) 4).1
        ∗ Pipeline.scopedRest (Pipeline.pin (pcfgs (F := F)) adm 4).spec c) : sProp 𝕄) ⊢ Pipeline.ΦA spec4 c := by
      unfold Pipeline.ΦA
      iintro ⟨Hp, -, Hr⟩
      isplitl [Hr]; · iexact Hr
      iexact Hp
    exact h.trans (hin4 (V10 m) c)
  hout c := by
    rw [Pipeline.ownSems0_none]
    have h : (Pipeline.ΦA spec4 c : sProp 𝕄) ⊢ iprop((∃ r, prngReg c r) ∗ BI.emp ∗ Pipeline.scopedRest (Pipeline.pin (pcfgs (F := F)) adm 4).spec c) := by
      unfold Pipeline.ΦA
      iintro ⟨Hr, Hp⟩
      isplitl [Hp]; · iexact Hp
      isplitr; · iempintro
      iexact Hr
    exact (hout4 (V10 m) c).trans h
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V10 m c) (V11x m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's twelve segments in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .region (reg2 m),
    .host (hseg hostOps3 hostOps3_sub hostOps3_fresh (W7 m)),
    .region (reg3 m),
    .host (hseg hostOps4 hostOps4_sub hostOps4_fresh (W9 m)),
    .region (reg4 m),
    .host (hseg hostOps5 hostOps5_sub hostOps5_fresh (W11 m)) ]

set_option backward.isDefEq.respectTransparency.types false in
/-- THE RUN. From any memory with zero counters every weakly fair execution of @main terminates, nothing faulting,
    and the final memory holds the fold's last valuation at every unscoped buffer of every core. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W12 m c))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl,
      fun c => sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨Hh, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

/-! ## The arguments end as launched: no host operation writes one, a region reads it through an input window or not at all -/

theorem W12_main_arg0 (c : Dev nD) : W12 m c (Proc.devRef .tc main_arg0) = m ((c : Thread nD τ).loc main_arg0) :=
  (StableHlo.after_of_writes_sub hostOps5 _ hostOps5_writes (r := main_arg0) (by decide)).trans <|
  (W11_of_ne m c main_arg0 (by decide)).trans <|
  (StableHlo.after_of_writes_sub hostOps4 _ hostOps4_writes (r := main_arg0) (by decide)).trans <|
  (W9_of_ne m c main_arg0 (by decide)).trans <|
  (StableHlo.after_of_writes_sub hostOps3 _ hostOps3_writes (r := main_arg0) (by decide)).trans <|
  (W7_of_ne m c main_arg0 (by decide)).trans <|
  (W6_of_ne m c main_arg0 (by decide)).trans <|
  (StableHlo.after_of_writes_sub hostOps1 _ hostOps1_writes (r := main_arg0) (by decide)).trans <|
  ((W4_arr m c 0).trans (((dat0 (V3 m) c).arrAt_in 0 rfl _).trans (A_eq0 (V3 m) c 0))).trans <|
  (StableHlo.after_of_writes_sub hostOps0_2 _ hostOps0_2_writes (r := main_arg0) (by decide)).trans <|
  (StableHlo.after_of_writes_sub hostOps0_1 _ hostOps0_1_writes (r := main_arg0) (by decide)).trans <|
  (StableHlo.after_of_writes_sub hostOps0 _ hostOps0_writes (r := main_arg0) (by decide)).trans <|
  rfl
theorem W12_main_arg1 (c : Dev nD) : W12 m c (Proc.devRef .tc main_arg1) = m ((c : Thread nD τ).loc main_arg1) :=
  (StableHlo.after_of_writes_sub hostOps5 _ hostOps5_writes (r := main_arg1) (by decide)).trans <|
  (W11_of_ne m c main_arg1 (by decide)).trans <|
  (StableHlo.after_of_writes_sub hostOps4 _ hostOps4_writes (r := main_arg1) (by decide)).trans <|
  (W9_of_ne m c main_arg1 (by decide)).trans <|
  (StableHlo.after_of_writes_sub hostOps3 _ hostOps3_writes (r := main_arg1) (by decide)).trans <|
  (W7_of_ne m c main_arg1 (by decide)).trans <|
  (W6_of_ne m c main_arg1 (by decide)).trans <|
  (StableHlo.after_of_writes_sub hostOps1 _ hostOps1_writes (r := main_arg1) (by decide)).trans <|
  (W4_of_ne m c main_arg1 (by decide)).trans <|
  (StableHlo.after_of_writes_sub hostOps0_2 _ hostOps0_2_writes (r := main_arg1) (by decide)).trans <|
  (StableHlo.after_of_writes_sub hostOps0_1 _ hostOps0_1_writes (r := main_arg1) (by decide)).trans <|
  (StableHlo.after_of_writes_sub hostOps0 _ hostOps0_writes (r := main_arg1) (by decide)).trans <|
  rfl
theorem W12_main_arg2 (c : Dev nD) : W12 m c (Proc.devRef .tc main_arg2) = m ((c : Thread nD τ).loc main_arg2) :=
  (StableHlo.after_of_writes_sub hostOps5 _ hostOps5_writes (r := main_arg2) (by decide)).trans <|
  (W11_of_ne m c main_arg2 (by decide)).trans <|
  (StableHlo.after_of_writes_sub hostOps4 _ hostOps4_writes (r := main_arg2) (by decide)).trans <|
  (W9_of_ne m c main_arg2 (by decide)).trans <|
  (StableHlo.after_of_writes_sub hostOps3 _ hostOps3_writes (r := main_arg2) (by decide)).trans <|
  (W7_of_ne m c main_arg2 (by decide)).trans <|
  (W6_of_ne m c main_arg2 (by decide)).trans <|
  (StableHlo.after_of_writes_sub hostOps1 _ hostOps1_writes (r := main_arg2) (by decide)).trans <|
  (W4_of_ne m c main_arg2 (by decide)).trans <|
  (StableHlo.after_of_writes_sub hostOps0_2 _ hostOps0_2_writes (r := main_arg2) (by decide)).trans <|
  (StableHlo.after_of_writes_sub hostOps0_1 _ hostOps0_1_writes (r := main_arg2) (by decide)).trans <|
  (StableHlo.after_of_writes_sub hostOps0 _ hostOps0_writes (r := main_arg2) (by decide)).trans <|
  rfl
theorem W12_main_arg3 (c : Dev nD) : W12 m c (Proc.devRef .tc main_arg3) = m ((c : Thread nD τ).loc main_arg3) :=
  (StableHlo.after_of_writes_sub hostOps5 _ hostOps5_writes (r := main_arg3) (by decide)).trans <|
  (W11_of_ne m c main_arg3 (by decide)).trans <|
  (StableHlo.after_of_writes_sub hostOps4 _ hostOps4_writes (r := main_arg3) (by decide)).trans <|
  (W9_of_ne m c main_arg3 (by decide)).trans <|
  (StableHlo.after_of_writes_sub hostOps3 _ hostOps3_writes (r := main_arg3) (by decide)).trans <|
  (W7_of_ne m c main_arg3 (by decide)).trans <|
  (W6_of_ne m c main_arg3 (by decide)).trans <|
  (StableHlo.after_of_writes_sub hostOps1 _ hostOps1_writes (r := main_arg3) (by decide)).trans <|
  ((W4_arr m c 1).trans (((dat0 (V3 m) c).arrAt_in 1 rfl _).trans (A_eq0 (V3 m) c 1))).trans <|
  (StableHlo.after_of_writes_sub hostOps0_2 _ hostOps0_2_writes (r := main_arg3) (by decide)).trans <|
  (StableHlo.after_of_writes_sub hostOps0_1 _ hostOps0_1_writes (r := main_arg3) (by decide)).trans <|
  (StableHlo.after_of_writes_sub hostOps0 _ hostOps0_writes (r := main_arg3) (by decide)).trans <|
  rfl
theorem W12_main_arg4 (c : Dev nD) : W12 m c (Proc.devRef .tc main_arg4) = m ((c : Thread nD τ).loc main_arg4) :=
  (StableHlo.after_of_writes_sub hostOps5 _ hostOps5_writes (r := main_arg4) (by decide)).trans <|
  (W11_of_ne m c main_arg4 (by decide)).trans <|
  (StableHlo.after_of_writes_sub hostOps4 _ hostOps4_writes (r := main_arg4) (by decide)).trans <|
  (W9_of_ne m c main_arg4 (by decide)).trans <|
  (StableHlo.after_of_writes_sub hostOps3 _ hostOps3_writes (r := main_arg4) (by decide)).trans <|
  (W7_of_ne m c main_arg4 (by decide)).trans <|
  (W6_of_ne m c main_arg4 (by decide)).trans <|
  (StableHlo.after_of_writes_sub hostOps1 _ hostOps1_writes (r := main_arg4) (by decide)).trans <|
  (W4_of_ne m c main_arg4 (by decide)).trans <|
  (StableHlo.after_of_writes_sub hostOps0_2 _ hostOps0_2_writes (r := main_arg4) (by decide)).trans <|
  (StableHlo.after_of_writes_sub hostOps0_1 _ hostOps0_1_writes (r := main_arg4) (by decide)).trans <|
  (StableHlo.after_of_writes_sub hostOps0 _ hostOps0_writes (r := main_arg4) (by decide)).trans <|
  rfl
theorem W12_main_arg5 (c : Dev nD) : W12 m c (Proc.devRef .tc main_arg5) = m ((c : Thread nD τ).loc main_arg5) :=
  (StableHlo.after_of_writes_sub hostOps5 _ hostOps5_writes (r := main_arg5) (by decide)).trans <|
  (W11_of_ne m c main_arg5 (by decide)).trans <|
  (StableHlo.after_of_writes_sub hostOps4 _ hostOps4_writes (r := main_arg5) (by decide)).trans <|
  (W9_of_ne m c main_arg5 (by decide)).trans <|
  (StableHlo.after_of_writes_sub hostOps3 _ hostOps3_writes (r := main_arg5) (by decide)).trans <|
  ((W7_arr m c 1).trans (((dat2 (V6 m) c).arrAt_in 1 rfl _).trans (A_eq2 (V6 m) c 1))).trans <|
  (W6_of_ne m c main_arg5 (by decide)).trans <|
  (StableHlo.after_of_writes_sub hostOps1 _ hostOps1_writes (r := main_arg5) (by decide)).trans <|
  (W4_of_ne m c main_arg5 (by decide)).trans <|
  (StableHlo.after_of_writes_sub hostOps0_2 _ hostOps0_2_writes (r := main_arg5) (by decide)).trans <|
  (StableHlo.after_of_writes_sub hostOps0_1 _ hostOps0_1_writes (r := main_arg5) (by decide)).trans <|
  (StableHlo.after_of_writes_sub hostOps0 _ hostOps0_writes (r := main_arg5) (by decide)).trans <|
  rfl
theorem W12_main_arg6 (c : Dev nD) : W12 m c (Proc.devRef .tc main_arg6) = m ((c : Thread nD τ).loc main_arg6) :=
  (StableHlo.after_of_writes_sub hostOps5 _ hostOps5_writes (r := main_arg6) (by decide)).trans <|
  (W11_of_ne m c main_arg6 (by decide)).trans <|
  (StableHlo.after_of_writes_sub hostOps4 _ hostOps4_writes (r := main_arg6) (by decide)).trans <|
  (W9_of_ne m c main_arg6 (by decide)).trans <|
  (StableHlo.after_of_writes_sub hostOps3 _ hostOps3_writes (r := main_arg6) (by decide)).trans <|
  (W7_of_ne m c main_arg6 (by decide)).trans <|
  (W6_of_ne m c main_arg6 (by decide)).trans <|
  (StableHlo.after_of_writes_sub hostOps1 _ hostOps1_writes (r := main_arg6) (by decide)).trans <|
  (W4_of_ne m c main_arg6 (by decide)).trans <|
  (StableHlo.after_of_writes_sub hostOps0_2 _ hostOps0_2_writes (r := main_arg6) (by decide)).trans <|
  (StableHlo.after_of_writes_sub hostOps0_1 _ hostOps0_1_writes (r := main_arg6) (by decide)).trans <|
  (StableHlo.after_of_writes_sub hostOps0 _ hostOps0_writes (r := main_arg6) (by decide)).trans <|
  rfl
theorem W12_main_arg7 (c : Dev nD) : W12 m c (Proc.devRef .tc main_arg7) = m ((c : Thread nD τ).loc main_arg7) :=
  (StableHlo.after_of_writes_sub hostOps5 _ hostOps5_writes (r := main_arg7) (by decide)).trans <|
  (W11_of_ne m c main_arg7 (by decide)).trans <|
  (StableHlo.after_of_writes_sub hostOps4 _ hostOps4_writes (r := main_arg7) (by decide)).trans <|
  (W9_of_ne m c main_arg7 (by decide)).trans <|
  (StableHlo.after_of_writes_sub hostOps3 _ hostOps3_writes (r := main_arg7) (by decide)).trans <|
  (W7_of_ne m c main_arg7 (by decide)).trans <|
  (W6_of_ne m c main_arg7 (by decide)).trans <|
  (StableHlo.after_of_writes_sub hostOps1 _ hostOps1_writes (r := main_arg7) (by decide)).trans <|
  (W4_of_ne m c main_arg7 (by decide)).trans <|
  (StableHlo.after_of_writes_sub hostOps0_2 _ hostOps0_2_writes (r := main_arg7) (by decide)).trans <|
  (StableHlo.after_of_writes_sub hostOps0_1 _ hostOps0_1_writes (r := main_arg7) (by decide)).trans <|
  (StableHlo.after_of_writes_sub hostOps0 _ hostOps0_writes (r := main_arg7) (by decide)).trans <|
  rfl
theorem W12_main_arg8 (c : Dev nD) : W12 m c (Proc.devRef .tc main_arg8) = m ((c : Thread nD τ).loc main_arg8) :=
  (StableHlo.after_of_writes_sub hostOps5 _ hostOps5_writes (r := main_arg8) (by decide)).trans <|
  (W11_of_ne m c main_arg8 (by decide)).trans <|
  (StableHlo.after_of_writes_sub hostOps4 _ hostOps4_writes (r := main_arg8) (by decide)).trans <|
  (W9_of_ne m c main_arg8 (by decide)).trans <|
  (StableHlo.after_of_writes_sub hostOps3 _ hostOps3_writes (r := main_arg8) (by decide)).trans <|
  (W7_of_ne m c main_arg8 (by decide)).trans <|
  (W6_of_ne m c main_arg8 (by decide)).trans <|
  (StableHlo.after_of_writes_sub hostOps1 _ hostOps1_writes (r := main_arg8) (by decide)).trans <|
  (W4_of_ne m c main_arg8 (by decide)).trans <|
  (StableHlo.after_of_writes_sub hostOps0_2 _ hostOps0_2_writes (r := main_arg8) (by decide)).trans <|
  (StableHlo.after_of_writes_sub hostOps0_1 _ hostOps0_1_writes (r := main_arg8) (by decide)).trans <|
  (StableHlo.after_of_writes_sub hostOps0 _ hostOps0_writes (r := main_arg8) (by decide)).trans <|
  rfl
theorem W12_main_arg9 (c : Dev nD) : W12 m c (Proc.devRef .tc main_arg9) = m ((c : Thread nD τ).loc main_arg9) :=
  (StableHlo.after_of_writes_sub hostOps5 _ hostOps5_writes (r := main_arg9) (by decide)).trans <|
  (W11_of_ne m c main_arg9 (by decide)).trans <|
  (StableHlo.after_of_writes_sub hostOps4 _ hostOps4_writes (r := main_arg9) (by decide)).trans <|
  (W9_of_ne m c main_arg9 (by decide)).trans <|
  (StableHlo.after_of_writes_sub hostOps3 _ hostOps3_writes (r := main_arg9) (by decide)).trans <|
  (W7_of_ne m c main_arg9 (by decide)).trans <|
  (W6_of_ne m c main_arg9 (by decide)).trans <|
  (StableHlo.after_of_writes_sub hostOps1 _ hostOps1_writes (r := main_arg9) (by decide)).trans <|
  (W4_of_ne m c main_arg9 (by decide)).trans <|
  (StableHlo.after_of_writes_sub hostOps0_2 _ hostOps0_2_writes (r := main_arg9) (by decide)).trans <|
  (StableHlo.after_of_writes_sub hostOps0_1 _ hostOps0_1_writes (r := main_arg9) (by decide)).trans <|
  (StableHlo.after_of_writes_sub hostOps0 _ hostOps0_writes (r := main_arg9) (by decide)).trans <|
  rfl
theorem W12_main_arg10 (c : Dev nD) : W12 m c (Proc.devRef .tc main_arg10) = m ((c : Thread nD τ).loc main_arg10) :=
  (StableHlo.after_of_writes_sub hostOps5 _ hostOps5_writes (r := main_arg10) (by decide)).trans <|
  (W11_of_ne m c main_arg10 (by decide)).trans <|
  (StableHlo.after_of_writes_sub hostOps4 _ hostOps4_writes (r := main_arg10) (by decide)).trans <|
  (W9_of_ne m c main_arg10 (by decide)).trans <|
  (StableHlo.after_of_writes_sub hostOps3 _ hostOps3_writes (r := main_arg10) (by decide)).trans <|
  (W7_of_ne m c main_arg10 (by decide)).trans <|
  (W6_of_ne m c main_arg10 (by decide)).trans <|
  (StableHlo.after_of_writes_sub hostOps1 _ hostOps1_writes (r := main_arg10) (by decide)).trans <|
  (W4_of_ne m c main_arg10 (by decide)).trans <|
  (StableHlo.after_of_writes_sub hostOps0_2 _ hostOps0_2_writes (r := main_arg10) (by decide)).trans <|
  (StableHlo.after_of_writes_sub hostOps0_1 _ hostOps0_1_writes (r := main_arg10) (by decide)).trans <|
  (StableHlo.after_of_writes_sub hostOps0 _ hostOps0_writes (r := main_arg10) (by decide)).trans <|
  rfl

/-- THE FRAME: every weakly fair execution of @main terminates, nothing faulting, with every argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c _ (mem_uc main_arg0 (by decide))).trans (W12_main_arg0 m c),
    (h c _ (mem_uc main_arg1 (by decide))).trans (W12_main_arg1 m c),
    (h c _ (mem_uc main_arg2 (by decide))).trans (W12_main_arg2 m c),
    (h c _ (mem_uc main_arg3 (by decide))).trans (W12_main_arg3 m c),
    (h c _ (mem_uc main_arg4 (by decide))).trans (W12_main_arg4 m c),
    (h c _ (mem_uc main_arg5 (by decide))).trans (W12_main_arg5 m c),
    (h c _ (mem_uc main_arg6 (by decide))).trans (W12_main_arg6 m c),
    (h c _ (mem_uc main_arg7 (by decide))).trans (W12_main_arg7 m c),
    (h c _ (mem_uc main_arg8 (by decide))).trans (W12_main_arg8 m c),
    (h c _ (mem_uc main_arg9 (by decide))).trans (W12_main_arg9 m c),
    (h c _ (mem_uc main_arg10 (by decide))).trans (W12_main_arg10 m c)⟩) (run_all m ρ)

/-- THE RUN WITH ITS RESULT: the same, and the result buffer holds the fold's last valuation there. -/
theorem run_result (ρ : Dev nD → PrngReg) : θ_run defs (onTc (τ := τ) (main (F := F))) ⟨m, fun _ => 0, ρ⟩ (fun r => ∀ c : Dev nD,
      r.2.mem ((c.tc : Thread nD τ).loc main_v70) = W12 m c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨h c _ (mem_uc main_v70 (by decide)), (h c _ (mem_uc main_arg0 (by decide))).trans (W12_main_arg0 m c),
    (h c _ (mem_uc main_arg1 (by decide))).trans (W12_main_arg1 m c),
    (h c _ (mem_uc main_arg2 (by decide))).trans (W12_main_arg2 m c),
    (h c _ (mem_uc main_arg3 (by decide))).trans (W12_main_arg3 m c),
    (h c _ (mem_uc main_arg4 (by decide))).trans (W12_main_arg4 m c),
    (h c _ (mem_uc main_arg5 (by decide))).trans (W12_main_arg5 m c),
    (h c _ (mem_uc main_arg6 (by decide))).trans (W12_main_arg6 m c),
    (h c _ (mem_uc main_arg7 (by decide))).trans (W12_main_arg7 m c),
    (h c _ (mem_uc main_arg8 (by decide))).trans (W12_main_arg8 m c),
    (h c _ (mem_uc main_arg9 (by decide))).trans (W12_main_arg9 m c),
    (h c _ (mem_uc main_arg10 (by decide))).trans (W12_main_arg10 m c)⟩) (run_all m ρ)

end Cert.Kernel.Hand

end
-- ==== Proof.KI.R0.lean ====
import proofs.«409944_j24326694765162_4_alg».proof.Proof.Gen.KernelIdeal.Launch
import proofs.«409944_j24326694765162_4_alg».proof.Proof.Gen.KernelIdeal.Skeleton
import proofs.«409944_j24326694765162_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the first matrix product (2000×17 row blocks of the features times the 17×64 weights)

Three windows over a grid of 50 points: window 0 is a row block of the first operand, moved in at every point;
window 1 is the whole second operand, moved in once (its block index is constant); window 2 is the row block of
the result, moved out at every point. Everything is stated at the contents `V` the region is entered with. -/

/-! ## Blocks of the windows -/

/-- The block of window `w` at grid point `t`: the window's rectangle there, read from the array as `V` has it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 0 is an input moved in at every point, so the buffer handed to the body holds the block of that point.
    Stated for any proof data with the array of `V` (`hA`) whose body leaves the block untouched (`hafter`); the
    window is neither clipped nor idle anywhere. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1 is an input moved in at the first point only. At a later point nothing is moved, but the block index
    has not changed since the point before and the body left the buffer as it found it, so by induction along the
    grid the buffer still holds the block of the current point (which is the same block at every point). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## Rectangles the body touches: each buffer, whole -/

abbrev r0_0 : Rect S2000x17 := Rect.unit (s := S2000x17) ![0, 0] S2000x17.size inb_S2000x17_S2000x17_0_0
abbrev r0_1 : Rect S17x64 := Rect.unit (s := S17x64) ![0, 0] S17x64.size inb_S17x64_S17x64_0_0
abbrev r0_2 : Rect S2000x64 := Rect.unit (s := S2000x64) ![0, 0] S2000x64.size inb_S2000x64_S2000x64_0_0

/-! ## Contents of the output buffer after the body -/

/-- The output buffer after the body, as a function of the two input blocks: a single store of the payload over
    the whole buffer, written as a one-piece list. -/
def out0_2 (x0 : Vec F S2000x17 .f32) (x1 : Vec F S17x64 .f32) : Vec F S2000x64 .f32 :=
  View.canon [⟨r0_2, k0_pay1 (View.ld x0 r0_0) (View.ld x1 r0_1)⟩]

/-- The one stored rectangle is the whole buffer, so every index of the buffer lies in it. -/
theorem cover0_2 (p0 : Vec F S2000x64 .f32) (y : S2000x64.Idx) :
    ∃ pc ∈ ([⟨r0_2, p0⟩] : List (View.Piece (Elt F) S2000x64 .f32)), y ∈ pc.1.set :=
  View.cover_of_tiled [⟨r0_2, p0⟩] S2000x64.size (by rfl) y

/-! ## Hoare triple of the kernel -/

set_option maxHeartbeats 1000000 in
/-- Run on three whole buffers, the two inputs holding `x0` and `x1` and the output holding anything, the kernel
    reaches its continuation with the inputs unchanged and the output at `out0_2 x0 x1`. The kernel loads both
    inputs, loads the output (the value is discarded), and stores the payload over the whole output; after the
    store, reading the buffer back gives the one-piece list because that piece covers it. -/
theorem sound_kernel0 (c : Dev nD) (E : Set ℕ) (i : grid0.Coords) (arg1 : Memref sig .tc .vmem S2000x17 .f32) (harg1 : arg1.IsWhole) (arg2 : Memref sig .tc .vmem S17x64 .f32) (harg2 : arg2.IsWhole) (arg3 : Memref sig .tc .vmem S2000x64 .f32) (harg3 : arg3.IsWhole)
    (x0 : Vec F S2000x17 .f32) (x1 : Vec F S17x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## Proof data of the pipeline -/

/-- Proof data on core `c`: the arrays are those of `V`; after the body at point `t` each input buffer still
    holds its block and the output buffer holds `out0_2` of the two input blocks; the invariant is the one that
    keeps the remaining scoped buffers and the generator register as they are; nothing is owed; all shares full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The arrays of the proof data are those of `V` (a projection of the definition). -/
theorem A_eq0 (c : Dev nD) (w : Fin cfg0.W) : (dat0 V c).A w = V c (Pipeline.arrRef spec0 w) := by
  dsimp only [dat0]

/-- What the body leaves in each window (the case split of the definition, reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input buffer handed to the body holds the block of the current point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The obligation on the body, at an arbitrary point -/

/-- What holds when the body is entered at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what holds when it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the kernel's triple applies with those blocks
    as `x0`, `x1`; the invariant and what is owed are the same before and after and are carried across. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation in the form the pipeline theorems take it: the conjunction over the three windows, unfolded. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
import proofs.«409944_j24326694765162_4_alg».proof.Proof.Gen.KernelIdeal.Launch
import proofs.«409944_j24326694765162_4_alg».proof.Proof.Gen.KernelIdeal.Skeleton
import proofs.«409944_j24326694765162_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: bias and rectification (2000×64 row blocks plus the 1×64 bias row, then the maximum with zero)

Three windows over a grid of 50 points: window 0 is a row block of the first operand, moved in at every point;
window 1 is the whole second operand, moved in once (its block index is constant); window 2 is the row block of
the result, moved out at every point. Everything is stated at the contents `V` the region is entered with. -/

/-! ## Blocks of the windows -/

/-- The block of window `w` at grid point `t`: the window's rectangle there, read from the array as `V` has it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0 is an input moved in at every point, so the buffer handed to the body holds the block of that point.
    Stated for any proof data with the array of `V` (`hA`) whose body leaves the block untouched (`hafter`); the
    window is neither clipped nor idle anywhere. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1 is an input moved in at the first point only. At a later point nothing is moved, but the block index
    has not changed since the point before and the body left the buffer as it found it, so by induction along the
    grid the buffer still holds the block of the current point (which is the same block at every point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## Rectangles the body touches: each buffer, whole -/

abbrev r1_0 : Rect S2000x64 := Rect.unit (s := S2000x64) ![0, 0] S2000x64.size inb_S2000x64_S2000x64_0_0
abbrev r1_1 : Rect S1x64 := Rect.unit (s := S1x64) ![0, 0] S1x64.size inb_S1x64_S1x64_0_0
abbrev r1_2 : Rect S2000x64 := Rect.unit (s := S2000x64) ![0, 0] S2000x64.size inb_S2000x64_S2000x64_0_0

/-! ## Contents of the output buffer after the body -/

/-- The output buffer after the body, as a function of the two input blocks: a single store of the payload over
    the whole buffer, written as a one-piece list. -/
def out1_2 (x0 : Vec F S2000x64 .f32) (x1 : Vec F S1x64 .f32) : Vec F S2000x64 .f32 :=
  View.canon [⟨r1_2, k1_pay1 (View.ld x0 r1_0) (View.ld x1 r1_1)⟩]

/-- The one stored rectangle is the whole buffer, so every index of the buffer lies in it. -/
theorem cover1_2 (p0 : Vec F S2000x64 .f32) (y : S2000x64.Idx) :
    ∃ pc ∈ ([⟨r1_2, p0⟩] : List (View.Piece (Elt F) S2000x64 .f32)), y ∈ pc.1.set :=
  View.cover_of_tiled [⟨r1_2, p0⟩] S2000x64.size (by rfl) y

/-! ## Hoare triple of the kernel -/

set_option maxHeartbeats 1000000 in
/-- Run on three whole buffers, the two inputs holding `x0` and `x1` and the output holding anything, the kernel
    reaches its continuation with the inputs unchanged and the output at `out1_2 x0 x1`. The kernel loads both
    inputs, loads the output (the value is discarded), and stores the payload over the whole output; after the
    store, reading the buffer back gives the one-piece list because that piece covers it. -/
theorem sound_kernel1 (c : Dev nD) (E : Set ℕ) (i : grid1.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole)
    (x0 : Vec F S2000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_act_kernel i arg1 harg1 arg2 harg2 arg3 harg3) K := by
  simp only [cc1__bias_act_kernel_eq_skeleton]; unfold cc1__bias_act_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## Proof data of the pipeline -/

/-- Proof data on core `c`: the arrays are those of `V`; after the body at point `t` each input buffer still
    holds its block and the output buffer holds `out1_2` of the two input blocks; the invariant is the one that
    keeps the remaining scoped buffers and the generator register as they are; nothing is owed; all shares full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The arrays of the proof data are those of `V` (a projection of the definition). -/
theorem A_eq1 (c : Dev nD) (w : Fin cfg1.W) : (dat1 V c).A w = V c (Pipeline.arrRef spec1 w) := by
  dsimp only [dat1]

/-- What the body leaves in each window (the case split of the definition, reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input buffer handed to the body holds the block of the current point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The obligation on the body, at an arbitrary point -/

/-- What holds when the body is entered at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what holds when it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input buffers hold their blocks, so the kernel's triple applies with those blocks
    as `x0`, `x1`; the invariant and what is owed are the same before and after and are carried across. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation in the form the pipeline theorems take it: the conjunction over the three windows, unfolded. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
import proofs.«409944_j24326694765162_4_alg».proof.Proof.Gen.KernelIdeal.Launch
import proofs.«409944_j24326694765162_4_alg».proof.Proof.Gen.KernelIdeal.Skeleton
import proofs.«409944_j24326694765162_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the second matrix product (2000×64 row blocks times the 64×32 weights)

Three windows over a grid of 50 points: window 0 is a row block of the first operand, moved in at every point;
window 1 is the whole second operand, moved in once (its block index is constant); window 2 is the row block of
the result, moved out at every point. Everything is stated at the contents `V` the region is entered with. -/

/-! ## Blocks of the windows -/

/-- The block of window `w` at grid point `t`: the window's rectangle there, read from the array as `V` has it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Window 0 is an input moved in at every point, so the buffer handed to the body holds the block of that point.
    Stated for any proof data with the array of `V` (`hA`) whose body leaves the block untouched (`hafter`); the
    window is neither clipped nor idle anywhere. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1 is an input moved in at the first point only. At a later point nothing is moved, but the block index
    has not changed since the point before and the body left the buffer as it found it, so by induction along the
    grid the buffer still holds the block of the current point (which is the same block at every point). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## Rectangles the body touches: each buffer, whole -/

abbrev r2_0 : Rect S2000x64 := Rect.unit (s := S2000x64) ![0, 0] S2000x64.size inb_S2000x64_S2000x64_0_0
abbrev r2_1 : Rect S64x32 := Rect.unit (s := S64x32) ![0, 0] S64x32.size inb_S64x32_S64x32_0_0
abbrev r2_2 : Rect S2000x32 := Rect.unit (s := S2000x32) ![0, 0] S2000x32.size inb_S2000x32_S2000x32_0_0

/-! ## Contents of the output buffer after the body -/

/-- The output buffer after the body, as a function of the two input blocks: a single store of the payload over
    the whole buffer, written as a one-piece list. -/
def out2_2 (x0 : Vec F S2000x64 .f32) (x1 : Vec F S64x32 .f32) : Vec F S2000x32 .f32 :=
  View.canon [⟨r2_2, k2_pay1 (View.ld x0 r2_0) (View.ld x1 r2_1)⟩]

/-- The one stored rectangle is the whole buffer, so every index of the buffer lies in it. -/
theorem cover2_2 (p0 : Vec F S2000x32 .f32) (y : S2000x32.Idx) :
    ∃ pc ∈ ([⟨r2_2, p0⟩] : List (View.Piece (Elt F) S2000x32 .f32)), y ∈ pc.1.set :=
  View.cover_of_tiled [⟨r2_2, p0⟩] S2000x32.size (by rfl) y

/-! ## Hoare triple of the kernel -/

set_option maxHeartbeats 1000000 in
/-- Run on three whole buffers, the two inputs holding `x0` and `x1` and the output holding anything, the kernel
    reaches its continuation with the inputs unchanged and the output at `out2_2 x0 x1`. The kernel loads both
    inputs, loads the output (the value is discarded), and stores the payload over the whole output; after the
    store, reading the buffer back gives the one-piece list because that piece covers it. -/
theorem sound_kernel2 (c : Dev nD) (E : Set ℕ) (i : grid2.Coords) (arg1 : Memref sig .tc .vmem S2000x64 .f32) (harg1 : arg1.IsWhole) (arg2 : Memref sig .tc .vmem S64x32 .f32) (harg2 : arg2.IsWhole) (arg3 : Memref sig .tc .vmem S2000x32 .f32) (harg3 : arg3.IsWhole)
    (x0 : Vec F S2000x64 .f32) (x1 : Vec F S64x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## Proof data of the pipeline -/

/-- Proof data on core `c`: the arrays are those of `V`; after the body at point `t` each input buffer still
    holds its block and the output buffer holds `out2_2` of the two input blocks; the invariant is the one that
    keeps the remaining scoped buffers and the generator register as they are; nothing is owed; all shares full. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The arrays of the proof data are those of `V` (a projection of the definition). -/
theorem A_eq2 (c : Dev nD) (w : Fin cfg2.W) : (dat2 V c).A w = V c (Pipeline.arrRef spec2 w) := by
  dsimp only [dat2]

/-- What the body leaves in each window (the case split of the definition, reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input buffer handed to the body holds the block of the current point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The obligation on the body, at an arbitrary point -/

/-- What holds when the body is entered at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what holds when it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input buffers hold their blocks, so the kernel's triple applies with those blocks
    as `x0`, `x1`; the invariant and what is owed are the same before and after and are carried across. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation in the form the pipeline theorems take it: the conjunction over the three windows, unfolded. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
import proofs.«409944_j24326694765162_4_alg».proof.Proof.Gen.KernelIdeal.Launch
import proofs.«409944_j24326694765162_4_alg».proof.Proof.Gen.KernelIdeal.Skeleton
import proofs.«409944_j24326694765162_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: bias (2000×32 row blocks plus the 1×32 bias row)

Three windows over a grid of 50 points: window 0 is a row block of the first operand, moved in at every point;
window 1 is the whole second operand, moved in once (its block index is constant); window 2 is the row block of
the result, moved out at every point. Everything is stated at the contents `V` the region is entered with. -/

/-! ## Blocks of the windows -/

/-- The block of window `w` at grid point `t`: the window's rectangle there, read from the array as `V` has it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Window 0 is an input moved in at every point, so the buffer handed to the body holds the block of that point.
    Stated for any proof data with the array of `V` (`hA`) whose body leaves the block untouched (`hafter`); the
    window is neither clipped nor idle anywhere. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Window 1 is an input moved in at the first point only. At a later point nothing is moved, but the block index
    has not changed since the point before and the body left the buffer as it found it, so by induction along the
    grid the buffer still holds the block of the current point (which is the same block at every point). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## Rectangles the body touches: each buffer, whole -/

abbrev r3_0 : Rect S2000x32 := Rect.unit (s := S2000x32) ![0, 0] S2000x32.size inb_S2000x32_S2000x32_0_0
abbrev r3_1 : Rect S1x32 := Rect.unit (s := S1x32) ![0, 0] S1x32.size inb_S1x32_S1x32_0_0
abbrev r3_2 : Rect S2000x32 := Rect.unit (s := S2000x32) ![0, 0] S2000x32.size inb_S2000x32_S2000x32_0_0

/-! ## Contents of the output buffer after the body -/

/-- The output buffer after the body, as a function of the two input blocks: a single store of the payload over
    the whole buffer, written as a one-piece list. -/
def out3_2 (x0 : Vec F S2000x32 .f32) (x1 : Vec F S1x32 .f32) : Vec F S2000x32 .f32 :=
  View.canon [⟨r3_2, k3_pay1 (View.ld x0 r3_0) (View.ld x1 r3_1)⟩]

/-- The one stored rectangle is the whole buffer, so every index of the buffer lies in it. -/
theorem cover3_2 (p0 : Vec F S2000x32 .f32) (y : S2000x32.Idx) :
    ∃ pc ∈ ([⟨r3_2, p0⟩] : List (View.Piece (Elt F) S2000x32 .f32)), y ∈ pc.1.set :=
  View.cover_of_tiled [⟨r3_2, p0⟩] S2000x32.size (by rfl) y

/-! ## Hoare triple of the kernel -/

set_option maxHeartbeats 1000000 in
/-- Run on three whole buffers, the two inputs holding `x0` and `x1` and the output holding anything, the kernel
    reaches its continuation with the inputs unchanged and the output at `out3_2 x0 x1`. The kernel loads both
    inputs, loads the output (the value is discarded), and stores the payload over the whole output; after the
    store, reading the buffer back gives the one-piece list because that piece covers it. -/
theorem sound_kernel3 (c : Dev nD) (E : Set ℕ) (i : grid3.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole)
    (x0 : Vec F S2000x32 .f32) (x1 : Vec F S1x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_act_kernel i arg1 harg1 arg2 harg2 arg3 harg3) K := by
  simp only [cc3__bias_act_kernel_eq_skeleton]; unfold cc3__bias_act_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## Proof data of the pipeline -/

/-- Proof data on core `c`: the arrays are those of `V`; after the body at point `t` each input buffer still
    holds its block and the output buffer holds `out3_2` of the two input blocks; the invariant is the one that
    keeps the remaining scoped buffers and the generator register as they are; nothing is owed; all shares full. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The arrays of the proof data are those of `V` (a projection of the definition). -/
theorem A_eq3 (c : Dev nD) (w : Fin cfg3.W) : (dat3 V c).A w = V c (Pipeline.arrRef spec3 w) := by
  dsimp only [dat3]

/-- What the body leaves in each window (the case split of the definition, reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input buffer handed to the body holds the block of the current point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The obligation on the body, at an arbitrary point -/

/-- What holds when the body is entered at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what holds when it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the input buffers hold their blocks, so the kernel's triple applies with those blocks
    as `x0`, `x1`; the invariant and what is owed are the same before and after and are carried across. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation in the form the pipeline theorems take it: the conjunction over the three windows, unfolded. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.R4Runs.lean ====
import proofs.«409944_j24326694765162_4_alg».proof.Proof.Gen.KernelIdeal.Launch
import proofs.«409944_j24326694765162_4_alg».proof.Proof.Gen.KernelIdeal.Skeleton
import proofs.«409944_j24326694765162_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s and whose body leaves the block in place: an unfetched input's block index has not
    moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof
    data whose array is `V`'s and whose body leaves the block in place: an unfetched input's block index has not
    moved; the window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof
    data whose array is `V`'s and whose body leaves the block in place: an unfetched input's block index has not
    moved; the window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof
    data whose array is `V`'s and whose body leaves the block in place: an unfetched input's block index has not
    moved; the window is uncut and never idle. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for any proof
    data whose array is `V`'s and whose body leaves the block in place: an unfetched input's block index has not
    moved; the window is uncut and never idle. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not, for any proof
    data whose array is `V`'s and whose body leaves the block in place: an unfetched input's block index has not
    moved; the window is uncut and never idle. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the body's first `scf.if` (the reset of the two accumulators), from the grid coordinates:
    the skeleton's scalar chain substituted. -/
abbrev cond4_0 (i : grid4.Coords) : Prop := (Scalar.cmpi .ne (Scalar.extui (Scalar.cmpi .eq (BitVec.ofNat 32 (i 0).val) 0#32)) 0#32) = 1#1
/-- It holds at the first point only — decided over the grid. -/
theorem hcond4_0 : ∀ t : Fin cfg4.N, cond4_0 (grid4.coords t) ↔ t.val = 0 :=
  (by decide +kernel : ∀ t : Fin grid4.N, cond4_0 (grid4.coords t) ↔ t.val = 0)

/-- The condition of the body's second `scf.if` (the store of the output block). -/
abbrev cond4_1 (i : grid4.Coords) : Prop := k4_cond2 i = 1#1
/-- It holds at the last point only — decided over the grid. -/
theorem hcond4_1 : ∀ t : Fin cfg4.N, cond4_1 (grid4.coords t) ↔ t.val = 49 :=
  (by decide +kernel : ∀ t : Fin grid4.N, cond4_1 (grid4.coords t) ↔ t.val = 49)

/-! ## Where the windows are idle -/

/-- Window 0 is never idle (an input). -/
theorem liveAt4_0 : ∀ t : Fin cfg4.N, cfg4.idle 0 (grid4.coords t) = false := by decide +kernel
/-- Window 1 is never idle (an input). -/
theorem liveAt4_1 : ∀ t : Fin cfg4.N, cfg4.idle 1 (grid4.coords t) = false := by decide +kernel
/-- Window 2 is never idle (an input). -/
theorem liveAt4_2 : ∀ t : Fin cfg4.N, cfg4.idle 2 (grid4.coords t) = false := by decide +kernel
/-- Window 3 is never idle (an input). -/
theorem liveAt4_3 : ∀ t : Fin cfg4.N, cfg4.idle 3 (grid4.coords t) = false := by decide +kernel
/-- Window 4 is never idle (an input). -/
theorem liveAt4_4 : ∀ t : Fin cfg4.N, cfg4.idle 4 (grid4.coords t) = false := by decide +kernel
/-- Window 5 is never idle (an input). -/
theorem liveAt4_5 : ∀ t : Fin cfg4.N, cfg4.idle 5 (grid4.coords t) = false := by decide +kernel
/-- At the first point the configuration calls output 6 idle: the body stores nothing into it there. -/
theorem idleAt4_6_A : ∀ t : Fin cfg4.N, cond4_0 (grid4.coords t) → ¬cond4_1 (grid4.coords t) → cfg4.idle 6 (grid4.coords t) = true := by decide +kernel
/-- At the first point the pipeline does not write output 6's block back. -/
theorem noFlush4_6_A : ∀ t : Fin cfg4.N, cond4_0 (grid4.coords t) → ¬cond4_1 (grid4.coords t) → (cfg4.win 6).flush t = false := by decide +kernel
/-- At the middle points output 6 is idle as well. -/
theorem idleAt4_6_B : ∀ t : Fin cfg4.N, ¬cond4_0 (grid4.coords t) → ¬cond4_1 (grid4.coords t) → cfg4.idle 6 (grid4.coords t) = true := by decide +kernel
/-- At the middle points the pipeline does not write output 6's block back. -/
theorem noFlush4_6_B : ∀ t : Fin cfg4.N, ¬cond4_0 (grid4.coords t) → ¬cond4_1 (grid4.coords t) → (cfg4.win 6).flush t = false := by decide +kernel
/-- At the last point output 6 is live: the body stores into it. -/
theorem liveAt4_6_C : ∀ t : Fin cfg4.N, ¬cond4_0 (grid4.coords t) → cond4_1 (grid4.coords t) → cfg4.idle 6 (grid4.coords t) = false := by decide +kernel

/-! ## The staging and scratch memrefs the body is called with -/

/-- One staging buffer of output window 6, through which its contents are stated (the choice does not matter: the
    pieces cover the block). -/
abbrev VO4_6 : View sig .tc .vmem S32x512 .f32 := (Memref.whole cc4_stg6_0 : Memref sig .tc .vmem S32x512 .f32).view
/-- Each window's current staging memref at point `t`, spelled as the pipeline passes it, and its wholeness. -/
abbrev ms4_0 (t : Fin cfg4.N) : Memref sig .tc .vmem S2000x32 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2000x1 .i32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S32x32 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S32x1 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S32x32 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S32x1 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S32x512 .f32 := win4_6.stage (cfg4.slots t 6)
abbrev hs4_6 (t : Fin cfg4.N) : (ms4_6 t).IsWhole := hstage4_6 ((cfg4.slots t 6).cast nbuf4_6)
/-- The scratch operands: whole scoped buffers of the kernel's own, passed beside the windows — the running sum and
    the running count. -/
abbrev scM4_0 : Memref sig .tc .vmem S32x512 .f32 := Memref.whole cc4_scratch0
abbrev scM4_1 : Memref sig .tc .vmem S1x512 .f32 := Memref.whole cc4_scratch1
/-- The two carried scratches as views: what they hold is stated through these. -/
abbrev VS4_0 : View sig .tc .vmem S32x512 .f32 := scM4_0.view
abbrev VS4_1 : View sig .tc .vmem S1x512 .f32 := scM4_1.view

/-- Every scoped buffer of the core that is neither a staging buffer of this call nor one of its two scratch
    operands (the other calls' staging buffers), each at some contents: carried through the region unopened. -/
abbrev rest4 (c : Dev nD) : sProp 𝕄 :=
  Pipeline.scopedRestBut (Ix := Unit) (Name := ℕ) (U := UR sig nD τ) (Lvl := ℕ) (Val := Elt F) spec4 c [cc4_scratch0, cc4_scratch1]

/-- The scoped rest split at the call's own two scratch operands. -/
theorem scopedRest4_split (c : Dev nD) :
    (Pipeline.scopedRest (Ix := Unit) (Name := ℕ) (U := UR sig nD τ) (Lvl := ℕ) (Val := Elt F) spec4 c : sProp 𝕄)
      = iprop(iprop((∃ f : Buf (Elt F) ((c : Thread nD τ).loc cc4_scratch0), ((c : Thread nD τ).loc cc4_scratch0) ↦{fullShare} f) ∗ (∃ f : Buf (Elt F) ((c : Thread nD τ).loc cc4_scratch1), ((c : Thread nD τ).loc cc4_scratch1) ↦{fullShare} f))
          ∗ rest4 (F := F) c) :=
  Pipeline.scopedRest_split_of_list spec4 c [cc4_scratch0, cc4_scratch1] (by decide) (by decide)

/-- The region's entry invariant with the two scratch operands as memrefs owned at some contents, the other scoped
    buffers unopened, the generator register at some state: what the body obligation hands the run and takes back. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d)) ∗ rest4 (F := F) c) ∗ (∃ r, prngReg c r)) := by
  unfold Pipeline.ΦA; rw [scopedRest4_split]; simp only [scM4_0, scM4_1, owns_whole]; try rfl

end Cert.KernelIdeal.Hand

end
-- ==== Proof.KI.R4RunA.lean ====
import proofs.«409944_j24326694765162_4_alg».proof.Proof.KI.R4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in the output's staging memref and in the two scratch memrefs, as pieces (last
    first), AT THE FIRST POINT (the reset taken, the output's store not), with the proof that on whole memrefs — the six
    inputs' at their contents, the output's at contents handed back untouched (no store: the window is idle there),
    the two scratches at anything — the body runs to the continuation holding the inputs' and the output's as they
    were and each scratch with its pieces written: the reset then the update. -/
noncomputable def kernelRun4_A (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : cond4_0 i) (hc1 : ¬cond4_1 i)
    (x0 : Vec F S2000x32 .f32) (x1 : Vec F S2000x1 .i32) (x2 : Vec F S32x32 .f32) (x3 : Vec F S32x1 .f32) (x4 : Vec F S32x32 .f32) (x5 : Vec F S32x1 .f32) :
    Σ' (L6 : List (View.Piece (Elt F) S32x512 .f32)) (LS0 : List (View.Piece (Elt F) S32x512 .f32)), { LS1 : List (View.Piece (Elt F) S1x512 .f32) //
      ∀ (xi6 : Vec F S32x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__pool_mlp_kernel i arg1 harg1 arg2 harg2 arg3 harg3 arg4 harg4 arg5 harg5 arg6 harg6 arg7 harg7 arg8 harg8 arg9 harg9) K } := by
  refine ⟨[], ?_, ?_, fun xi6 E K => ?run⟩
  case run =>
    simp only [cc4__pool_mlp_kernel_eq_skeleton]; unfold cc4__pool_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.KernelIdeal.Hand

end
-- ==== Proof.KI.R4RunB.lean ====
import proofs.«409944_j24326694765162_4_alg».proof.Proof.KI.R4RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The same AT A MIDDLE POINT (neither branch taken): the two scratches come in at what the point before left
    (`xs0`, `xs1`) and go out with the update's piece written; the output's buffer is handed back untouched. -/
noncomputable def kernelRun4_B (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : ¬cond4_0 i) (hc1 : ¬cond4_1 i)
    (x0 : Vec F S2000x32 .f32) (x1 : Vec F S2000x1 .i32) (x2 : Vec F S32x32 .f32) (x3 : Vec F S32x1 .f32) (x4 : Vec F S32x32 .f32) (x5 : Vec F S32x1 .f32) (xs0 : Vec F S32x512 .f32) (xs1 : Vec F S1x512 .f32) :
    Σ' (L6 : List (View.Piece (Elt F) S32x512 .f32)) (LS0 : List (View.Piece (Elt F) S32x512 .f32)), { LS1 : List (View.Piece (Elt F) S1x512 .f32) //
      ∀ (xi6 : Vec F S32x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__pool_mlp_kernel i arg1 harg1 arg2 harg2 arg3 harg3 arg4 harg4 arg5 harg5 arg6 harg6 arg7 harg7 arg8 harg8 arg9 harg9) K } := by
  refine ⟨[], ?_, ?_, fun xi6 E K => ?run⟩
  case run =>
    simp only [cc4__pool_mlp_kernel_eq_skeleton]; unfold cc4__pool_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.KernelIdeal.Hand

end
-- ==== Proof.KI.R4RunC.lean ====
import proofs.«409944_j24326694765162_4_alg».proof.Proof.KI.R4RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The same AT THE LAST POINT (the output's store taken): the two scratches come in at what the point before
    left and go out with the update's piece written; the output's buffer comes in at anything and goes out with the
    stored block's piece written, computed from the updated scratches and the four small inputs. -/
noncomputable def kernelRun4_C (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : ¬cond4_0 i) (hc1 : cond4_1 i)
    (x0 : Vec F S2000x32 .f32) (x1 : Vec F S2000x1 .i32) (x2 : Vec F S32x32 .f32) (x3 : Vec F S32x1 .f32) (x4 : Vec F S32x32 .f32) (x5 : Vec F S32x1 .f32) (xs0 : Vec F S32x512 .f32) (xs1 : Vec F S1x512 .f32) :
    Σ' (L6 : List (View.Piece (Elt F) S32x512 .f32)) (LS0 : List (View.Piece (Elt F) S32x512 .f32)), { LS1 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__pool_mlp_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc4__pool_mlp_kernel_eq_skeleton]; unfold cc4__pool_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]; · iexists _; iexact HS0
    iexists _; iexact HS1

end Cert.KernelIdeal.Hand

end
-- ==== Proof.KI.R4.lean ====
import proofs.«409944_j24326694765162_4_alg».proof.Proof.KI.R4RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each control case leaves in the output's buffer and in the two scratches -/

/-- At the first point nothing is stored into output 6 (the window is idle there and not written back): no pieces — a
    placeholder (junk read back) that nothing consults. -/
def out4_A_6 (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : cond4_0 i) (hc1 : ¬cond4_1 i)
    (x0 : Vec F S2000x32 .f32) (x1 : Vec F S2000x1 .i32) (x2 : Vec F S32x32 .f32) (x3 : Vec F S32x1 .f32) (x4 : Vec F S32x32 .f32) (x5 : Vec F S32x1 .f32) : Vec F S32x512 .f32 :=
  VO4_6.read (Elt F) (VO4_6.writes (Elt F) VO4_6.junk (kernelRun4_A c i arg1 harg1 arg2 harg2 arg3 harg3 arg4 harg4 arg5 harg5 arg6 harg6 arg7 harg7 arg8 harg8 arg9 harg9 hc0 hc1 x0 x1 x2 x3 x4 x5).1)

/-- At the first point the pieces for the running sum (scratch `arg8`) cover it: whole-buffer stores. -/
theorem scover4_A_0 (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : cond4_0 i) (hc1 : ¬cond4_1 i)
    (x0 : Vec F S2000x32 .f32) (x1 : Vec F S2000x1 .i32) (x2 : Vec F S32x32 .f32) (x3 : Vec F S32x1 .f32) (x4 : Vec F S32x32 .f32) (x5 : Vec F S32x1 .f32) (y : S32x512.Idx) :
    ∃ pc ∈ (kernelRun4_A c i arg1 harg1 arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun4_A c i arg1 harg1 arg2 harg2 arg3 harg3 arg4 harg4 arg5 harg5 arg6 harg6 arg7 harg7 arg8 harg8 arg9 harg9 hc0 hc1 x0 x1 x2 x3 x4 x5).2.1 S32x512.size (by sl_kernel_rfl) y

/-- What the first point leaves in the running sum: its pieces read back over junk. -/
def sout4_A_0 (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : cond4_0 i) (hc1 : ¬cond4_1 i)
    (x0 : Vec F S2000x32 .f32) (x1 : Vec F S2000x1 .i32) (x2 : Vec F S32x32 .f32) (x3 : Vec F S32x1 .f32) (x4 : Vec F S32x32 .f32) (x5 : Vec F S32x1 .f32) : Vec F S32x512 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 hc0 hc1 x0 x1 x2 x3 x4 x5).2.1)

/-- At the first point the pieces for the running count (scratch `arg9`) cover it: whole-buffer stores. -/
theorem scover4_A_1 (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : cond4_0 i) (hc1 : ¬cond4_1 i)
    (x0 : Vec F S2000x32 .f32) (x1 : Vec F S2000x1 .i32) (x2 : Vec F S32x32 .f32) (x3 : Vec F S32x1 .f32) (x4 : Vec F S32x32 .f32) (x5 : Vec F S32x1 .f32) (y : S1x512.Idx) :
    ∃ pc ∈ (kernelRun4_A c i arg1 harg1 arg2 harg2 arg3 harg3 arg4 harg4 arg5 harg5 arg6 harg6 arg7 harg7 arg8 harg8 arg9 harg9 hc0 hc1 x0 x1 x2 x3 x4 x5).2.2.1, y ∈ pc.1.set :=
  View.cover_of_tiledL (kernelRun4_A c i arg1 harg1 arg2 harg2 arg3 harg3 arg4 harg4 arg5 harg5 arg6 harg6 arg7 harg7 arg8 harg8 arg9 harg9 hc0 hc1 x0 x1 x2 x3 x4 x5).2.2.1 S1x512.size (by sl_kernel_rfl) y

/-- What the first point leaves in the running count: its pieces read back over junk. -/
def sout4_A_1 (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : cond4_0 i) (hc1 : ¬cond4_1 i)
    (x0 : Vec F S2000x32 .f32) (x1 : Vec F S2000x1 .i32) (x2 : Vec F S32x32 .f32) (x3 : Vec F S32x1 .f32) (x4 : Vec F S32x32 .f32) (x5 : Vec F S32x1 .f32) : Vec F S1x512 .f32 :=
  VS4_1.read (Elt F) (VS4_1.writes (Elt F) VS4_1.junk (kernelRun4_A c i arg1 harg1 arg2 harg2 arg3 harg3 arg4 harg4 arg5 harg5 arg6 harg6 arg7 harg7 arg8 harg8 arg9 harg9 hc0 hc1 x0 x1 x2 x3 x4 x5).2.2.1)

/-- At a middle point nothing is stored into output 6 (the window is idle there and not written back): no pieces — a
    placeholder (junk read back) that nothing consults. -/
def out4_B_6 (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : ¬cond4_0 i) (hc1 : ¬cond4_1 i)
    (x0 : Vec F S2000x32 .f32) (x1 : Vec F S2000x1 .i32) (x2 : Vec F S32x32 .f32) (x3 : Vec F S32x1 .f32) (x4 : Vec F S32x32 .f32) (x5 : Vec F S32x1 .f32) (xs0 : Vec F S32x512 .f32) (xs1 : Vec F S1x512 .f32) : Vec F S32x512 .f32 :=
  VO4_6.read (Elt F) (VO4_6.writes (Elt F) VO4_6.junk (kernelRun4_B c i arg1 harg1 arg2 harg2 arg3 harg3 arg4 harg4 arg5 harg5 arg6 harg6 arg7 harg7 arg8 harg8 arg9 harg9 hc0 hc1 x0 x1 x2 x3 x4 x5 xs0 xs1).1)

/-- At a middle point the pieces for the running sum (scratch `arg8`) cover it: whole-buffer stores. -/
theorem scover4_B_0 (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : ¬cond4_0 i) (hc1 : ¬cond4_1 i)
    (x0 : Vec F S2000x32 .f32) (x1 : Vec F S2000x1 .i32) (x2 : Vec F S32x32 .f32) (x3 : Vec F S32x1 .f32) (x4 : Vec F S32x32 .f32) (x5 : Vec F S32x1 .f32) (xs0 : Vec F S32x512 .f32) (xs1 : Vec F S1x512 .f32) (y : S32x512.Idx) :
    ∃ pc ∈ (kernelRun4_B c i arg1 harg1 arg2 harg2 arg3 harg3 arg4 harg4 arg5 harg5 arg6 harg6 arg7 harg7 arg8 harg8 arg9 harg9 hc0 hc1 x0 x1 x2 x3 x4 x5 xs0 xs1).2.1, y ∈ pc.1.set :=
  View.cover_of_tiledL (kernelRun4_B c i arg1 harg1 arg2 harg2 arg3 harg3 arg4 harg4 arg5 harg5 arg6 harg6 arg7 harg7 arg8 harg8 arg9 harg9 hc0 hc1 x0 x1 x2 x3 x4 x5 xs0 xs1).2.1 S32x512.size (by sl_kernel_rfl) y

/-- What a middle point leaves in the running sum: its pieces read back over junk. -/
def sout4_B_0 (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : ¬cond4_0 i) (hc1 : ¬cond4_1 i)
    (x0 : Vec F S2000x32 .f32) (x1 : Vec F S2000x1 .i32) (x2 : Vec F S32x32 .f32) (x3 : Vec F S32x1 .f32) (x4 : Vec F S32x32 .f32) (x5 : Vec F S32x1 .f32) (xs0 : Vec F S32x512 .f32) (xs1 : Vec F S1x512 .f32) : Vec F S32x512 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 hc0 hc1 x0 x1 x2 x3 x4 x5 xs0 xs1).2.1)

/-- At a middle point the pieces for the running count (scratch `arg9`) cover it: whole-buffer stores. -/
theorem scover4_B_1 (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : ¬cond4_0 i) (hc1 : ¬cond4_1 i)
    (x0 : Vec F S2000x32 .f32) (x1 : Vec F S2000x1 .i32) (x2 : Vec F S32x32 .f32) (x3 : Vec F S32x1 .f32) (x4 : Vec F S32x32 .f32) (x5 : Vec F S32x1 .f32) (xs0 : Vec F S32x512 .f32) (xs1 : Vec F S1x512 .f32) (y : S1x512.Idx) :
    ∃ pc ∈ (kernelRun4_B c i arg1 harg1 arg2 harg2 arg3 harg3 arg4 harg4 arg5 harg5 arg6 harg6 arg7 harg7 arg8 harg8 arg9 harg9 hc0 hc1 x0 x1 x2 x3 x4 x5 xs0 xs1).2.2.1, y ∈ pc.1.set :=
  View.cover_of_tiledL (kernelRun4_B c i arg1 harg1 arg2 harg2 arg3 harg3 arg4 harg4 arg5 harg5 arg6 harg6 arg7 harg7 arg8 harg8 arg9 harg9 hc0 hc1 x0 x1 x2 x3 x4 x5 xs0 xs1).2.2.1 S1x512.size (by sl_kernel_rfl) y

/-- What a middle point leaves in the running count: its pieces read back over junk. -/
def sout4_B_1 (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : ¬cond4_0 i) (hc1 : ¬cond4_1 i)
    (x0 : Vec F S2000x32 .f32) (x1 : Vec F S2000x1 .i32) (x2 : Vec F S32x32 .f32) (x3 : Vec F S32x1 .f32) (x4 : Vec F S32x32 .f32) (x5 : Vec F S32x1 .f32) (xs0 : Vec F S32x512 .f32) (xs1 : Vec F S1x512 .f32) : Vec F S1x512 .f32 :=
  VS4_1.read (Elt F) (VS4_1.writes (Elt F) VS4_1.junk (kernelRun4_B c i arg1 harg1 arg2 harg2 arg3 harg3 arg4 harg4 arg5 harg5 arg6 harg6 arg7 harg7 arg8 harg8 arg9 harg9 hc0 hc1 x0 x1 x2 x3 x4 x5 xs0 xs1).2.2.1)

/-- At the last point the pieces for output 6 tile its block (one whole-block store), so they cover it. -/
theorem cover4_C_6 (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : ¬cond4_0 i) (hc1 : cond4_1 i)
    (x0 : Vec F S2000x32 .f32) (x1 : Vec F S2000x1 .i32) (x2 : Vec F S32x32 .f32) (x3 : Vec F S32x1 .f32) (x4 : Vec F S32x32 .f32) (x5 : Vec F S32x1 .f32) (xs0 : Vec F S32x512 .f32) (xs1 : Vec F S1x512 .f32) (y : S32x512.Idx) :
    ∃ pc ∈ (kernelRun4_C c i arg1 harg1 arg2 harg2 arg3 harg3 arg4 harg4 arg5 harg5 arg6 harg6 arg7 harg7 arg8 harg8 arg9 harg9 hc0 hc1 x0 x1 x2 x3 x4 x5 xs0 xs1).1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 x4 x5 xs0 xs1).1 S32x512.size (by sl_kernel_rfl) y

/-- What the last point leaves in output 6's staging buffer: its pieces read back over junk. -/
def out4_C_6 (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : ¬cond4_0 i) (hc1 : cond4_1 i)
    (x0 : Vec F S2000x32 .f32) (x1 : Vec F S2000x1 .i32) (x2 : Vec F S32x32 .f32) (x3 : Vec F S32x1 .f32) (x4 : Vec F S32x32 .f32) (x5 : Vec F S32x1 .f32) (xs0 : Vec F S32x512 .f32) (xs1 : Vec F S1x512 .f32) : Vec F S32x512 .f32 :=
  VO4_6.read (Elt F) (VO4_6.writes (Elt F) VO4_6.junk (kernelRun4_C c i arg1 harg1 arg2 harg2 arg3 harg3 arg4 harg4 arg5 harg5 arg6 harg6 arg7 harg7 arg8 harg8 arg9 harg9 hc0 hc1 x0 x1 x2 x3 x4 x5 xs0 xs1).1)

/-- At the last point the pieces for the running sum (scratch `arg8`) cover it: whole-buffer stores. -/
theorem scover4_C_0 (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : ¬cond4_0 i) (hc1 : cond4_1 i)
    (x0 : Vec F S2000x32 .f32) (x1 : Vec F S2000x1 .i32) (x2 : Vec F S32x32 .f32) (x3 : Vec F S32x1 .f32) (x4 : Vec F S32x32 .f32) (x5 : Vec F S32x1 .f32) (xs0 : Vec F S32x512 .f32) (xs1 : Vec F S1x512 .f32) (y : S32x512.Idx) :
    ∃ pc ∈ (kernelRun4_C c i arg1 harg1 arg2 harg2 arg3 harg3 arg4 harg4 arg5 harg5 arg6 harg6 arg7 harg7 arg8 harg8 arg9 harg9 hc0 hc1 x0 x1 x2 x3 x4 x5 xs0 xs1).2.1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 x4 x5 xs0 xs1).2.1 S32x512.size (by sl_kernel_rfl) y

/-- What the last point leaves in the running sum: its pieces read back over junk. -/
def sout4_C_0 (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : ¬cond4_0 i) (hc1 : cond4_1 i)
    (x0 : Vec F S2000x32 .f32) (x1 : Vec F S2000x1 .i32) (x2 : Vec F S32x32 .f32) (x3 : Vec F S32x1 .f32) (x4 : Vec F S32x32 .f32) (x5 : Vec F S32x1 .f32) (xs0 : Vec F S32x512 .f32) (xs1 : Vec F S1x512 .f32) : Vec F S32x512 .f32 :=
  VS4_0.read (Elt F) (VS4_0.writes (Elt F) VS4_0.junk (kernelRun4_C c i arg1 harg1 arg2 harg2 arg3 harg3 arg4 harg4 arg5 harg5 arg6 harg6 arg7 harg7 arg8 harg8 arg9 harg9 hc0 hc1 x0 x1 x2 x3 x4 x5 xs0 xs1).2.1)

/-- At the last point the pieces for the running count (scratch `arg9`) cover it: whole-buffer stores. -/
theorem scover4_C_1 (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : ¬cond4_0 i) (hc1 : cond4_1 i)
    (x0 : Vec F S2000x32 .f32) (x1 : Vec F S2000x1 .i32) (x2 : Vec F S32x32 .f32) (x3 : Vec F S32x1 .f32) (x4 : Vec F S32x32 .f32) (x5 : Vec F S32x1 .f32) (xs0 : Vec F S32x512 .f32) (xs1 : Vec F S1x512 .f32) (y : S1x512.Idx) :
    ∃ pc ∈ (kernelRun4_C c i arg1 harg1 arg2 harg2 arg3 harg3 arg4 harg4 arg5 harg5 arg6 harg6 arg7 harg7 arg8 harg8 arg9 harg9 hc0 hc1 x0 x1 x2 x3 x4 x5 xs0 xs1).2.2.1, y ∈ pc.1.set :=
  View.cover_of_tiledL (kernelRun4_C c i arg1 harg1 arg2 harg2 arg3 harg3 arg4 harg4 arg5 harg5 arg6 harg6 arg7 harg7 arg8 harg8 arg9 harg9 hc0 hc1 x0 x1 x2 x3 x4 x5 xs0 xs1).2.2.1 S1x512.size (by sl_kernel_rfl) y

/-- What the last point leaves in the running count: its pieces read back over junk. -/
def sout4_C_1 (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : ¬cond4_0 i) (hc1 : cond4_1 i)
    (x0 : Vec F S2000x32 .f32) (x1 : Vec F S2000x1 .i32) (x2 : Vec F S32x32 .f32) (x3 : Vec F S32x1 .f32) (x4 : Vec F S32x32 .f32) (x5 : Vec F S32x1 .f32) (xs0 : Vec F S32x512 .f32) (xs1 : Vec F S1x512 .f32) : Vec F S1x512 .f32 :=
  VS4_1.read (Elt F) (VS4_1.writes (Elt F) VS4_1.junk (kernelRun4_C c i arg1 harg1 arg2 harg2 arg3 harg3 arg4 harg4 arg5 harg5 arg6 harg6 arg7 harg7 arg8 harg8 arg9 harg9 hc0 hc1 x0 x1 x2 x3 x4 x5 xs0 xs1).2.2.1)

/-! ## What the output's buffer and the two scratches hold after each point -/

/-- THE ACCUMULATION. What output 6's staging buffer, the running sum and the running count hold after the body at
    position `n`: the case the closed forms select at `n`, run at the point's memrefs and input blocks, the two
    scratches coming in at what this leaves at `n - 1`. -/
def outsAt4 (c : Dev nD) : (n : ℕ) → n < cfg4.N → Vec F S32x512 .f32 × Vec F S32x512 .f32 × Vec F S1x512 .f32
  | 0, hn => (out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => (by decide : ¬(0 : ℕ) = 49) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => (by decide : ¬(0 : ℕ) = 49) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => (by decide : ¬(0 : ℕ) = 49) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩))
  | n + 1, hn =>
    if h1 : n + 1 = 49 then
      (out4_C_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.1 (outsAt4 c n (Nat.lt_of_succ_lt hn)).2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.1 (outsAt4 c n (Nat.lt_of_succ_lt hn)).2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.1 (outsAt4 c n (Nat.lt_of_succ_lt hn)).2.2)
    else
      (out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.1 (outsAt4 c n (Nat.lt_of_succ_lt hn)).2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.1 (outsAt4 c n (Nat.lt_of_succ_lt hn)).2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.1 (outsAt4 c n (Nat.lt_of_succ_lt hn)).2.2)

/-- `outsAt4` at the first point: that case's contents. -/
theorem outsAt4_A (c : Dev nD) (t : Fin cfg4.N) (h0 : t.val = 0) (h1 : ¬t.val = 49) :
    outsAt4 V c t.val t.isLt = (out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t)) := by
  obtain ⟨n, hn⟩ := t
  cases n with
  | zero => exact rfl
  | succ n => exact absurd h0 (Nat.succ_ne_zero n)

/-- `outsAt4` at a middle point: that case's contents, over what the point before left. -/
theorem outsAt4_B (c : Dev nD) (t : Fin cfg4.N) (h0 : ¬t.val = 0) (h1 : ¬t.val = 49) :
    outsAt4 V c t.val t.isLt = (out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2) := by
  obtain ⟨n, hn⟩ := t
  cases n with
  | zero => exact absurd rfl h0
  | succ n => exact (dif_neg h1).trans rfl

/-- `outsAt4` at the last point: that case's contents, over what the point before left. -/
theorem outsAt4_C (c : Dev nD) (t : Fin cfg4.N) (h0 : ¬t.val = 0) (h1 : t.val = 49) :
    outsAt4 V c t.val t.isLt = (out4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2, sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2) := by
  obtain ⟨n, hn⟩ := t
  cases n with
  | zero => exact absurd rfl h0
  | succ n => exact (dif_pos h1).trans rfl

/-- The region invariant before position `n`: before the first point the region's entry invariant (both scratches at
    anything); afterwards the scoped rest with the running sum and the running count at what the point before left
    in them (`outsAt4`'s scratch components), the other scoped buffers unopened, the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.1) ∗ owns (c : Thread nD τ) scM4_1 fullShare ((outsAt4 V c n hn).2.2)) ∗ rest4 (F := F) c) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the two scratches at that point's contents. -/
theorem PhiS4_succ (c : Dev nD) (n : ℕ) (hn : n < cfg4.N) :
    PhiS4 V c (n + 1) hn = iprop(iprop(iprop(owns (c : Thread nD τ) scM4_0 fullShare ((outsAt4 V c n hn).2.1) ∗ owns (c : Thread nD τ) scM4_1 fullShare ((outsAt4 V c n hn).2.2)) ∗ rest4 (F := F) c) ∗ (∃ r, prngReg c r)) := rfl

/-- Before a point that is not the first: the two scratches at what the point before left. -/
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.1) ∗ owns (c : Thread nD τ) scM4_1 fullShare ((outsAt4 V c (n - 1) (by omega)).2.2)) ∗ rest4 (F := F) c) ∗ (∃ r, prngReg c r)) := by
  cases n with
  | zero => exact absurd rfl hz
  | succ n => rfl

/-! ## The pipeline's proof data -/

/-- The proof data of the region's pipeline on core `c`: the arrays as the region finds them (`V`); after the body
    at point `t` each input's buffer at its block and the output's at `outsAt4`'s first component; the invariant
    `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t | ⟨1, _⟩ => iblk4 V c 1 t | ⟨2, _⟩ => iblk4 V c 2 t | ⟨3, _⟩ => iblk4 V c 3 t
    | ⟨4, _⟩ => iblk4 V c 4 t | ⟨5, _⟩ => iblk4 V c 5 t
    | ⟨6, _⟩ => (outsAt4 V c t.val t.isLt).1
  Φ t := PhiS4 V c t.val (Nat.le_of_lt_succ t.isLt)
  q _ := fullShare
  owed _ := 0

/-- The proof data's arrays are the region-entry contents (the definition projected, `V` never unfolded). -/
theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).1 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

/-- What the body is called with at point `t` (the obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4800000 in
/-- The body at any point: the inputs' memrefs hold their blocks; the closed forms say which case the point is in; so
    that case's run applies. The invariant hands the body the two scratches at what the point before left (at
    anything at the first point), the other scoped buffers and the generator register untouched, and takes the
    scratches back at this point's contents (their pieces cover them); the output's buffer is handed back as found
    where the window is idle, and at the stored block (its piece covers it) at the last point; the core owes nothing
    throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  have hN : t.val < 50 := lt_of_lt_of_eq t.isLt (show cfg4.N = 50 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  rw [show (dat4 V c).leavesExact 5 t = owns (c : Thread nD τ) (ms4_5 t) fullShare ((dat4 V c).after 5 t) from by
    unfold Dat.leavesExact; rw [liveAt4_5 t], after4_5]
  by_cases h0 : t.val = 0
  · have h1 : ¬t.val = 49 := by omega
    rw [Dat.leavesExact_idle (dat4 V c) 6 t (idleAt4_6_A t ((hcond4_0 t).mpr h0) (fun h => h1 ((hcond4_1 t).mp h))) (noFlush4_6_A t ((hcond4_0 t).mpr h0) (fun h => h1 ((hcond4_1 t).mp h)))]
    rw [outsAt4_A V c t h0 h1]
    unfold sout4_A_0 sout4_A_1; (try dsimp only)
    rw [PhiS4_castSucc V c t, PhiS4_zero V c _ _ h0, PhiA4_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun4_A c (grid4.coords t) _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover4_A_0 c _ _ _ _ _ _ _ _ _ _ _ _ _ _ _ _ _ _ _ _ _ _ _ _ _ _ _)
          unfold owns; iexists _; isplitr
          swap; · iexact HS1
          ipureintro; exact View.read_writes_of_cover _ _ _ _ _ (scover4_A_1 c _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6

  · by_cases h1 : t.val = 49
    · rw [show (dat4 V c).leavesExact 6 t = owns (c : Thread nD τ) (ms4_6 t) fullShare ((dat4 V c).after 6 t) from by
        unfold Dat.leavesExact; rw [liveAt4_6_C t (fun h => h0 ((hcond4_0 t).mp h)) ((hcond4_1 t).mpr h1)], after4_6]
      rw [outsAt4_C V c t h0 h1]
      unfold out4_C_6 sout4_C_0 sout4_C_1; (try dsimp only)
      rw [PhiS4_castSucc V c t, PhiS4_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun4_C c (grid4.coords t) _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) (iblk4 V c 5 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%e6, H6⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_C_0 c _ _ _ _ _ _ _ _ _ _ _ _ _ _ _ _ _ _ _ _ _ _ _ _ _ _ _ _ _)
            unfold owns; iexists _; isplitr
            swap; · iexact HS1
            ipureintro; exact View.read_writes_of_cover _ _ _ _ _ (scover4_C_1 c _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover4_C_6 c _ _ _ _ _ _ _ _ _ _ _ _ _ _ _ _ _ _ _ _ _ _ _ _ _ _ _ _ _)

    · rw [Dat.leavesExact_idle (dat4 V c) 6 t (idleAt4_6_B t (fun h => h0 ((hcond4_0 t).mp h)) (fun h => h1 ((hcond4_1 t).mp h))) (noFlush4_6_B t (fun h => h0 ((hcond4_0 t).mp h)) (fun h => h1 ((hcond4_1 t).mp h)))]
      rw [outsAt4_B V c t h0 h1]
      unfold sout4_B_0 sout4_B_1; (try dsimp only)
      rw [PhiS4_castSucc V c t, PhiS4_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun4_B c (grid4.coords t) _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_B_0 c _ _ _ _ _ _ _ _ _ _ _ _ _ _ _ _ _ _ _ _ _ _ _ _ _ _ _ _ _)
            unfold owns; iexists _; isplitr
            swap; · iexact HS1
            ipureintro; exact View.read_writes_of_cover _ _ _ _ _ (scover4_B_1 c _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : (Pipeline.ΦA spec4 c : sProp 𝕄) ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the entry invariant back: the scratches' named contents are
    forgotten. -/
theorem Phi_out4 (c : Dev nD) (t : Fin (cfg4.N + 1)) (ht : t.val ≠ 0) : (dat4 V c).Φ t ⊢ (Pipeline.ΦA spec4 c : sProp 𝕄) := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout4 (c : Dev nD) : (dat4 V c).Φ (Fin.last cfg4.N) ⊢ (Pipeline.ΦA spec4 c : sProp 𝕄) :=
  Phi_out4 V c _ (by rw [Fin.val_last]; have : cfg4.N = 50 := N_4; omega)

end Cert.KernelIdeal.Hand

end
-- ==== Proof.KI.Launch.lean ====
/-
  The run of the kernel program as a whole: its @main is seven stretches of host operations and five kernel
  regions. The buffer contents at every boundary are a fold from the launch memory — a host stretch applies its
  operations, a region leaves its arrays at what its write-backs amount to and every other buffer untouched — and
  each region's proof data is taken at the contents the fold has reached when the region is entered. Composing the
  segments gives: every weakly fair execution terminates, and the final memory holds the fold's last valuation at
  every unscoped buffer. The argument arrays are never written, so they end as launched; the result is read off the
  same valuation.
-/
import proofs.«409944_j24326694765162_4_alg».proof.Proof.KI.R0
import proofs.«409944_j24326694765162_4_alg».proof.Proof.KI.R1
import proofs.«409944_j24326694765162_4_alg».proof.Proof.KI.R2
import proofs.«409944_j24326694765162_4_alg».proof.Proof.KI.R3
import proofs.«409944_j24326694765162_4_alg».proof.Proof.KI.R4
import proofs.«409944_j24326694765162_4_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- After the three leading host stretches (the edge lists, the degrees, the normalisation). -/
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
/-- The same read at the TensorCore's references: what region 0's proof data take. -/
abbrev V3 : (c : Dev nD) → (b : Ref sig .tc) → Buf (Elt F) ((c : Thread nD τ).loc b) := fun c b => W3 m c b
/-- After region 0 (the first projection). -/
def W4 (c : Dev nD) : Valuation τ sig (Elt F) :=
  Pipeline.withArrays spec0 c (W3 m c) fun w => (dat0 (V3 m) c).arrAt w cfg0.N
/-- After the first gather / scatter stretch. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b
/-- After region 1 (bias and max with zero). -/
def W6 (c : Dev nD) : Valuation τ sig (Elt F) :=
  Pipeline.withArrays spec1 c (W5 m c) fun w => (dat1 (V5 m) c).arrAt w cfg1.N
abbrev V6 : (c : Dev nD) → (b : Ref sig .tc) → Buf (Elt F) ((c : Thread nD τ).loc b) := fun c b => W6 m c b
/-- After region 2 (the second projection). -/
def W7 (c : Dev nD) : Valuation τ sig (Elt F) :=
  Pipeline.withArrays spec2 c (W6 m c) fun w => (dat2 (V6 m) c).arrAt w cfg2.N
/-- After the second gather / scatter stretch. -/
abbrev W8 : Dev nD → Valuation τ sig (Elt F) := fun c => StableHlo.after hostOps3 (W7 m c)
abbrev V8 : (c : Dev nD) → (b : Ref sig .tc) → Buf (Elt F) ((c : Thread nD τ).loc b) := fun c b => W8 m c b
/-- After region 3 (the second bias). -/
def W9 (c : Dev nD) : Valuation τ sig (Elt F) :=
  Pipeline.withArrays spec3 c (W8 m c) fun w => (dat3 (V8 m) c).arrAt w cfg3.N
/-- After the reshapes and transposes that feed the pooling head. -/
abbrev W10 : Dev nD → Valuation τ sig (Elt F) := fun c => StableHlo.after hostOps4 (W9 m c)
abbrev V10 : (c : Dev nD) → (b : Ref sig .tc) → Buf (Elt F) ((c : Thread nD τ).loc b) := fun c b => W10 m c b
/-- After region 4 (the pooling head). -/
def W11 (c : Dev nD) : Valuation τ sig (Elt F) :=
  Pipeline.withArrays spec4 c (W10 m c) fun w => (dat4 (V10 m) c).arrAt w cfg4.N
/-- After the closing transpose: the contents @main returns from. -/
abbrev W12 : Dev nD → Valuation τ sig (Elt F) := fun c => StableHlo.after hostOps5 (W11 m c)

/-- A region's arrays end at what its write-backs leave; every other buffer is as the region found it. -/
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4x : (c : Dev nD) → (b : Ref sig .tc) → Buf (Elt F) ((c : Thread nD τ).loc b) := fun c b => W4 m c b
theorem hF0 (c : Dev nD) (w : Fin cfg0.W) : (dat0 (V3 m) c).arrAt w cfg0.N = V4x m c (Pipeline.arrRef spec0 w) :=
  (W4_arr m c w).symm
theorem hrest0 (c : Dev nD) : ∀ b, b ∉ Finset.univ.image (Pipeline.arrRef spec0) → V4x m c b = V3 m c b :=
  fun b hb => W4_of_ne m c b fun w e => hb (Finset.mem_image.mpr ⟨w, Finset.mem_univ _, e⟩)

/-- A region's arrays end at what its write-backs leave; every other buffer is as the region found it. -/
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6x : (c : Dev nD) → (b : Ref sig .tc) → Buf (Elt F) ((c : Thread nD τ).loc b) := fun c b => W6 m c b
theorem hF1 (c : Dev nD) (w : Fin cfg1.W) : (dat1 (V5 m) c).arrAt w cfg1.N = V6x m c (Pipeline.arrRef spec1 w) :=
  (W6_arr m c w).symm
theorem hrest1 (c : Dev nD) : ∀ b, b ∉ Finset.univ.image (Pipeline.arrRef spec1) → V6x m c b = V5 m c b :=
  fun b hb => W6_of_ne m c b fun w e => hb (Finset.mem_image.mpr ⟨w, Finset.mem_univ _, e⟩)

/-- A region's arrays end at what its write-backs leave; every other buffer is as the region found it. -/
theorem W7_arr (c : Dev nD) (w : Fin cfg2.W) :
    W7 m c (Proc.devRef .tc (Pipeline.arrRef spec2 w)) = (dat2 (V6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
abbrev V7x : (c : Dev nD) → (b : Ref sig .tc) → Buf (Elt F) ((c : Thread nD τ).loc b) := fun c b => W7 m c b
theorem hF2 (c : Dev nD) (w : Fin cfg2.W) : (dat2 (V6 m) c).arrAt w cfg2.N = V7x m c (Pipeline.arrRef spec2 w) :=
  (W7_arr m c w).symm
theorem hrest2 (c : Dev nD) : ∀ b, b ∉ Finset.univ.image (Pipeline.arrRef spec2) → V7x m c b = V6 m c b :=
  fun b hb => W7_of_ne m c b fun w e => hb (Finset.mem_image.mpr ⟨w, Finset.mem_univ _, e⟩)

/-- A region's arrays end at what its write-backs leave; every other buffer is as the region found it. -/
theorem W9_arr (c : Dev nD) (w : Fin cfg3.W) :
    W9 m c (Proc.devRef .tc (Pipeline.arrRef spec3 w)) = (dat3 (V8 m) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m c (Proc.devRef .tc b) = W8 m c (Proc.devRef .tc b) := by
  unfold W9; exact Pipeline.withArrays_of_ne spec3 c _ _ b hb
abbrev V9x : (c : Dev nD) → (b : Ref sig .tc) → Buf (Elt F) ((c : Thread nD τ).loc b) := fun c b => W9 m c b
theorem hF3 (c : Dev nD) (w : Fin cfg3.W) : (dat3 (V8 m) c).arrAt w cfg3.N = V9x m c (Pipeline.arrRef spec3 w) :=
  (W9_arr m c w).symm
theorem hrest3 (c : Dev nD) : ∀ b, b ∉ Finset.univ.image (Pipeline.arrRef spec3) → V9x m c b = V8 m c b :=
  fun b hb => W9_of_ne m c b fun w e => hb (Finset.mem_image.mpr ⟨w, Finset.mem_univ _, e⟩)

/-- A region's arrays end at what its write-backs leave; every other buffer is as the region found it. -/
theorem W11_arr (c : Dev nD) (w : Fin cfg4.W) :
    W11 m c (Proc.devRef .tc (Pipeline.arrRef spec4 w)) = (dat4 (V10 m) c).arrAt w cfg4.N := by
  unfold W11; exact Pipeline.withArrays_arr spec4 launch4.win.arr_inj c _ _ w
theorem W11_of_ne (c : Dev nD) (b : Ref sig .tc) (hb : ∀ w, Pipeline.arrRef spec4 w ≠ b) :
    W11 m c (Proc.devRef .tc b) = W10 m c (Proc.devRef .tc b) := by
  unfold W11; exact Pipeline.withArrays_of_ne spec4 c _ _ b hb
abbrev V11x : (c : Dev nD) → (b : Ref sig .tc) → Buf (Elt F) ((c : Thread nD τ).loc b) := fun c b => W11 m c b
theorem hF4 (c : Dev nD) (w : Fin cfg4.W) : (dat4 (V10 m) c).arrAt w cfg4.N = V11x m c (Pipeline.arrRef spec4 w) :=
  (W11_arr m c w).symm
theorem hrest4 (c : Dev nD) : ∀ b, b ∉ Finset.univ.image (Pipeline.arrRef spec4) → V11x m c b = V10 m c b :=
  fun b hb => W11_of_ne m c b fun w e => hb (Finset.mem_image.mpr ⟨w, Finset.mem_univ _, e⟩)

/-! ## The proof data family and what rides beside the buffers -/

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V6 m) c
  | ⟨3, _⟩ => fun c => dat3 (V8 m) c
  | ⟨4, _⟩ => fun c => dat4 (V10 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 as a segment: entered with every unscoped buffer at the fold's contents before it, left with them at the
    contents after it. Its arrays are split out of the unscoped buffers at entry and put back at exit; the generator
    register goes into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4x m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the fold's contents before it, left with them at the
    contents after it. Its arrays are split out of the unscoped buffers at entry and put back at exit; the generator
    register goes into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6x m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at the fold's contents before it, left with them at the
    contents after it. Its arrays are split out of the unscoped buffers at entry and put back at exit; the generator
    register goes into the region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m) c).loose
  hwaits := Pipeline.hwaits_of_owed_zero _ _ _ _ L lv 2 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec2 c (V6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V6 m c) (V7x m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at the fold's contents before it, left with them at the
    contents after it. Its arrays are split out of the unscoped buffers at entry and put back at exit; the generator
    register goes into the region's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m) c).loose
  hwaits := Pipeline.hwaits_of_owed_zero _ _ _ _ L lv 3 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec3 c (V8 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V8 m c) (V9x m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered with every unscoped buffer at the fold's contents before it, left with them at the
    contents after it. Its arrays are split out of the unscoped buffers at entry and put back at exit; the generator
    register goes into the region's invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V10 m) c).loose
  hwaits := Pipeline.hwaits_of_owed_zero _ _ _ _ L lv 4 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec4 c (V10 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 4).pre c (fun _ => fullShare) (adm (F := F) 4).1
        ∗ Pipeline.scopedRest (Pipeline.pin (pcfgs (F := F)) adm 4).spec c) : sProp 𝕄) ⊢ Pipeline.ΦA spec4 c := by
      unfold Pipeline.ΦA
      iintro ⟨Hp, -, Hr⟩
      isplitl [Hr]; · iexact Hr
      iexact Hp
    exact h.trans (hin4 (V10 m) c)
  hout c := by
    rw [Pipeline.ownSems0_none]
    have h : (Pipeline.ΦA spec4 c : sProp 𝕄) ⊢ iprop((∃ r, prngReg c r) ∗ BI.emp ∗ Pipeline.scopedRest (Pipeline.pin (pcfgs (F := F)) adm 4).spec c) := by
      unfold Pipeline.ΦA
      iintro ⟨Hr, Hp⟩
      isplitl [Hp]; · iexact Hp
      isplitr; · iempintro
      iexact Hr
    exact (hout4 (V10 m) c).trans h
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V10 m c) (V11x m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's twelve segments in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .region (reg2 m),
    .host (hseg hostOps3 hostOps3_sub hostOps3_fresh (W7 m)),
    .region (reg3 m),
    .host (hseg hostOps4 hostOps4_sub hostOps4_fresh (W9 m)),
    .region (reg4 m),
    .host (hseg hostOps5 hostOps5_sub hostOps5_fresh (W11 m)) ]

set_option backward.isDefEq.respectTransparency.types false in
/-- THE RUN. From any memory with zero counters every weakly fair execution of @main terminates, nothing faulting,
    and the final memory holds the fold's last valuation at every unscoped buffer of every core. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W12 m c))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl,
      fun c => sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨Hh, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

/-! ## The arguments end as launched: no host operation writes one, a region reads it through an input window or not at all -/

theorem W12_main_arg0 (c : Dev nD) : W12 m c (Proc.devRef .tc main_arg0) = m ((c : Thread nD τ).loc main_arg0) :=
  (StableHlo.after_of_writes_sub hostOps5 _ hostOps5_writes (r := main_arg0) (by decide)).trans <|
  (W11_of_ne m c main_arg0 (by decide)).trans <|
  (StableHlo.after_of_writes_sub hostOps4 _ hostOps4_writes (r := main_arg0) (by decide)).trans <|
  (W9_of_ne m c main_arg0 (by decide)).trans <|
  (StableHlo.after_of_writes_sub hostOps3 _ hostOps3_writes (r := main_arg0) (by decide)).trans <|
  (W7_of_ne m c main_arg0 (by decide)).trans <|
  (W6_of_ne m c main_arg0 (by decide)).trans <|
  (StableHlo.after_of_writes_sub hostOps1 _ hostOps1_writes (r := main_arg0) (by decide)).trans <|
  ((W4_arr m c 0).trans (((dat0 (V3 m) c).arrAt_in 0 rfl _).trans (A_eq0 (V3 m) c 0))).trans <|
  (StableHlo.after_of_writes_sub hostOps0_2 _ hostOps0_2_writes (r := main_arg0) (by decide)).trans <|
  (StableHlo.after_of_writes_sub hostOps0_1 _ hostOps0_1_writes (r := main_arg0) (by decide)).trans <|
  (StableHlo.after_of_writes_sub hostOps0 _ hostOps0_writes (r := main_arg0) (by decide)).trans <|
  rfl
theorem W12_main_arg1 (c : Dev nD) : W12 m c (Proc.devRef .tc main_arg1) = m ((c : Thread nD τ).loc main_arg1) :=
  (StableHlo.after_of_writes_sub hostOps5 _ hostOps5_writes (r := main_arg1) (by decide)).trans <|
  (W11_of_ne m c main_arg1 (by decide)).trans <|
  (StableHlo.after_of_writes_sub hostOps4 _ hostOps4_writes (r := main_arg1) (by decide)).trans <|
  (W9_of_ne m c main_arg1 (by decide)).trans <|
  (StableHlo.after_of_writes_sub hostOps3 _ hostOps3_writes (r := main_arg1) (by decide)).trans <|
  (W7_of_ne m c main_arg1 (by decide)).trans <|
  (W6_of_ne m c main_arg1 (by decide)).trans <|
  (StableHlo.after_of_writes_sub hostOps1 _ hostOps1_writes (r := main_arg1) (by decide)).trans <|
  (W4_of_ne m c main_arg1 (by decide)).trans <|
  (StableHlo.after_of_writes_sub hostOps0_2 _ hostOps0_2_writes (r := main_arg1) (by decide)).trans <|
  (StableHlo.after_of_writes_sub hostOps0_1 _ hostOps0_1_writes (r := main_arg1) (by decide)).trans <|
  (StableHlo.after_of_writes_sub hostOps0 _ hostOps0_writes (r := main_arg1) (by decide)).trans <|
  rfl
theorem W12_main_arg2 (c : Dev nD) : W12 m c (Proc.devRef .tc main_arg2) = m ((c : Thread nD τ).loc main_arg2) :=
  (StableHlo.after_of_writes_sub hostOps5 _ hostOps5_writes (r := main_arg2) (by decide)).trans <|
  (W11_of_ne m c main_arg2 (by decide)).trans <|
  (StableHlo.after_of_writes_sub hostOps4 _ hostOps4_writes (r := main_arg2) (by decide)).trans <|
  (W9_of_ne m c main_arg2 (by decide)).trans <|
  (StableHlo.after_of_writes_sub hostOps3 _ hostOps3_writes (r := main_arg2) (by decide)).trans <|
  (W7_of_ne m c main_arg2 (by decide)).trans <|
  (W6_of_ne m c main_arg2 (by decide)).trans <|
  (StableHlo.after_of_writes_sub hostOps1 _ hostOps1_writes (r := main_arg2) (by decide)).trans <|
  (W4_of_ne m c main_arg2 (by decide)).trans <|
  (StableHlo.after_of_writes_sub hostOps0_2 _ hostOps0_2_writes (r := main_arg2) (by decide)).trans <|
  (StableHlo.after_of_writes_sub hostOps0_1 _ hostOps0_1_writes (r := main_arg2) (by decide)).trans <|
  (StableHlo.after_of_writes_sub hostOps0 _ hostOps0_writes (r := main_arg2) (by decide)).trans <|
  rfl
theorem W12_main_arg3 (c : Dev nD) : W12 m c (Proc.devRef .tc main_arg3) = m ((c : Thread nD τ).loc main_arg3) :=
  (StableHlo.after_of_writes_sub hostOps5 _ hostOps5_writes (r := main_arg3) (by decide)).trans <|
  (W11_of_ne m c main_arg3 (by decide)).trans <|
  (StableHlo.after_of_writes_sub hostOps4 _ hostOps4_writes (r := main_arg3) (by decide)).trans <|
  (W9_of_ne m c main_arg3 (by decide)).trans <|
  (StableHlo.after_of_writes_sub hostOps3 _ hostOps3_writes (r := main_arg3) (by decide)).trans <|
  (W7_of_ne m c main_arg3 (by decide)).trans <|
  (W6_of_ne m c main_arg3 (by decide)).trans <|
  (StableHlo.after_of_writes_sub hostOps1 _ hostOps1_writes (r := main_arg3) (by decide)).trans <|
  ((W4_arr m c 1).trans (((dat0 (V3 m) c).arrAt_in 1 rfl _).trans (A_eq0 (V3 m) c 1))).trans <|
  (StableHlo.after_of_writes_sub hostOps0_2 _ hostOps0_2_writes (r := main_arg3) (by decide)).trans <|
  (StableHlo.after_of_writes_sub hostOps0_1 _ hostOps0_1_writes (r := main_arg3) (by decide)).trans <|
  (StableHlo.after_of_writes_sub hostOps0 _ hostOps0_writes (r := main_arg3) (by decide)).trans <|
  rfl
theorem W12_main_arg4 (c : Dev nD) : W12 m c (Proc.devRef .tc main_arg4) = m ((c : Thread nD τ).loc main_arg4) :=
  (StableHlo.after_of_writes_sub hostOps5 _ hostOps5_writes (r := main_arg4) (by decide)).trans <|
  (W11_of_ne m c main_arg4 (by decide)).trans <|
  (StableHlo.after_of_writes_sub hostOps4 _ hostOps4_writes (r := main_arg4) (by decide)).trans <|
  (W9_of_ne m c main_arg4 (by decide)).trans <|
  (StableHlo.after_of_writes_sub hostOps3 _ hostOps3_writes (r := main_arg4) (by decide)).trans <|
  (W7_of_ne m c main_arg4 (by decide)).trans <|
  (W6_of_ne m c main_arg4 (by decide)).trans <|
  (StableHlo.after_of_writes_sub hostOps1 _ hostOps1_writes (r := main_arg4) (by decide)).trans <|
  (W4_of_ne m c main_arg4 (by decide)).trans <|
  (StableHlo.after_of_writes_sub hostOps0_2 _ hostOps0_2_writes (r := main_arg4) (by decide)).trans <|
  (StableHlo.after_of_writes_sub hostOps0_1 _ hostOps0_1_writes (r := main_arg4) (by decide)).trans <|
  (StableHlo.after_of_writes_sub hostOps0 _ hostOps0_writes (r := main_arg4) (by decide)).trans <|
  rfl
theorem W12_main_arg5 (c : Dev nD) : W12 m c (Proc.devRef .tc main_arg5) = m ((c : Thread nD τ).loc main_arg5) :=
  (StableHlo.after_of_writes_sub hostOps5 _ hostOps5_writes (r := main_arg5) (by decide)).trans <|
  (W11_of_ne m c main_arg5 (by decide)).trans <|
  (StableHlo.after_of_writes_sub hostOps4 _ hostOps4_writes (r := main_arg5) (by decide)).trans <|
  (W9_of_ne m c main_arg5 (by decide)).trans <|
  (StableHlo.after_of_writes_sub hostOps3 _ hostOps3_writes (r := main_arg5) (by decide)).trans <|
  ((W7_arr m c 1).trans (((dat2 (V6 m) c).arrAt_in 1 rfl _).trans (A_eq2 (V6 m) c 1))).trans <|
  (W6_of_ne m c main_arg5 (by decide)).trans <|
  (StableHlo.after_of_writes_sub hostOps1 _ hostOps1_writes (r := main_arg5) (by decide)).trans <|
  (W4_of_ne m c main_arg5 (by decide)).trans <|
  (StableHlo.after_of_writes_sub hostOps0_2 _ hostOps0_2_writes (r := main_arg5) (by decide)).trans <|
  (StableHlo.after_of_writes_sub hostOps0_1 _ hostOps0_1_writes (r := main_arg5) (by decide)).trans <|
  (StableHlo.after_of_writes_sub hostOps0 _ hostOps0_writes (r := main_arg5) (by decide)).trans <|
  rfl
theorem W12_main_arg6 (c : Dev nD) : W12 m c (Proc.devRef .tc main_arg6) = m ((c : Thread nD τ).loc main_arg6) :=
  (StableHlo.after_of_writes_sub hostOps5 _ hostOps5_writes (r := main_arg6) (by decide)).trans <|
  (W11_of_ne m c main_arg6 (by decide)).trans <|
  (StableHlo.after_of_writes_sub hostOps4 _ hostOps4_writes (r := main_arg6) (by decide)).trans <|
  (W9_of_ne m c main_arg6 (by decide)).trans <|
  (StableHlo.after_of_writes_sub hostOps3 _ hostOps3_writes (r := main_arg6) (by decide)).trans <|
  (W7_of_ne m c main_arg6 (by decide)).trans <|
  (W6_of_ne m c main_arg6 (by decide)).trans <|
  (StableHlo.after_of_writes_sub hostOps1 _ hostOps1_writes (r := main_arg6) (by decide)).trans <|
  (W4_of_ne m c main_arg6 (by decide)).trans <|
  (StableHlo.after_of_writes_sub hostOps0_2 _ hostOps0_2_writes (r := main_arg6) (by decide)).trans <|
  (StableHlo.after_of_writes_sub hostOps0_1 _ hostOps0_1_writes (r := main_arg6) (by decide)).trans <|
  (StableHlo.after_of_writes_sub hostOps0 _ hostOps0_writes (r := main_arg6) (by decide)).trans <|
  rfl
theorem W12_main_arg7 (c : Dev nD) : W12 m c (Proc.devRef .tc main_arg7) = m ((c : Thread nD τ).loc main_arg7) :=
  (StableHlo.after_of_writes_sub hostOps5 _ hostOps5_writes (r := main_arg7) (by decide)).trans <|
  (W11_of_ne m c main_arg7 (by decide)).trans <|
  (StableHlo.after_of_writes_sub hostOps4 _ hostOps4_writes (r := main_arg7) (by decide)).trans <|
  (W9_of_ne m c main_arg7 (by decide)).trans <|
  (StableHlo.after_of_writes_sub hostOps3 _ hostOps3_writes (r := main_arg7) (by decide)).trans <|
  (W7_of_ne m c main_arg7 (by decide)).trans <|
  (W6_of_ne m c main_arg7 (by decide)).trans <|
  (StableHlo.after_of_writes_sub hostOps1 _ hostOps1_writes (r := main_arg7) (by decide)).trans <|
  (W4_of_ne m c main_arg7 (by decide)).trans <|
  (StableHlo.after_of_writes_sub hostOps0_2 _ hostOps0_2_writes (r := main_arg7) (by decide)).trans <|
  (StableHlo.after_of_writes_sub hostOps0_1 _ hostOps0_1_writes (r := main_arg7) (by decide)).trans <|
  (StableHlo.after_of_writes_sub hostOps0 _ hostOps0_writes (r := main_arg7) (by decide)).trans <|
  rfl
theorem W12_main_arg8 (c : Dev nD) : W12 m c (Proc.devRef .tc main_arg8) = m ((c : Thread nD τ).loc main_arg8) :=
  (StableHlo.after_of_writes_sub hostOps5 _ hostOps5_writes (r := main_arg8) (by decide)).trans <|
  (W11_of_ne m c main_arg8 (by decide)).trans <|
  (StableHlo.after_of_writes_sub hostOps4 _ hostOps4_writes (r := main_arg8) (by decide)).trans <|
  (W9_of_ne m c main_arg8 (by decide)).trans <|
  (StableHlo.after_of_writes_sub hostOps3 _ hostOps3_writes (r := main_arg8) (by decide)).trans <|
  (W7_of_ne m c main_arg8 (by decide)).trans <|
  (W6_of_ne m c main_arg8 (by decide)).trans <|
  (StableHlo.after_of_writes_sub hostOps1 _ hostOps1_writes (r := main_arg8) (by decide)).trans <|
  (W4_of_ne m c main_arg8 (by decide)).trans <|
  (StableHlo.after_of_writes_sub hostOps0_2 _ hostOps0_2_writes (r := main_arg8) (by decide)).trans <|
  (StableHlo.after_of_writes_sub hostOps0_1 _ hostOps0_1_writes (r := main_arg8) (by decide)).trans <|
  (StableHlo.after_of_writes_sub hostOps0 _ hostOps0_writes (r := main_arg8) (by decide)).trans <|
  rfl
theorem W12_main_arg9 (c : Dev nD) : W12 m c (Proc.devRef .tc main_arg9) = m ((c : Thread nD τ).loc main_arg9) :=
  (StableHlo.after_of_writes_sub hostOps5 _ hostOps5_writes (r := main_arg9) (by decide)).trans <|
  (W11_of_ne m c main_arg9 (by decide)).trans <|
  (StableHlo.after_of_writes_sub hostOps4 _ hostOps4_writes (r := main_arg9) (by decide)).trans <|
  (W9_of_ne m c main_arg9 (by decide)).trans <|
  (StableHlo.after_of_writes_sub hostOps3 _ hostOps3_writes (r := main_arg9) (by decide)).trans <|
  (W7_of_ne m c main_arg9 (by decide)).trans <|
  (W6_of_ne m c main_arg9 (by decide)).trans <|
  (StableHlo.after_of_writes_sub hostOps1 _ hostOps1_writes (r := main_arg9) (by decide)).trans <|
  (W4_of_ne m c main_arg9 (by decide)).trans <|
  (StableHlo.after_of_writes_sub hostOps0_2 _ hostOps0_2_writes (r := main_arg9) (by decide)).trans <|
  (StableHlo.after_of_writes_sub hostOps0_1 _ hostOps0_1_writes (r := main_arg9) (by decide)).trans <|
  (StableHlo.after_of_writes_sub hostOps0 _ hostOps0_writes (r := main_arg9) (by decide)).trans <|
  rfl
theorem W12_main_arg10 (c : Dev nD) : W12 m c (Proc.devRef .tc main_arg10) = m ((c : Thread nD τ).loc main_arg10) :=
  (StableHlo.after_of_writes_sub hostOps5 _ hostOps5_writes (r := main_arg10) (by decide)).trans <|
  (W11_of_ne m c main_arg10 (by decide)).trans <|
  (StableHlo.after_of_writes_sub hostOps4 _ hostOps4_writes (r := main_arg10) (by decide)).trans <|
  (W9_of_ne m c main_arg10 (by decide)).trans <|
  (StableHlo.after_of_writes_sub hostOps3 _ hostOps3_writes (r := main_arg10) (by decide)).trans <|
  (W7_of_ne m c main_arg10 (by decide)).trans <|
  (W6_of_ne m c main_arg10 (by decide)).trans <|
  (StableHlo.after_of_writes_sub hostOps1 _ hostOps1_writes (r := main_arg10) (by decide)).trans <|
  (W4_of_ne m c main_arg10 (by decide)).trans <|
  (StableHlo.after_of_writes_sub hostOps0_2 _ hostOps0_2_writes (r := main_arg10) (by decide)).trans <|
  (StableHlo.after_of_writes_sub hostOps0_1 _ hostOps0_1_writes (r := main_arg10) (by decide)).trans <|
  (StableHlo.after_of_writes_sub hostOps0 _ hostOps0_writes (r := main_arg10) (by decide)).trans <|
  rfl

/-- THE FRAME: every weakly fair execution of @main terminates, nothing faulting, with every argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c _ (mem_uc main_arg0 (by decide))).trans (W12_main_arg0 m c),
    (h c _ (mem_uc main_arg1 (by decide))).trans (W12_main_arg1 m c),
    (h c _ (mem_uc main_arg2 (by decide))).trans (W12_main_arg2 m c),
    (h c _ (mem_uc main_arg3 (by decide))).trans (W12_main_arg3 m c),
    (h c _ (mem_uc main_arg4 (by decide))).trans (W12_main_arg4 m c),
    (h c _ (mem_uc main_arg5 (by decide))).trans (W12_main_arg5 m c),
    (h c _ (mem_uc main_arg6 (by decide))).trans (W12_main_arg6 m c),
    (h c _ (mem_uc main_arg7 (by decide))).trans (W12_main_arg7 m c),
    (h c _ (mem_uc main_arg8 (by decide))).trans (W12_main_arg8 m c),
    (h c _ (mem_uc main_arg9 (by decide))).trans (W12_main_arg9 m c),
    (h c _ (mem_uc main_arg10 (by decide))).trans (W12_main_arg10 m c)⟩) (run_all m ρ)

/-- THE RUN WITH ITS RESULT: the same, and the result buffer holds the fold's last valuation there. -/
theorem run_result (ρ : Dev nD → PrngReg) : θ_run defs (onTc (τ := τ) (main (F := F))) ⟨m, fun _ => 0, ρ⟩ (fun r => ∀ c : Dev nD,
      r.2.mem ((c.tc : Thread nD τ).loc main_v70) = W12 m c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨h c _ (mem_uc main_v70 (by decide)), (h c _ (mem_uc main_arg0 (by decide))).trans (W12_main_arg0 m c),
    (h c _ (mem_uc main_arg1 (by decide))).trans (W12_main_arg1 m c),
    (h c _ (mem_uc main_arg2 (by decide))).trans (W12_main_arg2 m c),
    (h c _ (mem_uc main_arg3 (by decide))).trans (W12_main_arg3 m c),
    (h c _ (mem_uc main_arg4 (by decide))).trans (W12_main_arg4 m c),
    (h c _ (mem_uc main_arg5 (by decide))).trans (W12_main_arg5 m c),
    (h c _ (mem_uc main_arg6 (by decide))).trans (W12_main_arg6 m c),
    (h c _ (mem_uc main_arg7 (by decide))).trans (W12_main_arg7 m c),
    (h c _ (mem_uc main_arg8 (by decide))).trans (W12_main_arg8 m c),
    (h c _ (mem_uc main_arg9 (by decide))).trans (W12_main_arg9 m c),
    (h c _ (mem_uc main_arg10 (by decide))).trans (W12_main_arg10 m c)⟩) (run_all m ρ)

end Cert.KernelIdeal.Hand

end
-- ==== Proof.KI.Stages.lean ====
/-
  The reference's five dense stages as functions of the arrays that enter them: the two GCN projections (a matrix
  product over the feature axis), the two bias steps (the first followed by max with zero), and the pooling head:
  per-graph sums of node rows and of ones scattered by the batch vector, their quotient with the count floored at
  one, then two affine layers with a max with zero between them. Each is spelt with the reference program's own
  operations, so that the reference's composed term is these functions composed with the edge gather/scatter
  stretches between them.
-/
import proofs.«409944_j24326694765162_4_alg».proof.ReferenceIdeal
import Idealize.ShloMosaic.PureOps.Ideal

noncomputable section

namespace Cert.ReferenceIdeal.Stages

open Cert.ReferenceIdeal Idealize.ShloMosaic Idealize.ShloMosaic.TcCoe Idealize.SL.Sem Idealize.ShloMosaic.StableHlo
open Facts₀ Facts

variable {F : FTy → Type} [FloatOps F] [Facts]

/-- x · W₁ : the first projection, node by node. -/
def proj1 (x0 : (⟨S100000x17, .f32⟩ : BufTy).Contents (Elt F)) (x3 : (⟨S17x64, .f32⟩ : BufTy).Contents (Elt F)) :
    (⟨S100000x64, .f32⟩ : BufTy).Contents (Elt F) :=
  Host.dotGeneral dot_S100000x17_S17x64_S100000x64_1_0_0_1_n_n none x0 x3

/-- max (agg + b₁, 0), the bias a row added to every node. -/
def act1 (agg : (⟨S100000x64, .f32⟩ : BufTy).Contents (Elt F)) (x4 : (⟨S64, .f32⟩ : BufTy).Contents (Elt F)) :
    (⟨S100000x64, .f32⟩ : BufTy).Contents (Elt F) :=
  maximumf (addf agg (broadcastInDim S100000x64 ![0, 1] bcast_S1x64_S100000x64_0_1 (broadcastInDim S1x64 ![1] bcast_S64_S1x64_1 x4)))
    (broadcastInDim S100000x64 ![] bcast_S_S100000x64 (constant S_ .f32 0x00000000#32))

/-- h₁ · W₂ : the second projection. -/
def proj2 (h1 : (⟨S100000x64, .f32⟩ : BufTy).Contents (Elt F)) (x5 : (⟨S64x32, .f32⟩ : BufTy).Contents (Elt F)) :
    (⟨S100000x32, .f32⟩ : BufTy).Contents (Elt F) :=
  Host.dotGeneral dot_S100000x64_S64x32_S100000x32_1_0_0_1_n_n none h1 x5

/-- agg + b₂. -/
def act2 (agg : (⟨S100000x32, .f32⟩ : BufTy).Contents (Elt F)) (x6 : (⟨S32, .f32⟩ : BufTy).Contents (Elt F)) :
    (⟨S100000x32, .f32⟩ : BufTy).Contents (Elt F) :=
  addf agg (broadcastInDim S100000x32 ![0, 1] bcast_S1x32_S100000x32_0_1 (broadcastInDim S1x32 ![1] bcast_S32_S1x32_1 x6))

/-- The number of nodes of each graph: ones scattered by the batch vector. -/
def count (x2 : (⟨S100000, .i32⟩ : BufTy).Contents (Elt F)) : (⟨S512, .f32⟩ : BufTy).Contents (Elt F) :=
  Host.scatterAdd scatter_S512_S100000x1_S100000_n_0_0_1 (broadcastInDim S512 ![] bcast_S_S512 (constant S_ .f32 0x00000000#32))
    (broadcastInDim S100000x1 ![0] bcast_S100000_S100000x1_0 x2)
    (broadcastInDim S100000 ![] bcast_S_S100000 (constant S_ .f32 0x3F800000#32))

/-- The per-graph sums of the node rows. -/
def sums (h2 : (⟨S100000x32, .f32⟩ : BufTy).Contents (Elt F)) (x2 : (⟨S100000, .i32⟩ : BufTy).Contents (Elt F)) :
    (⟨S512x32, .f32⟩ : BufTy).Contents (Elt F) :=
  Host.scatterAdd scatter_S512x32_S100000x1_S100000x32_1_0_0_1 (broadcastInDim S512x32 ![] bcast_S_S512x32 (constant S_ .f32 0x00000000#32))
    (broadcastInDim S100000x1 ![0] bcast_S100000_S100000x1_0 x2) h2

/-- The per-graph mean: the sums over the count floored at one. -/
def pooled (h2 : (⟨S100000x32, .f32⟩ : BufTy).Contents (Elt F)) (x2 : (⟨S100000, .i32⟩ : BufTy).Contents (Elt F)) :
    (⟨S512x32, .f32⟩ : BufTy).Contents (Elt F) :=
  Host.divf (sums h2 x2)
    (broadcastInDim S512x32 ![0, 1] bcast_S512x1_S512x32_0_1 (broadcastInDim S512x1 ![0] bcast_S512_S512x1_0
      (maximumf (broadcastInDim S512 ![] bcast_S_S512 (id (constant S_ .f32 0x3F800000#32))) (count x2))))

/-- The head: mean pool, then max (p · Wf₁ + bf₁, 0) · Wf₂ + bf₂. -/
def head (h2 : (⟨S100000x32, .f32⟩ : BufTy).Contents (Elt F)) (x2 : (⟨S100000, .i32⟩ : BufTy).Contents (Elt F))
    (x7 : (⟨S32x32, .f32⟩ : BufTy).Contents (Elt F)) (x8 : (⟨S32, .f32⟩ : BufTy).Contents (Elt F))
    (x9 : (⟨S32x32, .f32⟩ : BufTy).Contents (Elt F)) (x10 : (⟨S32, .f32⟩ : BufTy).Contents (Elt F)) :
    (⟨S512x32, .f32⟩ : BufTy).Contents (Elt F) :=
  addf (Host.dotGeneral dot_S512x32_S32x32_S512x32_1_0_0_1_n_n none
      (maximumf (addf (Host.dotGeneral dot_S512x32_S32x32_S512x32_1_0_0_1_n_n none (pooled h2 x2) x7)
          (broadcastInDim S512x32 ![0, 1] bcast_S1x32_S512x32_0_1 (broadcastInDim S1x32 ![1] bcast_S32_S1x32_1 x8)))
        (broadcastInDim S512x32 ![] bcast_S_S512x32 (constant S_ .f32 0x00000000#32))) x9)
    (broadcastInDim S512x32 ![0, 1] bcast_S1x32_S512x32_0_1 (broadcastInDim S1x32 ![1] bcast_S32_S1x32_1 x10))

end Cert.ReferenceIdeal.Stages

end
-- ==== Proof.KI.ChainHost.lean ====
/-
  The host stretches of the kernel program, read as values. Between the dense regions both programs run the same
  edge gather, scaling and scatter of a graph convolution; here each stretch's output is written as one function of
  what enters it (the projected features and the edge list), the reference's composed term is shown to be its five
  dense stages threaded through those two functions, and the small layout steps around the regions (a bias as a
  row or a column, a weight matrix transposed, the batch vector as a column, the closing transpose) are read at an
  index. Everything is stated for an arbitrary float family.
-/
import proofs.«409944_j24326694765162_4_alg».proof.Proof.KI.Launch
import proofs.«409944_j24326694765162_4_alg».proof.Proof.KI.Stages
import proofs.«409944_j24326694765162_4_alg».proof.Proof.RefRead
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem

variable {F : FTy → Type} [FloatOps F]

/-! ## The two gather / scale / scatter stretches as functions of what enters them -/

/-- The reference's first gather / scale / scatter stretch as a function of the projected features p1 and the edge list. -/
def glue1 (p1 : (⟨Cert.ReferenceIdeal.S100000x64, .f32⟩ : BufTy).Contents (Elt F)) (x1 : (⟨Cert.ReferenceIdeal.S2x1600000, .i32⟩ : BufTy).Contents (Elt F)) : (⟨Cert.ReferenceIdeal.S100000x64, .f32⟩ : BufTy).Contents (Elt F) :=
  Host.scatterAdd Cert.ReferenceIdeal.scatter_S100000x64_S1700000x1_S1700000x64_1_0_0_1 (Cert.ReferenceIdeal.ReadP.val_main_v43 (F := F)) (Cert.ReferenceIdeal.ReadP.val_main_v44 (F := F) x1)
    (mulf (Host.gather Cert.ReferenceIdeal.gather_S100000x64_S1700000x1_S1700000x64_1_0_n_n_0_1_164 p1 (Cert.ReferenceIdeal.ReadP.val_main_v38 (F := F) x1)) (Cert.ReferenceIdeal.ReadP.val_main_v41 (F := F) x1))

/-- The second one, of the second projection's output p2. -/
def glue2 (p2 : (⟨Cert.ReferenceIdeal.S100000x32, .f32⟩ : BufTy).Contents (Elt F)) (x1 : (⟨Cert.ReferenceIdeal.S2x1600000, .i32⟩ : BufTy).Contents (Elt F)) : (⟨Cert.ReferenceIdeal.S100000x32, .f32⟩ : BufTy).Contents (Elt F) :=
  Host.scatterAdd Cert.ReferenceIdeal.scatter_S100000x32_S1700000x1_S1700000x32_1_0_0_1 (Cert.ReferenceIdeal.ReadP.val_main_v61 (F := F)) (Cert.ReferenceIdeal.ReadP.val_main_v62 (F := F) x1)
    (mulf (Host.gather Cert.ReferenceIdeal.gather_S100000x32_S1700000x1_S1700000x32_1_0_n_n_0_1_132 p2 (Cert.ReferenceIdeal.ReadP.val_main_v56 (F := F) x1)) (Cert.ReferenceIdeal.ReadP.val_main_v59 (F := F) x1))

/-- The reference's composed term is the five dense stages threaded through the two stretches. -/
theorem ref_eq (x0 : (⟨Cert.ReferenceIdeal.S100000x17, .f32⟩ : BufTy).Contents (Elt F)) (x1 : (⟨Cert.ReferenceIdeal.S2x1600000, .i32⟩ : BufTy).Contents (Elt F)) (x2 : (⟨Cert.ReferenceIdeal.S100000, .i32⟩ : BufTy).Contents (Elt F))
    (x3 : (⟨Cert.ReferenceIdeal.S17x64, .f32⟩ : BufTy).Contents (Elt F)) (x4 : (⟨Cert.ReferenceIdeal.S64, .f32⟩ : BufTy).Contents (Elt F)) (x5 : (⟨Cert.ReferenceIdeal.S64x32, .f32⟩ : BufTy).Contents (Elt F)) (x6 : (⟨Cert.ReferenceIdeal.S32, .f32⟩ : BufTy).Contents (Elt F))
    (x7 : (⟨Cert.ReferenceIdeal.S32x32, .f32⟩ : BufTy).Contents (Elt F)) (x8 : (⟨Cert.ReferenceIdeal.S32, .f32⟩ : BufTy).Contents (Elt F)) (x9 : (⟨Cert.ReferenceIdeal.S32x32, .f32⟩ : BufTy).Contents (Elt F)) (x10 : (⟨Cert.ReferenceIdeal.S32, .f32⟩ : BufTy).Contents (Elt F)) :
    Cert.ReferenceIdeal.ReadP.val_main_v86 (F := F) x0 x1 x2 x3 x4 x5 x6 x7 x8 x9 x10
      = Cert.ReferenceIdeal.Stages.head (Cert.ReferenceIdeal.Stages.act2 (glue2 (Cert.ReferenceIdeal.Stages.proj2 (Cert.ReferenceIdeal.Stages.act1 (glue1 (Cert.ReferenceIdeal.Stages.proj1 x0 x3) x1) x4) x5) x1) x6) x2 x7 x8 x9 x10 := by
  rfl

variable (m : (ℓ : Loc nD τ sig) → Buf (Elt F) ℓ) (c : Dev nD)

/-! ## Arguments no earlier step writes are still as launched -/

theorem W3_arg0 : W3 m c (Proc.devRef .tc main_arg0) = m ((c : Thread nD τ).loc main_arg0) :=
  (StableHlo.after_of_writes_sub hostOps0_2 _ hostOps0_2_writes (r := main_arg0) (by decide)).trans <|
  (StableHlo.after_of_writes_sub hostOps0_1 _ hostOps0_1_writes (r := main_arg0) (by decide)).trans <|
  (StableHlo.after_of_writes_sub hostOps0 _ hostOps0_writes (r := main_arg0) (by decide)).trans <|
  rfl

theorem W3_arg3 : W3 m c (Proc.devRef .tc main_arg3) = m ((c : Thread nD τ).loc main_arg3) :=
  (StableHlo.after_of_writes_sub hostOps0_2 _ hostOps0_2_writes (r := main_arg3) (by decide)).trans <|
  (StableHlo.after_of_writes_sub hostOps0_1 _ hostOps0_1_writes (r := main_arg3) (by decide)).trans <|
  (StableHlo.after_of_writes_sub hostOps0 _ hostOps0_writes (r := main_arg3) (by decide)).trans <|
  rfl

theorem W6_arg5 : W6 m c (Proc.devRef .tc main_arg5) = m ((c : Thread nD τ).loc main_arg5) :=
  (W6_of_ne m c main_arg5 (by decide)).trans <|
  (StableHlo.after_of_writes_sub hostOps1 _ hostOps1_writes (r := main_arg5) (by decide)).trans <|
  (W4_of_ne m c main_arg5 (by decide)).trans <|
  (StableHlo.after_of_writes_sub hostOps0_2 _ hostOps0_2_writes (r := main_arg5) (by decide)).trans <|
  (StableHlo.after_of_writes_sub hostOps0_1 _ hostOps0_1_writes (r := main_arg5) (by decide)).trans <|
  (StableHlo.after_of_writes_sub hostOps0 _ hostOps0_writes (r := main_arg5) (by decide)).trans <|
  rfl

private theorem W4_arg4 : W4 m c (Proc.devRef .tc main_arg4) = m ((c : Thread nD τ).loc main_arg4) :=
  (W4_of_ne m c main_arg4 (by decide)).trans <|
  (StableHlo.after_of_writes_sub hostOps0_2 _ hostOps0_2_writes (r := main_arg4) (by decide)).trans <|
  (StableHlo.after_of_writes_sub hostOps0_1 _ hostOps0_1_writes (r := main_arg4) (by decide)).trans <|
  (StableHlo.after_of_writes_sub hostOps0 _ hostOps0_writes (r := main_arg4) (by decide)).trans <|
  rfl

private theorem W7_arg6 : W7 m c (Proc.devRef .tc main_arg6) = m ((c : Thread nD τ).loc main_arg6) :=
  (W7_of_ne m c main_arg6 (by decide)).trans <|
  (W6_of_ne m c main_arg6 (by decide)).trans <|
  (StableHlo.after_of_writes_sub hostOps1 _ hostOps1_writes (r := main_arg6) (by decide)).trans <|
  (W4_of_ne m c main_arg6 (by decide)).trans <|
  (StableHlo.after_of_writes_sub hostOps0_2 _ hostOps0_2_writes (r := main_arg6) (by decide)).trans <|
  (StableHlo.after_of_writes_sub hostOps0_1 _ hostOps0_1_writes (r := main_arg6) (by decide)).trans <|
  (StableHlo.after_of_writes_sub hostOps0 _ hostOps0_writes (r := main_arg6) (by decide)).trans <|
  rfl

private theorem W9_arg2 : W9 m c (Proc.devRef .tc main_arg2) = m ((c : Thread nD τ).loc main_arg2) :=
  (W9_of_ne m c main_arg2 (by decide)).trans <|
  (StableHlo.after_of_writes_sub hostOps3 _ hostOps3_writes (r := main_arg2) (by decide)).trans <|
  (W7_of_ne m c main_arg2 (by decide)).trans <|
  (W6_of_ne m c main_arg2 (by decide)).trans <|
  (StableHlo.after_of_writes_sub hostOps1 _ hostOps1_writes (r := main_arg2) (by decide)).trans <|
  (W4_of_ne m c main_arg2 (by decide)).trans <|
  (StableHlo.after_of_writes_sub hostOps0_2 _ hostOps0_2_writes (r := main_arg2) (by decide)).trans <|
  (StableHlo.after_of_writes_sub hostOps0_1 _ hostOps0_1_writes (r := main_arg2) (by decide)).trans <|
  (StableHlo.after_of_writes_sub hostOps0 _ hostOps0_writes (r := main_arg2) (by decide)).trans <|
  rfl

private theorem W9_arg7 : W9 m c (Proc.devRef .tc main_arg7) = m ((c : Thread nD τ).loc main_arg7) :=
  (W9_of_ne m c main_arg7 (by decide)).trans <|
  (StableHlo.after_of_writes_sub hostOps3 _ hostOps3_writes (r := main_arg7) (by decide)).trans <|
  (W7_of_ne m c main_arg7 (by decide)).trans <|
  (W6_of_ne m c main_arg7 (by decide)).trans <|
  (StableHlo.after_of_writes_sub hostOps1 _ hostOps1_writes (r := main_arg7) (by decide)).trans <|
  (W4_of_ne m c main_arg7 (by decide)).trans <|
  (StableHlo.after_of_writes_sub hostOps0_2 _ hostOps0_2_writes (r := main_arg7) (by decide)).trans <|
  (StableHlo.after_of_writes_sub hostOps0_1 _ hostOps0_1_writes (r := main_arg7) (by decide)).trans <|
  (StableHlo.after_of_writes_sub hostOps0 _ hostOps0_writes (r := main_arg7) (by decide)).trans <|
  rfl

private theorem W9_arg8 : W9 m c (Proc.devRef .tc main_arg8) = m ((c : Thread nD τ).loc main_arg8) :=
  (W9_of_ne m c main_arg8 (by decide)).trans <|
  (StableHlo.after_of_writes_sub hostOps3 _ hostOps3_writes (r := main_arg8) (by decide)).trans <|
  (W7_of_ne m c main_arg8 (by decide)).trans <|
  (W6_of_ne m c main_arg8 (by decide)).trans <|
  (StableHlo.after_of_writes_sub hostOps1 _ hostOps1_writes (r := main_arg8) (by decide)).trans <|
  (W4_of_ne m c main_arg8 (by decide)).trans <|
  (StableHlo.after_of_writes_sub hostOps0_2 _ hostOps0_2_writes (r := main_arg8) (by decide)).trans <|
  (StableHlo.after_of_writes_sub hostOps0_1 _ hostOps0_1_writes (r := main_arg8) (by decide)).trans <|
  (StableHlo.after_of_writes_sub hostOps0 _ hostOps0_writes (r := main_arg8) (by decide)).trans <|
  rfl

private theorem W9_arg9 : W9 m c (Proc.devRef .tc main_arg9) = m ((c : Thread nD τ).loc main_arg9) :=
  (W9_of_ne m c main_arg9 (by decide)).trans <|
  (StableHlo.after_of_writes_sub hostOps3 _ hostOps3_writes (r := main_arg9) (by decide)).trans <|
  (W7_of_ne m c main_arg9 (by decide)).trans <|
  (W6_of_ne m c main_arg9 (by decide)).trans <|
  (StableHlo.after_of_writes_sub hostOps1 _ hostOps1_writes (r := main_arg9) (by decide)).trans <|
  (W4_of_ne m c main_arg9 (by decide)).trans <|
  (StableHlo.after_of_writes_sub hostOps0_2 _ hostOps0_2_writes (r := main_arg9) (by decide)).trans <|
  (StableHlo.after_of_writes_sub hostOps0_1 _ hostOps0_1_writes (r := main_arg9) (by decide)).trans <|
  (StableHlo.after_of_writes_sub hostOps0 _ hostOps0_writes (r := main_arg9) (by decide)).trans <|
  rfl

private theorem W9_arg10 : W9 m c (Proc.devRef .tc main_arg10) = m ((c : Thread nD τ).loc main_arg10) :=
  (W9_of_ne m c main_arg10 (by decide)).trans <|
  (StableHlo.after_of_writes_sub hostOps3 _ hostOps3_writes (r := main_arg10) (by decide)).trans <|
  (W7_of_ne m c main_arg10 (by decide)).trans <|
  (W6_of_ne m c main_arg10 (by decide)).trans <|
  (StableHlo.after_of_writes_sub hostOps1 _ hostOps1_writes (r := main_arg10) (by decide)).trans <|
  (W4_of_ne m c main_arg10 (by decide)).trans <|
  (StableHlo.after_of_writes_sub hostOps0_2 _ hostOps0_2_writes (r := main_arg10) (by decide)).trans <|
  (StableHlo.after_of_writes_sub hostOps0_1 _ hostOps0_1_writes (r := main_arg10) (by decide)).trans <|
  (StableHlo.after_of_writes_sub hostOps0 _ hostOps0_writes (r := main_arg10) (by decide)).trans <|
  rfl

/-- The stretch before the pooling head only reshapes and transposes arguments: the second bias's output passes through. -/
theorem W10_v63 : W10 m c (Proc.devRef .tc main_v63) = W9 m c (Proc.devRef .tc main_v63) :=
  StableHlo.after_of_writes_sub hostOps4 _ hostOps4_writes (r := main_v63) (by decide)

/-! ## The reshapes and transposes of arguments, read at an index -/

/-- The first bias as a row: a reshape keeps the row-major position. -/
theorem W5_v46_apply (j : Fin 64) : (W5 m c (Proc.devRef .tc main_v46) : Vec F S1x64 .f32) (ix2 (0 : Fin 1) j) = (m ((c : Thread nD τ).loc main_arg4) : Vec F S64 .f32) (ix1 j) := by
  have e : (W5 m c (Proc.devRef .tc main_v46) : Vec F S1x64 .f32)
      = shapeCast S1x64 (W4 m c (Proc.devRef .tc main_arg4) : Vec F S64 .f32) shapeCasts_S64_S1x64 := by
    dsimp only [W5, hostOps1]; after_results; rfl
  rw [e, W4_arg4]
  exact shapeCast_apply (s := S64) (t := S1x64) _ _ _ _ (by
    rw [Shape.rowMajor_val_one, Shape.rowMajor_val_two]; show j.val = 0 * 64 + j.val; omega)

/-- The second bias as a row. -/
theorem W8_v62_apply (j : Fin 32) : (W8 m c (Proc.devRef .tc main_v62) : Vec F S1x32 .f32) (ix2 (0 : Fin 1) j) = (m ((c : Thread nD τ).loc main_arg6) : Vec F S32 .f32) (ix1 j) := by
  have e : (W8 m c (Proc.devRef .tc main_v62) : Vec F S1x32 .f32)
      = shapeCast S1x32 (W7 m c (Proc.devRef .tc main_arg6) : Vec F S32 .f32) shapeCasts_S32_S1x32 := by
    dsimp only [W8, hostOps3]; after_results; rfl
  rw [e, W7_arg6]
  exact shapeCast_apply (s := S32) (t := S1x32) _ _ _ _ (by
    rw [Shape.rowMajor_val_one, Shape.rowMajor_val_two]; show j.val = 0 * 32 + j.val; omega)

/-- The batch vector as a column. -/
theorem W10_v64_apply (n : Fin 100000) : (W10 m c (Proc.devRef .tc main_v64) : Vec F S100000x1 .i32) (ix2 n (0 : Fin 1)) = (m ((c : Thread nD τ).loc main_arg2) : Vec F S100000 .i32) (ix1 n) := by
  have e : (W10 m c (Proc.devRef .tc main_v64) : Vec F S100000x1 .i32)
      = shapeCast S100000x1 (W9 m c (Proc.devRef .tc main_arg2) : Vec F S100000 .i32) shapeCasts_S100000_S100000x1 := by
    dsimp only [W10, hostOps4]; after_results; rfl
  rw [e, W9_arg2]
  exact shapeCast_apply (s := S100000) (t := S100000x1) _ _ _ _ (by
    rw [Shape.rowMajor_val_one, Shape.rowMajor_val_two]; show n.val = n.val * 1 + 0; omega)

/-- The head's first weight matrix, transposed. -/
theorem W10_v65_apply (a b : Fin 32) : (W10 m c (Proc.devRef .tc main_v65) : Vec F S32x32 .f32) (ix2 a b) = (m ((c : Thread nD τ).loc main_arg7) : Vec F S32x32 .f32) (ix2 b a) := by
  have e : (W10 m c (Proc.devRef .tc main_v65) : Vec F S32x32 .f32)
      = transpose S32x32 [1, 0] (W9 m c (Proc.devRef .tc main_arg7) : Vec F S32x32 .f32) transposes_S32x32_S32x32_1_0 := by
    dsimp only [W10, hostOps4]; after_results
  rw [e, W9_arg7]
  exact transpose_apply (s := S32x32) (t := S32x32) _ _ _ _ _ (fun d => match d with | ⟨0, _⟩ => rfl | ⟨1, _⟩ => rfl)

/-- The head's second weight matrix, transposed. -/
theorem W10_v66_apply (a b : Fin 32) : (W10 m c (Proc.devRef .tc main_v66) : Vec F S32x32 .f32) (ix2 a b) = (m ((c : Thread nD τ).loc main_arg9) : Vec F S32x32 .f32) (ix2 b a) := by
  have e : (W10 m c (Proc.devRef .tc main_v66) : Vec F S32x32 .f32)
      = transpose S32x32 [1, 0] (W9 m c (Proc.devRef .tc main_arg9) : Vec F S32x32 .f32) transposes_S32x32_S32x32_1_0 := by
    dsimp only [W10, hostOps4]; after_results
  rw [e, W9_arg9]
  exact transpose_apply (s := S32x32) (t := S32x32) _ _ _ _ _ (fun d => match d with | ⟨0, _⟩ => rfl | ⟨1, _⟩ => rfl)

/-- The head's first bias as a column. -/
theorem W10_v67_apply (a : Fin 32) : (W10 m c (Proc.devRef .tc main_v67) : Vec F S32x1 .f32) (ix2 a (0 : Fin 1)) = (m ((c : Thread nD τ).loc main_arg8) : Vec F S32 .f32) (ix1 a) := by
  have e : (W10 m c (Proc.devRef .tc main_v67) : Vec F S32x1 .f32)
      = shapeCast S32x1 (W9 m c (Proc.devRef .tc main_arg8) : Vec F S32 .f32) shapeCasts_S32_S32x1 := by
    dsimp only [W10, hostOps4]; after_results; rfl
  rw [e, W9_arg8]
  exact shapeCast_apply (s := S32) (t := S32x1) _ _ _ _ (by
    rw [Shape.rowMajor_val_one, Shape.rowMajor_val_two]; show a.val = a.val * 1 + 0; omega)

/-- The head's second bias as a column. -/
theorem W10_v68_apply (a : Fin 32) : (W10 m c (Proc.devRef .tc main_v68) : Vec F S32x1 .f32) (ix2 a (0 : Fin 1)) = (m ((c : Thread nD τ).loc main_arg10) : Vec F S32 .f32) (ix1 a) := by
  have e : (W10 m c (Proc.devRef .tc main_v68) : Vec F S32x1 .f32)
      = shapeCast S32x1 (W9 m c (Proc.devRef .tc main_arg10) : Vec F S32 .f32) shapeCasts_S32_S32x1 := by
    dsimp only [W10, hostOps4]; after_results; rfl
  rw [e, W9_arg10]
  exact shapeCast_apply (s := S32) (t := S32x1) _ _ _ _ (by
    rw [Shape.rowMajor_val_one, Shape.rowMajor_val_two]; show a.val = a.val * 1 + 0; omega)

/-- The result is the pooling head's output, transposed. -/
theorem W12_v70_apply (g : Fin 512) (j : Fin 32) : (W12 m c (Proc.devRef .tc main_v70) : Vec F S512x32 .f32) (ix2 g j) = (W11 m c (Proc.devRef .tc main_v69) : Vec F S32x512 .f32) (ix2 j g) := by
  have e : (W12 m c (Proc.devRef .tc main_v70) : Vec F S512x32 .f32)
      = transpose S512x32 [1, 0] (W11 m c (Proc.devRef .tc main_v69) : Vec F S32x512 .f32) transposes_S32x512_S512x32_1_0 := by
    dsimp only [W12, hostOps5]; after_results
  rw [e]
  exact transpose_apply (s := S32x512) (t := S512x32) _ _ _ _ _ (fun d => match d with | ⟨0, _⟩ => rfl | ⟨1, _⟩ => rfl)

/-! ## What the three leading stretches compute from the edge list -/

/-- The source endpoints with the self loops appended. -/
private theorem W1_v3 : W1 m c (Proc.devRef .tc main_v3) = Cert.ReferenceIdeal.ReadP.val_main_v3 (F := F) (m ((c : Thread nD τ).loc main_arg1)) := by
  dsimp only [W1, W0, hostOps0]; after_results; rfl
/-- The target endpoints with the self loops appended. -/
private theorem W1_v6 : W1 m c (Proc.devRef .tc main_v6) = Cert.ReferenceIdeal.ReadP.val_main_v6 (F := F) (m ((c : Thread nD τ).loc main_arg1)) := by
  dsimp only [W1, W0, hostOps0]; after_results; rfl
/-- Which nodes have positive degree. -/
private theorem W1_v12 : W1 m c (Proc.devRef .tc main_v12) = Cert.ReferenceIdeal.ReadP.val_main_v12 (F := F) (m ((c : Thread nD τ).loc main_arg1)) := by
  dsimp only [W1, W0, hostOps0]; after_results; rfl
/-- One over the square root of the degree. -/
private theorem W1_v15 : W1 m c (Proc.devRef .tc main_v15) = Cert.ReferenceIdeal.ReadP.val_main_v15 (F := F) (m ((c : Thread nD τ).loc main_arg1)) := by
  dsimp only [W1, W0, hostOps0]; after_results; rfl
private theorem W1_cst_3 : W1 m c (Proc.devRef .tc main_cst_3) = Cert.ReferenceIdeal.ReadP.val_main_cst_3 (F := F) := by
  dsimp only [W1, W0, hostOps0]; after_results; rfl

/-- The inverse square root where the degree is positive, zero elsewhere. -/
private theorem W2_v16 : W2 m c (Proc.devRef .tc main_v16) = Cert.ReferenceIdeal.ReadP.val_main_v16 (F := F) (m ((c : Thread nD τ).loc main_arg1)) := by
  have h12 := W1_v12 m c; have h15 := W1_v15 m c; have h3 := W1_cst_3 m c
  dsimp only [W2]
  generalize W1 m c = V at h12 h15 h3 ⊢
  dsimp only [hostOps0_1]; after_results
  simp only [TRef.ofBuf, TRef.toBuf, cast_eq]
  rw [h12, h15, h3]; rfl

private theorem W2_v3 : W2 m c (Proc.devRef .tc main_v3) = Cert.ReferenceIdeal.ReadP.val_main_v3 (F := F) (m ((c : Thread nD τ).loc main_arg1)) :=
  (StableHlo.after_of_writes_sub hostOps0_1 _ hostOps0_1_writes (r := main_v3) (by decide)).trans (W1_v3 m c)
private theorem W2_v6 : W2 m c (Proc.devRef .tc main_v6) = Cert.ReferenceIdeal.ReadP.val_main_v6 (F := F) (m ((c : Thread nD τ).loc main_arg1)) :=
  (StableHlo.after_of_writes_sub hostOps0_1 _ hostOps0_1_writes (r := main_v6) (by decide)).trans (W1_v6 m c)

/-- The edge weights: the product of the two endpoints' normalisations. -/
private theorem W3_v31 : W3 m c (Proc.devRef .tc main_v31) = Cert.ReferenceIdeal.ReadP.val_main_v31 (F := F) (m ((c : Thread nD τ).loc main_arg1)) := by
  have h3 := W2_v3 m c; have h6 := W2_v6 m c; have h16 := W2_v16 m c
  dsimp only [W3]
  generalize W2 m c = V at h3 h6 h16 ⊢
  dsimp only [hostOps0_2]; after_results_simp
  rw [h3, h6, h16]; rfl
private theorem W3_v3 : W3 m c (Proc.devRef .tc main_v3) = Cert.ReferenceIdeal.ReadP.val_main_v3 (F := F) (m ((c : Thread nD τ).loc main_arg1)) :=
  (StableHlo.after_of_writes_sub hostOps0_2 _ hostOps0_2_writes (r := main_v3) (by decide)).trans (W2_v3 m c)
private theorem W3_v6 : W3 m c (Proc.devRef .tc main_v6) = Cert.ReferenceIdeal.ReadP.val_main_v6 (F := F) (m ((c : Thread nD τ).loc main_arg1)) :=
  (StableHlo.after_of_writes_sub hostOps0_2 _ hostOps0_2_writes (r := main_v6) (by decide)).trans (W2_v6 m c)

/-! ## The first stretch between regions -/

private theorem W4_v3 : W4 m c (Proc.devRef .tc main_v3) = Cert.ReferenceIdeal.ReadP.val_main_v3 (F := F) (m ((c : Thread nD τ).loc main_arg1)) :=
  (W4_of_ne m c main_v3 (by decide)).trans (W3_v3 m c)
private theorem W4_v6 : W4 m c (Proc.devRef .tc main_v6) = Cert.ReferenceIdeal.ReadP.val_main_v6 (F := F) (m ((c : Thread nD τ).loc main_arg1)) :=
  (W4_of_ne m c main_v6 (by decide)).trans (W3_v6 m c)
private theorem W4_v31 : W4 m c (Proc.devRef .tc main_v31) = Cert.ReferenceIdeal.ReadP.val_main_v31 (F := F) (m ((c : Thread nD τ).loc main_arg1)) :=
  (W4_of_ne m c main_v31 (by decide)).trans (W3_v31 m c)

/-- The first aggregation: the first projection's output gathered along the edges, scaled by the edge weights and summed
    into the target nodes. -/
theorem W5_v45 : W5 m c (Proc.devRef .tc main_v45) = glue1 (W4 m c (Proc.devRef .tc main_v32)) (m ((c : Thread nD τ).loc main_arg1)) := by
  dsimp only [W5, hostOps1]; after_results_simp
  rw [W4_v3, W4_v6, W4_v31]; rfl

/-! ## The second stretch between regions -/

private theorem W7_v3 : W7 m c (Proc.devRef .tc main_v3) = Cert.ReferenceIdeal.ReadP.val_main_v3 (F := F) (m ((c : Thread nD τ).loc main_arg1)) :=
  (W7_of_ne m c main_v3 (by decide)).trans <| (W6_of_ne m c main_v3 (by decide)).trans <|
  (StableHlo.after_of_writes_sub hostOps1 _ hostOps1_writes (r := main_v3) (by decide)).trans (W4_v3 m c)
private theorem W7_v6 : W7 m c (Proc.devRef .tc main_v6) = Cert.ReferenceIdeal.ReadP.val_main_v6 (F := F) (m ((c : Thread nD τ).loc main_arg1)) :=
  (W7_of_ne m c main_v6 (by decide)).trans <| (W6_of_ne m c main_v6 (by decide)).trans <|
  (StableHlo.after_of_writes_sub hostOps1 _ hostOps1_writes (r := main_v6) (by decide)).trans (W4_v6 m c)
private theorem W7_v31 : W7 m c (Proc.devRef .tc main_v31) = Cert.ReferenceIdeal.ReadP.val_main_v31 (F := F) (m ((c : Thread nD τ).loc main_arg1)) :=
  (W7_of_ne m c main_v31 (by decide)).trans <| (W6_of_ne m c main_v31 (by decide)).trans <|
  (StableHlo.after_of_writes_sub hostOps1 _ hostOps1_writes (r := main_v31) (by decide)).trans (W4_v31 m c)

/-- The second aggregation, of the second projection's output. -/
theorem W8_v61 : W8 m c (Proc.devRef .tc main_v61) = glue2 (W7 m c (Proc.devRef .tc main_v48)) (m ((c : Thread nD τ).loc main_arg1)) := by
  dsimp only [W8, hostOps3]; after_results_simp
  rw [W7_v3, W7_v6, W7_v31]; rfl

end Cert.KernelIdeal.Hand

end
-- ==== Proof.KI.V0.lean ====
import proofs.«409944_j24326694765162_4_alg».proof.Proof.KI.R0
import proofs.«409944_j24326694765162_4_alg».proof.Proof.Gen.ReferenceIdeal
import proofs.«409944_j24326694765162_4_alg».proof.Proof.KI.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! # Region 0, whole-array value: the first projection x · W₁

Element `(2000·t + r, j)` of the result is `Σ_k x(2000·t + r, k) · w(k, j)`, `k` over the 17 contracted
positions, both for the block product the body computes at grid point `t` and for the one product over the
whole arrays. The 50 row blocks cover the result, so the array after the region is the whole product. -/

/-! ## Block indices along the grid -/

/-- At point `t` the left operand and the result are at row block `t`, column block 0; the right operand is always
    at block (0, 0). -/
theorem mm0_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! ## The product over the whole arrays, at an index -/

/-- The left operand's index keeps the result's row … -/
theorem mm0_ref_lhs_0 (i : Cert.ReferenceIdeal.S100000x64.Idx) (q : Cert.ReferenceIdeal.dot_S100000x17_S17x64_S100000x64_1_0_0_1_n_n.contr.Idx) :
    (Cert.ReferenceIdeal.dot_S100000x17_S17x64_S100000x64_1_0_0_1_n_n.lhsIdx i q 0).val = (i 0).val := by
  unfold DotDims.lhsIdx
  rw [dif_neg (show ¬(0 : Fin Cert.ReferenceIdeal.S100000x17.rank) ∈ Cert.ReferenceIdeal.dot_S100000x17_S17x64_S100000x64_1_0_0_1_n_n.lhsBatch by decide), dif_pos (show (0 : Fin Cert.ReferenceIdeal.S100000x17.rank) ∈ Cert.ReferenceIdeal.dot_S100000x17_S17x64_S100000x64_1_0_0_1_n_n.lhsNonContracting by decide)]
  rfl
/-- … and takes the contracted position as its column; -/
theorem mm0_ref_lhs_1 (i : Cert.ReferenceIdeal.S100000x64.Idx) (q : Cert.ReferenceIdeal.dot_S100000x17_S17x64_S100000x64_1_0_0_1_n_n.contr.Idx) :
    (Cert.ReferenceIdeal.dot_S100000x17_S17x64_S100000x64_1_0_0_1_n_n.lhsIdx i q 1).val = (q ⟨0, by decide⟩).val :=
  Cert.ReferenceIdeal.dot_S100000x17_S17x64_S100000x64_1_0_0_1_n_n.lhsIdx_val_of_single rfl i q
/-- the right operand's index takes the contracted position as its row … -/
theorem mm0_ref_rhs_0 (i : Cert.ReferenceIdeal.S100000x64.Idx) (q : Cert.ReferenceIdeal.dot_S100000x17_S17x64_S100000x64_1_0_0_1_n_n.contr.Idx) :
    (Cert.ReferenceIdeal.dot_S100000x17_S17x64_S100000x64_1_0_0_1_n_n.rhsIdx i q 0).val = (q ⟨0, by decide⟩).val :=
  Cert.ReferenceIdeal.dot_S100000x17_S17x64_S100000x64_1_0_0_1_n_n.rhsIdx_val_of_single rfl i q
/-- … and keeps the result's column. -/
theorem mm0_ref_rhs_1 (i : Cert.ReferenceIdeal.S100000x64.Idx) (q : Cert.ReferenceIdeal.dot_S100000x17_S17x64_S100000x64_1_0_0_1_n_n.contr.Idx) :
    (Cert.ReferenceIdeal.dot_S100000x17_S17x64_S100000x64_1_0_0_1_n_n.rhsIdx i q 1).val = (i 1).val := by
  unfold DotDims.rhsIdx
  rw [dif_neg (show ¬(1 : Fin Cert.ReferenceIdeal.S17x64.rank) ∈ Cert.ReferenceIdeal.dot_S100000x17_S17x64_S100000x64_1_0_0_1_n_n.rhsBatch by decide), dif_pos (show (1 : Fin Cert.ReferenceIdeal.S17x64.rank) ∈ Cert.ReferenceIdeal.dot_S100000x17_S17x64_S100000x64_1_0_0_1_n_n.rhsNonContracting by decide)]
  rfl

/-- Row `i 0` of the left array, at column `k`. -/
abbrev mm0_row (i : S100000x64.Idx) (k : Fin 17) : S100000x17.Idx := fun a => match a with
  | ⟨0, _⟩ => ⟨(i 0).val, (i 0).isLt⟩
  | ⟨1, _⟩ => ⟨k.val, k.isLt⟩
/-- Column `i 1` of the right array, at row `k`. -/
abbrev mm0_col (i : S100000x64.Idx) (k : Fin 17) : S17x64.Idx := fun a => match a with
  | ⟨0, _⟩ => ⟨k.val, k.isLt⟩
  | ⟨1, _⟩ => ⟨(i 1).val, (i 1).isLt⟩

/-- The whole-array product at `i` is the sum over `k` of row `i 0` times column `i 1`: the contraction's one-axis
    index set is re-indexed by `Fin 17`. -/
theorem mm0_ref_apply (x0 : Vec Ideal S100000x17 .f32) (x3 : Vec Ideal S17x64 .f32) (i : S100000x64.Idx) :
    Cert.ReferenceIdeal.Stages.proj1 (F := Ideal) x0 x3 i = ∑ k : Fin 17, x0 (mm0_row i k) * x3 (mm0_col i k) := by
  unfold Cert.ReferenceIdeal.Stages.proj1
  simp only [Host.dotGeneral]
  rw [Ideal.dotGeneral_apply, ← Equiv.sum_comp (ValueIdx.contrEquiv1 Cert.ReferenceIdeal.dot_S100000x17_S17x64_S100000x64_1_0_0_1_n_n 17 rfl rfl).symm]
  refine Finset.sum_congr rfl fun k _ => ?_
  have hk := ValueIdx.contrEquiv1_symm_val Cert.ReferenceIdeal.dot_S100000x17_S17x64_S100000x64_1_0_0_1_n_n 17 rfl rfl k
  have el : Cert.ReferenceIdeal.dot_S100000x17_S17x64_S100000x64_1_0_0_1_n_n.lhsIdx i ((ValueIdx.contrEquiv1 Cert.ReferenceIdeal.dot_S100000x17_S17x64_S100000x64_1_0_0_1_n_n 17 rfl rfl).symm k) = mm0_row i k := funext fun a => Fin.ext (by
    match a with
    | ⟨0, _⟩ => exact mm0_ref_lhs_0 _ _
    | ⟨1, _⟩ => exact (mm0_ref_lhs_1 _ _).trans hk)
  have er : Cert.ReferenceIdeal.dot_S100000x17_S17x64_S100000x64_1_0_0_1_n_n.rhsIdx i ((ValueIdx.contrEquiv1 Cert.ReferenceIdeal.dot_S100000x17_S17x64_S100000x64_1_0_0_1_n_n 17 rfl rfl).symm k) = mm0_col i k := funext fun a => Fin.ext (by
    match a with
    | ⟨0, _⟩ => exact (mm0_ref_rhs_0 _ _).trans hk
    | ⟨1, _⟩ => exact mm0_ref_rhs_1 _ _)
  rw [el, er]

/-! ## The block product of the body, at an index -/

/-- The same four coordinate facts for the block product's index maps. -/
theorem mm0_ker_lhs_0 (i : S2000x64.Idx) (q : dot_S2000x17_S17x64_S2000x64_1_0_0_1_n_n.contr.Idx) :
    (dot_S2000x17_S17x64_S2000x64_1_0_0_1_n_n.lhsIdx i q 0).val = (i 0).val := by
  unfold DotDims.lhsIdx
  rw [dif_neg (show ¬(0 : Fin S2000x17.rank) ∈ dot_S2000x17_S17x64_S2000x64_1_0_0_1_n_n.lhsBatch by decide), dif_pos (show (0 : Fin S2000x17.rank) ∈ dot_S2000x17_S17x64_S2000x64_1_0_0_1_n_n.lhsNonContracting by decide)]
  rfl
theorem mm0_ker_lhs_1 (i : S2000x64.Idx) (q : dot_S2000x17_S17x64_S2000x64_1_0_0_1_n_n.contr.Idx) :
    (dot_S2000x17_S17x64_S2000x64_1_0_0_1_n_n.lhsIdx i q 1).val = (q ⟨0, by decide⟩).val :=
  dot_S2000x17_S17x64_S2000x64_1_0_0_1_n_n.lhsIdx_val_of_single rfl i q
theorem mm0_ker_rhs_0 (i : S2000x64.Idx) (q : dot_S2000x17_S17x64_S2000x64_1_0_0_1_n_n.contr.Idx) :
    (dot_S2000x17_S17x64_S2000x64_1_0_0_1_n_n.rhsIdx i q 0).val = (q ⟨0, by decide⟩).val :=
  dot_S2000x17_S17x64_S2000x64_1_0_0_1_n_n.rhsIdx_val_of_single rfl i q
theorem mm0_ker_rhs_1 (i : S2000x64.Idx) (q : dot_S2000x17_S17x64_S2000x64_1_0_0_1_n_n.contr.Idx) :
    (dot_S2000x17_S17x64_S2000x64_1_0_0_1_n_n.rhsIdx i q 1).val = (i 1).val := by
  unfold DotDims.rhsIdx
  rw [dif_neg (show ¬(1 : Fin S17x64.rank) ∈ dot_S2000x17_S17x64_S2000x64_1_0_0_1_n_n.rhsBatch by decide), dif_pos (show (1 : Fin S17x64.rank) ∈ dot_S2000x17_S17x64_S2000x64_1_0_0_1_n_n.rhsNonContracting by decide)]
  rfl

/-- Row `j 0` of the left block, at column `k`. -/
abbrev mm0_brow (j : S2000x64.Idx) (k : Fin 17) : S2000x17.Idx := fun a => match a with
  | ⟨0, _⟩ => ⟨(j 0).val, (j 0).isLt⟩
  | ⟨1, _⟩ => ⟨k.val, k.isLt⟩
/-- Column `j 1` of the right operand, at row `k`. -/
abbrev mm0_bcol (j : S2000x64.Idx) (k : Fin 17) : S17x64.Idx := fun a => match a with
  | ⟨0, _⟩ => ⟨k.val, k.isLt⟩
  | ⟨1, _⟩ => ⟨(j 1).val, (j 1).isLt⟩

/-- The body's stored value at `j`: a product accumulated onto the zero array is the bare sum over `k`. -/
theorem mm0_ker_apply (x0 : Vec Ideal S2000x17 .f32) (x1 : Vec Ideal S17x64 .f32) (j : S2000x64.Idx) :
    k0_pay1 x0 x1 j = ∑ k : Fin 17, x0 (mm0_brow j k) * x1 (mm0_bcol j k) := by
  unfold k0_pay1
  refine (Ideal.matmul_constant_zero_apply dot_S2000x17_S17x64_S2000x64_1_0_0_1_n_n none x0 x1 j).trans ?_
  rw [← Equiv.sum_comp (ValueIdx.contrEquiv1 dot_S2000x17_S17x64_S2000x64_1_0_0_1_n_n 17 rfl rfl).symm]
  refine Finset.sum_congr rfl fun k _ => ?_
  have hk := ValueIdx.contrEquiv1_symm_val dot_S2000x17_S17x64_S2000x64_1_0_0_1_n_n 17 rfl rfl k
  have el : dot_S2000x17_S17x64_S2000x64_1_0_0_1_n_n.lhsIdx j ((ValueIdx.contrEquiv1 dot_S2000x17_S17x64_S2000x64_1_0_0_1_n_n 17 rfl rfl).symm k) = mm0_brow j k := funext fun a => Fin.ext (by
    match a with
    | ⟨0, _⟩ => exact mm0_ker_lhs_0 _ _
    | ⟨1, _⟩ => exact (mm0_ker_lhs_1 _ _).trans hk)
  have er : dot_S2000x17_S17x64_S2000x64_1_0_0_1_n_n.rhsIdx j ((ValueIdx.contrEquiv1 dot_S2000x17_S17x64_S2000x64_1_0_0_1_n_n 17 rfl rfl).symm k) = mm0_bcol j k := funext fun a => Fin.ext (by
    match a with
    | ⟨0, _⟩ => exact (mm0_ker_rhs_0 _ _).trans hk
    | ⟨1, _⟩ => exact mm0_ker_rhs_1 _ _)
  rw [el, er]

/-! ## From the blocks to the array -/

theorem mm0_off_zero : (![0, 0] : Fin 2 → Nat) = fun _ => 0 :=
  funext fun a => by match a with | ⟨0, _⟩ => rfl | ⟨1, _⟩ => rfl

/-- What point `t` writes back is block `t` of the whole product. At local index `j` both sides are sums over `k`;
    term by term, element `(j 0, k)` of the left block is element `(2000·t + j 0, k)` of the left array, and the right
    block is the right array itself. -/
theorem mm0_flushed (c : Dev nD) (t : Fin cfg0.N) :
    (dat0 V c).flushed 2 t = ((cfg0.win 2).blk t).view.read (Elt Ideal)
      (Cert.ReferenceIdeal.Stages.proj1 (F := Ideal) (V c main_arg0) (V c main_arg3)) := by
  show (cfg0.win 2).cut (grid0.coords t) ((dat0 V c).after 2 t) = _
  rw [after0_2]
  unfold out0_2
  rw [View.canon_unit_zero mm0_off_zero]
  simp only [View.ld_unit_zero (S := S2000x17) mm0_off_zero, View.ld_unit_zero (S := S17x64) mm0_off_zero]
  obtain ⟨e0, e1, e2, e3, e4, e5⟩ := mm0_index t
  funext j
  show k0_pay1 (iblk0 V c 0 t) (iblk0 V c 1 t) j
    = Cert.ReferenceIdeal.Stages.proj1 (F := Ideal) (V c main_arg0) (V c main_arg3) (((cfg0.win 2).blk t).view.emb j)
  refine (mm0_ker_apply (iblk0 V c 0 t) (iblk0 V c 1 t) j).trans ?_
  refine Eq.trans ?_ (mm0_ref_apply (V c main_arg0) (V c main_arg3) (((cfg0.win 2).blk t).view.emb j)).symm
  refine Finset.sum_congr rfl fun k _ => ?_
  have hl : iblk0 V c 0 t (mm0_brow j k) = V c main_arg0 (mm0_row (((cfg0.win 2).blk t).view.emb j) k) := by
    show V c main_arg0 (((cfg0.win 0).blk t).view.emb (mm0_brow j k)) = _
    refine congrArg _ (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 17 + 1 * k.val = k.val; omega
  have hr : iblk0 V c 1 t (mm0_bcol j k) = V c main_arg3 (mm0_col (((cfg0.win 2).blk t).view.emb j) k) := by
    show V c main_arg3 (((cfg0.win 1).blk t).view.emb (mm0_bcol j k)) = _
    refine congrArg _ (funext fun a => Fin.ext ?_)
    match a with
    | ⟨0, _⟩ => show win0_1.index t (0 : Fin 2) * 17 + 1 * k.val = k.val; omega
    | ⟨1, _⟩ => show win0_1.index t (1 : Fin 2) * 64 + 1 * (j 1).val = win0_2.index t (1 : Fin 2) * 64 + 1 * (j 1).val; omega
  rw [hl, hr]

/-- An index of the result lies in the block of point `t` iff on each axis its coordinate is within that block's
    range. -/
theorem mm0_mem_blk (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v32).slice (win0_2.rect t)).set ↔ _
  rw [View.set_slice_whole, Rect.mem_set_unit]
  exact Iff.rfl

/-- Row `r` lies in the block of point `r / 2000`, and every point writes its block back. -/
theorem mm0_cover (i : S100000x64.Idx) :
    ∃ t : Fin cfg0.N, (cfg0.win 2).flush t = true ∧ i ∈ ((cfg0.win 2).blk t).view.set := by
  have hN : cfg0.N = 50 := N_0
  have h0 : (i 0).val < 100000 := (i 0).isLt
  have h1 : (i 1).val < 64 := (i 1).isLt
  obtain ⟨t, ht⟩ : ∃ t : Fin cfg0.N, t.val = (i 0).val / 2000 := ⟨⟨(i 0).val / 2000, by rw [hN]; omega⟩, rfl⟩
  obtain ⟨e0, e1, e2, e3, e4, e5⟩ := mm0_index t
  refine ⟨t, flush0_2 t, ?_⟩
  rw [mm0_mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- The result array after the region is the product of the two input arrays as the region found them. -/
theorem final0 (c : Dev nD) : (dat0 V c).arrAt 2 cfg0.N = Cert.ReferenceIdeal.Stages.proj1 (F := Ideal) (V c main_arg0) (V c main_arg3) :=
  (dat0 V c).arrAt_eq_of_cover 2 _ (fun t _ => mm0_flushed V c t) mm0_cover

end Cert.KernelIdeal.Hand

end
-- ==== Proof.KI.V1.lean ====
import proofs.«409944_j24326694765162_4_alg».proof.Proof.KI.R1
import proofs.«409944_j24326694765162_4_alg».proof.Proof.Gen.ReferenceIdeal
import proofs.«409944_j24326694765162_4_alg».proof.Proof.KI.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! # Region 1 as a whole array: max (agg + bias row, 0)

The region's output array is assembled from the fifty row blocks its grid points write back. Each block is the
payload of the point's two input blocks; read at one element, the payload is the maximum with zero of the sum of
the row block's element and the bias row's element of the same column, and so is the reference's stage function at
the element of the array the block's element lands on. -/

/-- The zero offsets of a whole-buffer rectangle, as the constant function. -/
theorem zero_off1 : (![0, 0] : Fin 2 → Nat) = fun _ => 0 := funext fun a => by fin_cases a <;> rfl

/-- The payload at row p, column q of the block: max (x0(p, q) + row(0, q), 0). The two shape casts are to the
    same shapes; the row is broadcast along the unit axis; the zero is broadcast from a scalar. -/
theorem pay1_apply (x0 : Vec Ideal S2000x64 .f32) (x1 : Vec Ideal S1x64 .f32) (p : Fin 2000) (q : Fin 64) :
    k1_pay1 x0 x1 (ix2 p q) = max (x0 (ix2 p q) + x1 (ix2 (0 : Fin 1) q)) (Ideal.ofBits .f32 0x00000000#32) := by
  unfold k1_pay1
  rw [shapeCast_self, shapeCast_self]
  rw [maximumf_apply, addf_apply, broadcast_apply]
  rw [broadcastTo_apply x1 broadcasts_S1x64_S2000x64 (ix2 p q) (ix2 (0 : Fin 1) q) (fun a => match a with
    | ⟨0, _⟩ => by show 0 = if (1 : Nat) = 1 then 0 else _; rw [if_pos rfl]
    | ⟨1, _⟩ => by show q.val = if (64 : Nat) = 1 then 0 else q.val; rw [if_neg (by decide)])]
  rfl

/-- The reference's stage at row r, column q of the array: max (agg(r, q) + b(q), 0). The bias is broadcast twice,
    first to a row, then along the rows; the zero is broadcast from a scalar. -/
theorem act1_apply (agg : (⟨Cert.ReferenceIdeal.S100000x64, .f32⟩ : BufTy).Contents (Elt Ideal))
    (x4 : (⟨Cert.ReferenceIdeal.S64, .f32⟩ : BufTy).Contents (Elt Ideal)) (r : Fin 100000) (q : Fin 64) :
    Cert.ReferenceIdeal.Stages.act1 (F := Ideal) agg x4 (ix2 r q)
      = max (agg (ix2 r q) + x4 (ix1 q)) (Ideal.ofBits .f32 0x00000000#32) := by
  unfold Cert.ReferenceIdeal.Stages.act1
  rw [maximumf_apply, addf_apply]
  rw [broadcastInDim_apply _ _ _ (ix2 r q) (ix2 (0 : Fin 1) q) (fun a => match a with
      | ⟨0, _⟩ => by show 0 = if (1 : Nat) = 1 then 0 else _; rw [if_pos rfl]
      | ⟨1, _⟩ => by show q.val = if (64 : Nat) = 1 then 0 else q.val; rw [if_neg (by decide)]),
    broadcastInDim_apply _ _ x4 (ix2 (0 : Fin 1) q) (ix1 q) (fun a => match a with
      | ⟨0, _⟩ => by show q.val = if (64 : Nat) = 1 then 0 else q.val; rw [if_neg (by decide)]),
    broadcastInDim_apply _ _ _ (ix2 r q) ix0 (fun a => a.elim0)]
  rfl

/-- One element: where the block's element is the array's and the row's element is the bias's, the payload is the
    reference's stage. -/
theorem point1 (x0 : Vec Ideal S2000x64 .f32) (x1 : Vec Ideal S1x64 .f32)
    (agg : (⟨Cert.ReferenceIdeal.S100000x64, .f32⟩ : BufTy).Contents (Elt Ideal))
    (x4 : (⟨Cert.ReferenceIdeal.S64, .f32⟩ : BufTy).Contents (Elt Ideal)) (p : Fin 2000) (q : Fin 64) (r : Fin 100000)
    (h0 : x0 (ix2 p q) = agg (ix2 r q)) (h1 : x1 (ix2 (0 : Fin 1) q) = x4 (ix1 q)) :
    k1_pay1 x0 x1 (ix2 p q) = Cert.ReferenceIdeal.Stages.act1 (F := Ideal) agg x4 (ix2 r q) := by
  rw [pay1_apply, act1_apply, h0, h1]

/-- The printed index maps over the grid: the row-block windows are at block (t, 0), the bias row at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point t writes back is block t of the reference's stage of the input array: the block's element
    (p, q) lands on the array's element (2000·t + p, q), where the first input block's element (p, q) also sits,
    and the bias row's block is the whole row. -/
theorem flushed1_eq (c : Dev nD) (x4 : (⟨Cert.ReferenceIdeal.S64, .f32⟩ : BufTy).Contents (Elt Ideal))
    (hb : ∀ j : Fin 64, (V c main_v46 : Vec Ideal S1x64 .f32) (ix2 (0 : Fin 1) j) = x4 (ix1 j)) (t : Fin cfg1.N) :
    (dat1 V c).flushed 2 t
      = ((cfg1.win 2).blk t).view.read (Elt Ideal) (Cert.ReferenceIdeal.Stages.act1 (F := Ideal) (V c main_v45) x4) := by
  show (cfg1.win 2).cut (grid1.coords t) ((dat1 V c).after 2 t) = _
  rw [after1_2]
  unfold out1_2
  rw [View.canon_unit_zero zero_off1]
  simp only [View.ld_unit_zero (S := S2000x64) zero_off1, View.ld_unit_zero (S := S1x64) zero_off1]
  obtain ⟨e00, e01, e10, e11, e20, e21⟩ := idx_facts1 t
  have hN : t.val < 50 := Nat.lt_of_lt_of_eq t.isLt N_1
  funext j
  obtain ⟨p, q, rfl⟩ : ∃ (p : Fin 2000) (q : Fin 64), j = ix2 p q := ⟨j 0, j 1, eq_ix2 j⟩
  have hp : p.val < 2000 := p.isLt
  have hr : 2000 * t.val + p.val < 100000 := by omega
  have hemb : ((cfg1.win 2).blk t).view.emb (ix2 p q) = ix2 (⟨2000 * t.val + p.val, hr⟩ : Fin 100000) q := by
    funext a; apply Fin.ext
    match a with
    | ⟨0, _⟩ => show win1_2.index t (0 : Fin 2) * 2000 + 1 * p.val = 2000 * t.val + p.val; omega
    | ⟨1, _⟩ => show win1_2.index t (1 : Fin 2) * 64 + 1 * q.val = q.val; omega
  show k1_pay1 (iblk1 V c 0 t) (iblk1 V c 1 t) (ix2 p q)
    = Cert.ReferenceIdeal.Stages.act1 (F := Ideal) (V c main_v45) x4 (((cfg1.win 2).blk t).view.emb (ix2 p q))
  rw [hemb]
  refine point1 _ _ _ _ p q _ ?_ ?_
  · show V c main_v45 (((cfg1.win 0).blk t).view.emb (ix2 p q)) = V c main_v45 (ix2 (⟨2000 * t.val + p.val, hr⟩ : Fin 100000) q)
    refine congrArg _ ?_
    funext a; apply Fin.ext
    match a with
    | ⟨0, _⟩ => show win1_0.index t (0 : Fin 2) * 2000 + 1 * p.val = 2000 * t.val + p.val; omega
    | ⟨1, _⟩ => show win1_0.index t (1 : Fin 2) * 64 + 1 * q.val = q.val; omega
  · show V c main_v46 (((cfg1.win 1).blk t).view.emb (ix2 (0 : Fin 1) q)) = x4 (ix1 q)
    rw [← hb q]
    refine congrArg _ ?_
    funext a; apply Fin.ext
    match a with
    | ⟨0, _⟩ => show win1_1.index t (0 : Fin 2) * 1 + 1 * 0 = 0; omega
    | ⟨1, _⟩ => show win1_1.index t (1 : Fin 2) * 64 + 1 * q.val = q.val; omega

/-- An index of the array lies in point t's block iff each coordinate lies in the block's range on its axis. -/
theorem mem_blk1 (t : Fin cfg1.N) (i : S100000x64.Idx) :
    i ∈ ((cfg1.win 2).blk t).view.set ↔ ∀ a : Fin 2, win1_2.index t a * S2000x64.size a ≤ (i a).val
      ∧ (i a).val < win1_2.index t a * S2000x64.size a + S2000x64.size a := by
  show i ∈ ((View.whole main_v47).slice (win1_2.rect t)).set ↔ _
  rw [View.set_slice_whole, Rect.mem_set_unit]
  exact Iff.rfl

/-- Every index of the array is in some point's block: row r is in the block of point r / 2000. -/
theorem covered1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ : ∃ t : Fin cfg1.N, t.val = (i 0).val / 2000 :=
    ⟨⟨(i 0).val / 2000, by rw [show cfg1.N = 50 from N_1]; omega⟩, rfl⟩
  obtain ⟨-, -, -, -, e20, e21⟩ := idx_facts1 t
  refine ⟨t, flush1_2 t, ?_⟩
  rw [mem_blk1]
  intro a
  match a with
  | ⟨0, _⟩ =>
    show win1_2.index t (0 : Fin 2) * 2000 ≤ (i 0).val ∧ (i 0).val < win1_2.index t (0 : Fin 2) * 2000 + 2000
    omega
  | ⟨1, _⟩ =>
    show win1_2.index t (1 : Fin 2) * 64 ≤ (i 1).val ∧ (i 1).val < win1_2.index t (1 : Fin 2) * 64 + 64
    omega

/-- The output array after the region is the reference's bias-and-rectify stage of the region's input array and
    the bias the row holds. -/
theorem final1 (c : Dev nD) (x4 : (⟨Cert.ReferenceIdeal.S64, .f32⟩ : BufTy).Contents (Elt Ideal))
    (hb : ∀ j : Fin 64, (V c main_v46 : Vec Ideal S1x64 .f32) (ix2 (0 : Fin 1) j) = x4 (ix1 j)) :
    (dat1 V c).arrAt 2 cfg1.N = Cert.ReferenceIdeal.Stages.act1 (F := Ideal) (V c main_v45) x4 :=
  (dat1 V c).arrAt_eq_of_cover 2 _ (fun t _ => flushed1_eq V c x4 hb t) covered1

end Cert.KernelIdeal.Hand

end
-- ==== Proof.KI.V2.lean ====
import proofs.«409944_j24326694765162_4_alg».proof.Proof.KI.R2
import proofs.«409944_j24326694765162_4_alg».proof.Proof.Gen.ReferenceIdeal
import proofs.«409944_j24326694765162_4_alg».proof.Proof.KI.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! # Region 2, whole-array value: the second projection h₁ · W₂

Element `(2000·t + r, j)` of the result is `Σ_k x(2000·t + r, k) · w(k, j)`, `k` over the 64 contracted
positions, both for the block product the body computes at grid point `t` and for the one product over the
whole arrays. The 50 row blocks cover the result, so the array after the region is the whole product. -/

/-! ## Block indices along the grid -/

/-- At point `t` the left operand and the result are at row block `t`, column block 0; the right operand is always
    at block (0, 0). -/
theorem mm2_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-! ## The product over the whole arrays, at an index -/

/-- The left operand's index keeps the result's row … -/
theorem mm2_ref_lhs_0 (i : Cert.ReferenceIdeal.S100000x32.Idx) (q : Cert.ReferenceIdeal.dot_S100000x64_S64x32_S100000x32_1_0_0_1_n_n.contr.Idx) :
    (Cert.ReferenceIdeal.dot_S100000x64_S64x32_S100000x32_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x32_S100000x32_1_0_0_1_n_n.lhsBatch by decide), dif_pos (show (0 : Fin Cert.ReferenceIdeal.S100000x64.rank) ∈ Cert.ReferenceIdeal.dot_S100000x64_S64x32_S100000x32_1_0_0_1_n_n.lhsNonContracting by decide)]
  rfl
/-- … and takes the contracted position as its column; -/
theorem mm2_ref_lhs_1 (i : Cert.ReferenceIdeal.S100000x32.Idx) (q : Cert.ReferenceIdeal.dot_S100000x64_S64x32_S100000x32_1_0_0_1_n_n.contr.Idx) :
    (Cert.ReferenceIdeal.dot_S100000x64_S64x32_S100000x32_1_0_0_1_n_n.lhsIdx i q 1).val = (q ⟨0, by decide⟩).val :=
  Cert.ReferenceIdeal.dot_S100000x64_S64x32_S100000x32_1_0_0_1_n_n.lhsIdx_val_of_single rfl i q
/-- the right operand's index takes the contracted position as its row … -/
theorem mm2_ref_rhs_0 (i : Cert.ReferenceIdeal.S100000x32.Idx) (q : Cert.ReferenceIdeal.dot_S100000x64_S64x32_S100000x32_1_0_0_1_n_n.contr.Idx) :
    (Cert.ReferenceIdeal.dot_S100000x64_S64x32_S100000x32_1_0_0_1_n_n.rhsIdx i q 0).val = (q ⟨0, by decide⟩).val :=
  Cert.ReferenceIdeal.dot_S100000x64_S64x32_S100000x32_1_0_0_1_n_n.rhsIdx_val_of_single rfl i q
/-- … and keeps the result's column. -/
theorem mm2_ref_rhs_1 (i : Cert.ReferenceIdeal.S100000x32.Idx) (q : Cert.ReferenceIdeal.dot_S100000x64_S64x32_S100000x32_1_0_0_1_n_n.contr.Idx) :
    (Cert.ReferenceIdeal.dot_S100000x64_S64x32_S100000x32_1_0_0_1_n_n.rhsIdx i q 1).val = (i 1).val := by
  unfold DotDims.rhsIdx
  rw [dif_neg (show ¬(1 : Fin Cert.ReferenceIdeal.S64x32.rank) ∈ Cert.ReferenceIdeal.dot_S100000x64_S64x32_S100000x32_1_0_0_1_n_n.rhsBatch by decide), dif_pos (show (1 : Fin Cert.ReferenceIdeal.S64x32.rank) ∈ Cert.ReferenceIdeal.dot_S100000x64_S64x32_S100000x32_1_0_0_1_n_n.rhsNonContracting by decide)]
  rfl

/-- Row `i 0` of the left array, at column `k`. -/
abbrev mm2_row (i : S100000x32.Idx) (k : Fin 64) : S100000x64.Idx := fun a => match a with
  | ⟨0, _⟩ => ⟨(i 0).val, (i 0).isLt⟩
  | ⟨1, _⟩ => ⟨k.val, k.isLt⟩
/-- Column `i 1` of the right array, at row `k`. -/
abbrev mm2_col (i : S100000x32.Idx) (k : Fin 64) : S64x32.Idx := fun a => match a with
  | ⟨0, _⟩ => ⟨k.val, k.isLt⟩
  | ⟨1, _⟩ => ⟨(i 1).val, (i 1).isLt⟩

/-- The whole-array product at `i` is the sum over `k` of row `i 0` times column `i 1`: the contraction's one-axis
    index set is re-indexed by `Fin 64`. -/
theorem mm2_ref_apply (x0 : Vec Ideal S100000x64 .f32) (x3 : Vec Ideal S64x32 .f32) (i : S100000x32.Idx) :
    Cert.ReferenceIdeal.Stages.proj2 (F := Ideal) x0 x3 i = ∑ k : Fin 64, x0 (mm2_row i k) * x3 (mm2_col i k) := by
  unfold Cert.ReferenceIdeal.Stages.proj2
  simp only [Host.dotGeneral]
  rw [Ideal.dotGeneral_apply, ← Equiv.sum_comp (ValueIdx.contrEquiv1 Cert.ReferenceIdeal.dot_S100000x64_S64x32_S100000x32_1_0_0_1_n_n 64 rfl rfl).symm]
  refine Finset.sum_congr rfl fun k _ => ?_
  have hk := ValueIdx.contrEquiv1_symm_val Cert.ReferenceIdeal.dot_S100000x64_S64x32_S100000x32_1_0_0_1_n_n 64 rfl rfl k
  have el : Cert.ReferenceIdeal.dot_S100000x64_S64x32_S100000x32_1_0_0_1_n_n.lhsIdx i ((ValueIdx.contrEquiv1 Cert.ReferenceIdeal.dot_S100000x64_S64x32_S100000x32_1_0_0_1_n_n 64 rfl rfl).symm k) = mm2_row i k := funext fun a => Fin.ext (by
    match a with
    | ⟨0, _⟩ => exact mm2_ref_lhs_0 _ _
    | ⟨1, _⟩ => exact (mm2_ref_lhs_1 _ _).trans hk)
  have er : Cert.ReferenceIdeal.dot_S100000x64_S64x32_S100000x32_1_0_0_1_n_n.rhsIdx i ((ValueIdx.contrEquiv1 Cert.ReferenceIdeal.dot_S100000x64_S64x32_S100000x32_1_0_0_1_n_n 64 rfl rfl).symm k) = mm2_col i k := funext fun a => Fin.ext (by
    match a with
    | ⟨0, _⟩ => exact (mm2_ref_rhs_0 _ _).trans hk
    | ⟨1, _⟩ => exact mm2_ref_rhs_1 _ _)
  rw [el, er]

/-! ## The block product of the body, at an index -/

/-- The same four coordinate facts for the block product's index maps. -/
theorem mm2_ker_lhs_0 (i : S2000x32.Idx) (q : dot_S2000x64_S64x32_S2000x32_1_0_0_1_n_n.contr.Idx) :
    (dot_S2000x64_S64x32_S2000x32_1_0_0_1_n_n.lhsIdx i q 0).val = (i 0).val := by
  unfold DotDims.lhsIdx
  rw [dif_neg (show ¬(0 : Fin S2000x64.rank) ∈ dot_S2000x64_S64x32_S2000x32_1_0_0_1_n_n.lhsBatch by decide), dif_pos (show (0 : Fin S2000x64.rank) ∈ dot_S2000x64_S64x32_S2000x32_1_0_0_1_n_n.lhsNonContracting by decide)]
  rfl
theorem mm2_ker_lhs_1 (i : S2000x32.Idx) (q : dot_S2000x64_S64x32_S2000x32_1_0_0_1_n_n.contr.Idx) :
    (dot_S2000x64_S64x32_S2000x32_1_0_0_1_n_n.lhsIdx i q 1).val = (q ⟨0, by decide⟩).val :=
  dot_S2000x64_S64x32_S2000x32_1_0_0_1_n_n.lhsIdx_val_of_single rfl i q
theorem mm2_ker_rhs_0 (i : S2000x32.Idx) (q : dot_S2000x64_S64x32_S2000x32_1_0_0_1_n_n.contr.Idx) :
    (dot_S2000x64_S64x32_S2000x32_1_0_0_1_n_n.rhsIdx i q 0).val = (q ⟨0, by decide⟩).val :=
  dot_S2000x64_S64x32_S2000x32_1_0_0_1_n_n.rhsIdx_val_of_single rfl i q
theorem mm2_ker_rhs_1 (i : S2000x32.Idx) (q : dot_S2000x64_S64x32_S2000x32_1_0_0_1_n_n.contr.Idx) :
    (dot_S2000x64_S64x32_S2000x32_1_0_0_1_n_n.rhsIdx i q 1).val = (i 1).val := by
  unfold DotDims.rhsIdx
  rw [dif_neg (show ¬(1 : Fin S64x32.rank) ∈ dot_S2000x64_S64x32_S2000x32_1_0_0_1_n_n.rhsBatch by decide), dif_pos (show (1 : Fin S64x32.rank) ∈ dot_S2000x64_S64x32_S2000x32_1_0_0_1_n_n.rhsNonContracting by decide)]
  rfl

/-- Row `j 0` of the left block, at column `k`. -/
abbrev mm2_brow (j : S2000x32.Idx) (k : Fin 64) : S2000x64.Idx := fun a => match a with
  | ⟨0, _⟩ => ⟨(j 0).val, (j 0).isLt⟩
  | ⟨1, _⟩ => ⟨k.val, k.isLt⟩
/-- Column `j 1` of the right operand, at row `k`. -/
abbrev mm2_bcol (j : S2000x32.Idx) (k : Fin 64) : S64x32.Idx := fun a => match a with
  | ⟨0, _⟩ => ⟨k.val, k.isLt⟩
  | ⟨1, _⟩ => ⟨(j 1).val, (j 1).isLt⟩

/-- The body's stored value at `j`: a product accumulated onto the zero array is the bare sum over `k`; the
    cast of the left block to its own shape is the identity. -/
theorem mm2_ker_apply (x0 : Vec Ideal S2000x64 .f32) (x1 : Vec Ideal S64x32 .f32) (j : S2000x32.Idx) :
    k2_pay1 x0 x1 j = ∑ k : Fin 64, x0 (mm2_brow j k) * x1 (mm2_bcol j k) := by
  unfold k2_pay1
  simp only [shapeCast_self]
  refine (Ideal.matmul_constant_zero_apply dot_S2000x64_S64x32_S2000x32_1_0_0_1_n_n none x0 x1 j).trans ?_
  rw [← Equiv.sum_comp (ValueIdx.contrEquiv1 dot_S2000x64_S64x32_S2000x32_1_0_0_1_n_n 64 rfl rfl).symm]
  refine Finset.sum_congr rfl fun k _ => ?_
  have hk := ValueIdx.contrEquiv1_symm_val dot_S2000x64_S64x32_S2000x32_1_0_0_1_n_n 64 rfl rfl k
  have el : dot_S2000x64_S64x32_S2000x32_1_0_0_1_n_n.lhsIdx j ((ValueIdx.contrEquiv1 dot_S2000x64_S64x32_S2000x32_1_0_0_1_n_n 64 rfl rfl).symm k) = mm2_brow j k := funext fun a => Fin.ext (by
    match a with
    | ⟨0, _⟩ => exact mm2_ker_lhs_0 _ _
    | ⟨1, _⟩ => exact (mm2_ker_lhs_1 _ _).trans hk)
  have er : dot_S2000x64_S64x32_S2000x32_1_0_0_1_n_n.rhsIdx j ((ValueIdx.contrEquiv1 dot_S2000x64_S64x32_S2000x32_1_0_0_1_n_n 64 rfl rfl).symm k) = mm2_bcol j k := funext fun a => Fin.ext (by
    match a with
    | ⟨0, _⟩ => exact (mm2_ker_rhs_0 _ _).trans hk
    | ⟨1, _⟩ => exact mm2_ker_rhs_1 _ _)
  rw [el, er]

/-! ## From the blocks to the array -/

theorem mm2_off_zero : (![0, 0] : Fin 2 → Nat) = fun _ => 0 :=
  funext fun a => by match a with | ⟨0, _⟩ => rfl | ⟨1, _⟩ => rfl

/-- What point `t` writes back is block `t` of the whole product. At local index `j` both sides are sums over `k`;
    term by term, element `(j 0, k)` of the left block is element `(2000·t + j 0, k)` of the left array, and the right
    block is the right array itself. -/
theorem mm2_flushed (c : Dev nD) (t : Fin cfg2.N) :
    (dat2 V c).flushed 2 t = ((cfg2.win 2).blk t).view.read (Elt Ideal)
      (Cert.ReferenceIdeal.Stages.proj2 (F := Ideal) (V c main_v47) (V c main_arg5)) := by
  show (cfg2.win 2).cut (grid2.coords t) ((dat2 V c).after 2 t) = _
  rw [after2_2]
  unfold out2_2
  rw [View.canon_unit_zero mm2_off_zero]
  simp only [View.ld_unit_zero (S := S2000x64) mm2_off_zero, View.ld_unit_zero (S := S64x32) mm2_off_zero]
  obtain ⟨e0, e1, e2, e3, e4, e5⟩ := mm2_index t
  funext j
  show k2_pay1 (iblk2 V c 0 t) (iblk2 V c 1 t) j
    = Cert.ReferenceIdeal.Stages.proj2 (F := Ideal) (V c main_v47) (V c main_arg5) (((cfg2.win 2).blk t).view.emb j)
  refine (mm2_ker_apply (iblk2 V c 0 t) (iblk2 V c 1 t) j).trans ?_
  refine Eq.trans ?_ (mm2_ref_apply (V c main_v47) (V c main_arg5) (((cfg2.win 2).blk t).view.emb j)).symm
  refine Finset.sum_congr rfl fun k _ => ?_
  have hl : iblk2 V c 0 t (mm2_brow j k) = V c main_v47 (mm2_row (((cfg2.win 2).blk t).view.emb j) k) := by
    show V c main_v47 (((cfg2.win 0).blk t).view.emb (mm2_brow j k)) = _
    refine congrArg _ (funext fun a => Fin.ext ?_)
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 64 + 1 * k.val = k.val; omega
  have hr : iblk2 V c 1 t (mm2_bcol j k) = V c main_arg5 (mm2_col (((cfg2.win 2).blk t).view.emb j) k) := by
    show V c main_arg5 (((cfg2.win 1).blk t).view.emb (mm2_bcol j k)) = _
    refine congrArg _ (funext fun a => Fin.ext ?_)
    match a with
    | ⟨0, _⟩ => show win2_1.index t (0 : Fin 2) * 64 + 1 * k.val = k.val; omega
    | ⟨1, _⟩ => show win2_1.index t (1 : Fin 2) * 32 + 1 * (j 1).val = win2_2.index t (1 : Fin 2) * 32 + 1 * (j 1).val; omega
  rw [hl, hr]

/-- An index of the result lies in the block of point `t` iff on each axis its coordinate is within that block's
    range. -/
theorem mm2_mem_blk (t : Fin cfg2.N) (i : S100000x32.Idx) :
    i ∈ ((cfg2.win 2).blk t).view.set ↔ ∀ a : Fin 2, win2_2.index t a * S2000x32.size a ≤ (i a).val ∧ (i a).val < win2_2.index t a * S2000x32.size a + S2000x32.size a := by
  show i ∈ ((View.whole main_v48).slice (win2_2.rect t)).set ↔ _
  rw [View.set_slice_whole, Rect.mem_set_unit]
  exact Iff.rfl

/-- Row `r` lies in the block of point `r / 2000`, and every point writes its block back. -/
theorem mm2_cover (i : S100000x32.Idx) :
    ∃ t : Fin cfg2.N, (cfg2.win 2).flush t = true ∧ i ∈ ((cfg2.win 2).blk t).view.set := by
  have hN : cfg2.N = 50 := N_2
  have h0 : (i 0).val < 100000 := (i 0).isLt
  have h1 : (i 1).val < 32 := (i 1).isLt
  obtain ⟨t, ht⟩ : ∃ t : Fin cfg2.N, t.val = (i 0).val / 2000 := ⟨⟨(i 0).val / 2000, by rw [hN]; omega⟩, rfl⟩
  obtain ⟨e0, e1, e2, e3, e4, e5⟩ := mm2_index t
  refine ⟨t, flush2_2 t, ?_⟩
  rw [mm2_mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 32 ≤ (i 1).val ∧ (i 1).val < win2_2.index t (1 : Fin 2) * 32 + 32; omega

/-- The result array after the region is the product of the two input arrays as the region found them. -/
theorem final2 (c : Dev nD) : (dat2 V c).arrAt 2 cfg2.N = Cert.ReferenceIdeal.Stages.proj2 (F := Ideal) (V c main_v47) (V c main_arg5) :=
  (dat2 V c).arrAt_eq_of_cover 2 _ (fun t _ => mm2_flushed V c t) mm2_cover

end Cert.KernelIdeal.Hand

end
-- ==== Proof.KI.V3.lean ====
import proofs.«409944_j24326694765162_4_alg».proof.Proof.KI.R3
import proofs.«409944_j24326694765162_4_alg».proof.Proof.Gen.ReferenceIdeal
import proofs.«409944_j24326694765162_4_alg».proof.Proof.KI.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! # Region 3 as a whole array: agg + bias row

The region's output array is assembled from the fifty row blocks its grid points write back. Each block is the
payload of the point's two input blocks; read at one element, the payload is the sum of the row block's element and
the bias row's element of the same column, and so is the reference's stage function at the element of the array the
block's element lands on. -/

/-- The zero offsets of a whole-buffer rectangle, as the constant function. -/
theorem zero_off3 : (![0, 0] : Fin 2 → Nat) = fun _ => 0 := funext fun a => by fin_cases a <;> rfl

/-- The payload at row p, column q of the block: x0(p, q) + row(0, q). The two shape casts are to the same shapes;
    the row is broadcast along the unit axis. -/
theorem pay3_apply (x0 : Vec Ideal S2000x32 .f32) (x1 : Vec Ideal S1x32 .f32) (p : Fin 2000) (q : Fin 32) :
    k3_pay1 x0 x1 (ix2 p q) = x0 (ix2 p q) + x1 (ix2 (0 : Fin 1) q) := by
  unfold k3_pay1
  rw [shapeCast_self, shapeCast_self]
  rw [addf_apply]
  rw [broadcastTo_apply x1 broadcasts_S1x32_S2000x32 (ix2 p q) (ix2 (0 : Fin 1) q) (fun a => match a with
    | ⟨0, _⟩ => by show 0 = if (1 : Nat) = 1 then 0 else _; rw [if_pos rfl]
    | ⟨1, _⟩ => by show q.val = if (32 : Nat) = 1 then 0 else q.val; rw [if_neg (by decide)])]

/-- The reference's stage at row r, column q of the array: agg(r, q) + b(q). The bias is broadcast twice, first to
    a row, then along the rows. -/
theorem act2_apply (agg : (⟨Cert.ReferenceIdeal.S100000x32, .f32⟩ : BufTy).Contents (Elt Ideal))
    (x6 : (⟨Cert.ReferenceIdeal.S32, .f32⟩ : BufTy).Contents (Elt Ideal)) (r : Fin 100000) (q : Fin 32) :
    Cert.ReferenceIdeal.Stages.act2 (F := Ideal) agg x6 (ix2 r q) = agg (ix2 r q) + x6 (ix1 q) := by
  unfold Cert.ReferenceIdeal.Stages.act2
  rw [addf_apply]
  rw [broadcastInDim_apply _ _ _ (ix2 r q) (ix2 (0 : Fin 1) q) (fun a => match a with
      | ⟨0, _⟩ => by show 0 = if (1 : Nat) = 1 then 0 else _; rw [if_pos rfl]
      | ⟨1, _⟩ => by show q.val = if (32 : Nat) = 1 then 0 else q.val; rw [if_neg (by decide)]),
    broadcastInDim_apply _ _ x6 (ix2 (0 : Fin 1) q) (ix1 q) (fun a => match a with
      | ⟨0, _⟩ => by show q.val = if (32 : Nat) = 1 then 0 else q.val; rw [if_neg (by decide)])]

/-- One element: where the block's element is the array's and the row's element is the bias's, the payload is the
    reference's stage. -/
theorem point3 (x0 : Vec Ideal S2000x32 .f32) (x1 : Vec Ideal S1x32 .f32)
    (agg : (⟨Cert.ReferenceIdeal.S100000x32, .f32⟩ : BufTy).Contents (Elt Ideal))
    (x6 : (⟨Cert.ReferenceIdeal.S32, .f32⟩ : BufTy).Contents (Elt Ideal)) (p : Fin 2000) (q : Fin 32) (r : Fin 100000)
    (h0 : x0 (ix2 p q) = agg (ix2 r q)) (h1 : x1 (ix2 (0 : Fin 1) q) = x6 (ix1 q)) :
    k3_pay1 x0 x1 (ix2 p q) = Cert.ReferenceIdeal.Stages.act2 (F := Ideal) agg x6 (ix2 r q) := by
  rw [pay3_apply, act2_apply, h0, h1]

/-- The printed index maps over the grid: the row-block windows are at block (t, 0), the bias row at block (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point t writes back is block t of the reference's stage of the input array: the block's element
    (p, q) lands on the array's element (2000·t + p, q), where the first input block's element (p, q) also sits,
    and the bias row's block is the whole row. -/
theorem flushed3_eq (c : Dev nD) (x6 : (⟨Cert.ReferenceIdeal.S32, .f32⟩ : BufTy).Contents (Elt Ideal))
    (hb : ∀ j : Fin 32, (V c main_v62 : Vec Ideal S1x32 .f32) (ix2 (0 : Fin 1) j) = x6 (ix1 j)) (t : Fin cfg3.N) :
    (dat3 V c).flushed 2 t
      = ((cfg3.win 2).blk t).view.read (Elt Ideal) (Cert.ReferenceIdeal.Stages.act2 (F := Ideal) (V c main_v61) x6) := by
  show (cfg3.win 2).cut (grid3.coords t) ((dat3 V c).after 2 t) = _
  rw [after3_2]
  unfold out3_2
  rw [View.canon_unit_zero zero_off3]
  simp only [View.ld_unit_zero (S := S2000x32) zero_off3, View.ld_unit_zero (S := S1x32) zero_off3]
  obtain ⟨e00, e01, e10, e11, e20, e21⟩ := idx_facts3 t
  have hN : t.val < 50 := Nat.lt_of_lt_of_eq t.isLt N_3
  funext j
  obtain ⟨p, q, rfl⟩ : ∃ (p : Fin 2000) (q : Fin 32), j = ix2 p q := ⟨j 0, j 1, eq_ix2 j⟩
  have hp : p.val < 2000 := p.isLt
  have hr : 2000 * t.val + p.val < 100000 := by omega
  have hemb : ((cfg3.win 2).blk t).view.emb (ix2 p q) = ix2 (⟨2000 * t.val + p.val, hr⟩ : Fin 100000) q := by
    funext a; apply Fin.ext
    match a with
    | ⟨0, _⟩ => show win3_2.index t (0 : Fin 2) * 2000 + 1 * p.val = 2000 * t.val + p.val; omega
    | ⟨1, _⟩ => show win3_2.index t (1 : Fin 2) * 32 + 1 * q.val = q.val; omega
  show k3_pay1 (iblk3 V c 0 t) (iblk3 V c 1 t) (ix2 p q)
    = Cert.ReferenceIdeal.Stages.act2 (F := Ideal) (V c main_v61) x6 (((cfg3.win 2).blk t).view.emb (ix2 p q))
  rw [hemb]
  refine point3 _ _ _ _ p q _ ?_ ?_
  · show V c main_v61 (((cfg3.win 0).blk t).view.emb (ix2 p q)) = V c main_v61 (ix2 (⟨2000 * t.val + p.val, hr⟩ : Fin 100000) q)
    refine congrArg _ ?_
    funext a; apply Fin.ext
    match a with
    | ⟨0, _⟩ => show win3_0.index t (0 : Fin 2) * 2000 + 1 * p.val = 2000 * t.val + p.val; omega
    | ⟨1, _⟩ => show win3_0.index t (1 : Fin 2) * 32 + 1 * q.val = q.val; omega
  · show V c main_v62 (((cfg3.win 1).blk t).view.emb (ix2 (0 : Fin 1) q)) = x6 (ix1 q)
    rw [← hb q]
    refine congrArg _ ?_
    funext a; apply Fin.ext
    match a with
    | ⟨0, _⟩ => show win3_1.index t (0 : Fin 2) * 1 + 1 * 0 = 0; omega
    | ⟨1, _⟩ => show win3_1.index t (1 : Fin 2) * 32 + 1 * q.val = q.val; omega

/-- An index of the array lies in point t's block iff each coordinate lies in the block's range on its axis. -/
theorem mem_blk3 (t : Fin cfg3.N) (i : S100000x32.Idx) :
    i ∈ ((cfg3.win 2).blk t).view.set ↔ ∀ a : Fin 2, win3_2.index t a * S2000x32.size a ≤ (i a).val
      ∧ (i a).val < win3_2.index t a * S2000x32.size a + S2000x32.size a := by
  show i ∈ ((View.whole main_v63).slice (win3_2.rect t)).set ↔ _
  rw [View.set_slice_whole, Rect.mem_set_unit]
  exact Iff.rfl

/-- Every index of the array is in some point's block: row r is in the block of point r / 2000. -/
theorem covered3 (i : S100000x32.Idx) :
    ∃ t : Fin cfg3.N, (cfg3.win 2).flush t = true ∧ i ∈ ((cfg3.win 2).blk t).view.set := by
  have hi0 : (i 0).val < 100000 := (i 0).isLt
  have hi1 : (i 1).val < 32 := (i 1).isLt
  obtain ⟨t, ht⟩ : ∃ t : Fin cfg3.N, t.val = (i 0).val / 2000 :=
    ⟨⟨(i 0).val / 2000, by rw [show cfg3.N = 50 from N_3]; omega⟩, rfl⟩
  obtain ⟨-, -, -, -, e20, e21⟩ := idx_facts3 t
  refine ⟨t, flush3_2 t, ?_⟩
  rw [mem_blk3]
  intro a
  match a with
  | ⟨0, _⟩ =>
    show win3_2.index t (0 : Fin 2) * 2000 ≤ (i 0).val ∧ (i 0).val < win3_2.index t (0 : Fin 2) * 2000 + 2000
    omega
  | ⟨1, _⟩ =>
    show win3_2.index t (1 : Fin 2) * 32 ≤ (i 1).val ∧ (i 1).val < win3_2.index t (1 : Fin 2) * 32 + 32
    omega

/-- The output array after the region is the reference's bias stage of the region's input array and the bias the
    row holds. -/
theorem final3 (c : Dev nD) (x6 : (⟨Cert.ReferenceIdeal.S32, .f32⟩ : BufTy).Contents (Elt Ideal))
    (hb : ∀ j : Fin 32, (V c main_v62 : Vec Ideal S1x32 .f32) (ix2 (0 : Fin 1) j) = x6 (ix1 j)) :
    (dat3 V c).arrAt 2 cfg3.N = Cert.ReferenceIdeal.Stages.act2 (F := Ideal) (V c main_v61) x6 :=
  (dat3 V c).arrAt_eq_of_cover 2 _ (fun t _ => flushed3_eq V c x6 hb t) covered3

end Cert.KernelIdeal.Hand

end
-- ==== Proof.KI.R4Pieces.lean ====
import proofs.«409944_j24326694765162_4_alg».proof.Proof.KI.R4
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The pieces the runs found, opened into the skeleton's payloads -/

/-- The whole-buffer rectangle's offset is zero on both axes. -/
theorem hz4 : (![0, 0] : Fin 2 → Nat) = fun _ => 0 := funext fun a => by fin_cases a <;> rfl

/-- At the first point the running sum ends at the update of the reset value: the later store covers, and its payload read the reset back. -/
theorem sout4_A_0_eq (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : cond4_0 i) (hc1 : ¬cond4_1 i)
    (x0 : Vec F S2000x32 .f32) (x1 : Vec F S2000x1 .i32) (x2 : Vec F S32x32 .f32) (x3 : Vec F S32x1 .f32) (x4 : Vec F S32x32 .f32) (x5 : Vec F S32x1 .f32) :
    sout4_A_0 c i arg1 harg1 arg2 harg2 arg3 harg3 arg4 harg4 arg5 harg5 arg6 harg6 arg7 harg7 arg8 harg8 arg9 harg9 hc0 hc1 x0 x1 x2 x3 x4 x5 = k4_pay4 x0 x1 (k4_pay1 (F := F)) := by
  unfold sout4_A_0
  rw [View.read_writes_eq_canon _ _ _ (scover4_A_0 c i arg1 harg1 arg2 harg2 arg3 harg3 arg4 harg4 arg5 harg5 arg6 harg6 arg7 harg7 arg8 harg8 arg9 harg9 hc0 hc1 x0 x1 x2 x3 x4 x5)]
  unfold kernelRun4_A
  dsimp only
  sl_unfold_words
  rw [View.canon_cons_unit_zero (S := S32x512) hz4]
  simp only [View.readAt_eq_ld, harg1.read_unread, harg2.read_unread, harg3.read_unread, harg4.read_unread, harg5.read_unread, harg6.read_unread, harg8.read_unread, harg9.read_unread, View.ld_unit_zero (S := S2000x32) hz4, View.ld_unit_zero (S := S2000x1) hz4, View.ld_unit_zero (S := S32x32) hz4, View.ld_unit_zero (S := S32x1) hz4, View.ld_unit_zero (S := S32x512) hz4, View.ld_unit_zero (S := S1x512) hz4, View.readCov_unit_zero (S := S32x512) _ hz4, View.readCov_unit_zero (S := S1x512) _ hz4]

/-- At the first point the running count ends at the update of the reset value. -/
theorem sout4_A_1_eq (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : cond4_0 i) (hc1 : ¬cond4_1 i)
    (x0 : Vec F S2000x32 .f32) (x1 : Vec F S2000x1 .i32) (x2 : Vec F S32x32 .f32) (x3 : Vec F S32x1 .f32) (x4 : Vec F S32x32 .f32) (x5 : Vec F S32x1 .f32) :
    sout4_A_1 c i arg1 harg1 arg2 harg2 arg3 harg3 arg4 harg4 arg5 harg5 arg6 harg6 arg7 harg7 arg8 harg8 arg9 harg9 hc0 hc1 x0 x1 x2 x3 x4 x5 = k4_pay5 x1 (k4_pay2 (F := F)) := by
  unfold sout4_A_1
  rw [View.read_writes_eq_canon _ _ _ (scover4_A_1 c i arg1 harg1 arg2 harg2 arg3 harg3 arg4 harg4 arg5 harg5 arg6 harg6 arg7 harg7 arg8 harg8 arg9 harg9 hc0 hc1 x0 x1 x2 x3 x4 x5)]
  unfold kernelRun4_A
  dsimp only
  sl_unfold_words
  rw [View.canon_cons_unit_zero (S := S1x512) hz4]
  simp only [View.readAt_eq_ld, harg1.read_unread, harg2.read_unread, harg3.read_unread, harg4.read_unread, harg5.read_unread, harg6.read_unread, harg8.read_unread, harg9.read_unread, View.ld_unit_zero (S := S2000x32) hz4, View.ld_unit_zero (S := S2000x1) hz4, View.ld_unit_zero (S := S32x32) hz4, View.ld_unit_zero (S := S32x1) hz4, View.ld_unit_zero (S := S32x512) hz4, View.ld_unit_zero (S := S1x512) hz4, View.readCov_unit_zero (S := S32x512) _ hz4, View.readCov_unit_zero (S := S1x512) _ hz4]

/-- At a middle point the running sum ends at the update of what it came in with. -/
theorem sout4_B_0_eq (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : ¬cond4_0 i) (hc1 : ¬cond4_1 i)
    (x0 : Vec F S2000x32 .f32) (x1 : Vec F S2000x1 .i32) (x2 : Vec F S32x32 .f32) (x3 : Vec F S32x1 .f32) (x4 : Vec F S32x32 .f32) (x5 : Vec F S32x1 .f32) (xs0 : Vec F S32x512 .f32) (xs1 : Vec F S1x512 .f32) :
    sout4_B_0 c i arg1 harg1 arg2 harg2 arg3 harg3 arg4 harg4 arg5 harg5 arg6 harg6 arg7 harg7 arg8 harg8 arg9 harg9 hc0 hc1 x0 x1 x2 x3 x4 x5 xs0 xs1 = k4_pay4 x0 x1 xs0 := by
  unfold sout4_B_0
  rw [View.read_writes_eq_canon _ _ _ (scover4_B_0 c i arg1 harg1 arg2 harg2 arg3 harg3 arg4 harg4 arg5 harg5 arg6 harg6 arg7 harg7 arg8 harg8 arg9 harg9 hc0 hc1 x0 x1 x2 x3 x4 x5 xs0 xs1)]
  unfold kernelRun4_B
  dsimp only
  sl_unfold_words
  rw [View.canon_unit_zero hz4]
  simp only [View.readAt_eq_ld, harg1.read_unread, harg2.read_unread, harg3.read_unread, harg4.read_unread, harg5.read_unread, harg6.read_unread, harg8.read_unread, harg9.read_unread, View.ld_unit_zero (S := S2000x32) hz4, View.ld_unit_zero (S := S2000x1) hz4, View.ld_unit_zero (S := S32x32) hz4, View.ld_unit_zero (S := S32x1) hz4, View.ld_unit_zero (S := S32x512) hz4, View.ld_unit_zero (S := S1x512) hz4, View.readCov_unit_zero (S := S32x512) _ hz4, View.readCov_unit_zero (S := S1x512) _ hz4]

/-- At a middle point the running count ends at the update of what it came in with. -/
theorem sout4_B_1_eq (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : ¬cond4_0 i) (hc1 : ¬cond4_1 i)
    (x0 : Vec F S2000x32 .f32) (x1 : Vec F S2000x1 .i32) (x2 : Vec F S32x32 .f32) (x3 : Vec F S32x1 .f32) (x4 : Vec F S32x32 .f32) (x5 : Vec F S32x1 .f32) (xs0 : Vec F S32x512 .f32) (xs1 : Vec F S1x512 .f32) :
    sout4_B_1 c i arg1 harg1 arg2 harg2 arg3 harg3 arg4 harg4 arg5 harg5 arg6 harg6 arg7 harg7 arg8 harg8 arg9 harg9 hc0 hc1 x0 x1 x2 x3 x4 x5 xs0 xs1 = k4_pay5 x1 xs1 := by
  unfold sout4_B_1
  rw [View.read_writes_eq_canon _ _ _ (scover4_B_1 c i arg1 harg1 arg2 harg2 arg3 harg3 arg4 harg4 arg5 harg5 arg6 harg6 arg7 harg7 arg8 harg8 arg9 harg9 hc0 hc1 x0 x1 x2 x3 x4 x5 xs0 xs1)]
  unfold kernelRun4_B
  dsimp only
  sl_unfold_words
  rw [View.canon_unit_zero hz4]
  simp only [View.readAt_eq_ld, harg1.read_unread, harg2.read_unread, harg3.read_unread, harg4.read_unread, harg5.read_unread, harg6.read_unread, harg8.read_unread, harg9.read_unread, View.ld_unit_zero (S := S2000x32) hz4, View.ld_unit_zero (S := S2000x1) hz4, View.ld_unit_zero (S := S32x32) hz4, View.ld_unit_zero (S := S32x1) hz4, View.ld_unit_zero (S := S32x512) hz4, View.ld_unit_zero (S := S1x512) hz4, View.readCov_unit_zero (S := S32x512) _ hz4, View.readCov_unit_zero (S := S1x512) _ hz4]

/-- At the last point the running sum ends at the update of what it came in with. -/
theorem sout4_C_0_eq (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : ¬cond4_0 i) (hc1 : cond4_1 i)
    (x0 : Vec F S2000x32 .f32) (x1 : Vec F S2000x1 .i32) (x2 : Vec F S32x32 .f32) (x3 : Vec F S32x1 .f32) (x4 : Vec F S32x32 .f32) (x5 : Vec F S32x1 .f32) (xs0 : Vec F S32x512 .f32) (xs1 : Vec F S1x512 .f32) :
    sout4_C_0 c i arg1 harg1 arg2 harg2 arg3 harg3 arg4 harg4 arg5 harg5 arg6 harg6 arg7 harg7 arg8 harg8 arg9 harg9 hc0 hc1 x0 x1 x2 x3 x4 x5 xs0 xs1 = k4_pay4 x0 x1 xs0 := by
  unfold sout4_C_0
  rw [View.read_writes_eq_canon _ _ _ (scover4_C_0 c i arg1 harg1 arg2 harg2 arg3 harg3 arg4 harg4 arg5 harg5 arg6 harg6 arg7 harg7 arg8 harg8 arg9 harg9 hc0 hc1 x0 x1 x2 x3 x4 x5 xs0 xs1)]
  unfold kernelRun4_C
  dsimp only
  sl_unfold_words
  rw [View.canon_unit_zero hz4]
  simp only [View.readAt_eq_ld, harg1.read_unread, harg2.read_unread, harg3.read_unread, harg4.read_unread, harg5.read_unread, harg6.read_unread, harg8.read_unread, harg9.read_unread, View.ld_unit_zero (S := S2000x32) hz4, View.ld_unit_zero (S := S2000x1) hz4, View.ld_unit_zero (S := S32x32) hz4, View.ld_unit_zero (S := S32x1) hz4, View.ld_unit_zero (S := S32x512) hz4, View.ld_unit_zero (S := S1x512) hz4, View.readCov_unit_zero (S := S32x512) _ hz4, View.readCov_unit_zero (S := S1x512) _ hz4]

/-- At the last point the running count ends at the update of what it came in with. -/
theorem sout4_C_1_eq (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : ¬cond4_0 i) (hc1 : cond4_1 i)
    (x0 : Vec F S2000x32 .f32) (x1 : Vec F S2000x1 .i32) (x2 : Vec F S32x32 .f32) (x3 : Vec F S32x1 .f32) (x4 : Vec F S32x32 .f32) (x5 : Vec F S32x1 .f32) (xs0 : Vec F S32x512 .f32) (xs1 : Vec F S1x512 .f32) :
    sout4_C_1 c i arg1 harg1 arg2 harg2 arg3 harg3 arg4 harg4 arg5 harg5 arg6 harg6 arg7 harg7 arg8 harg8 arg9 harg9 hc0 hc1 x0 x1 x2 x3 x4 x5 xs0 xs1 = k4_pay5 x1 xs1 := by
  unfold sout4_C_1
  rw [View.read_writes_eq_canon _ _ _ (scover4_C_1 c i arg1 harg1 arg2 harg2 arg3 harg3 arg4 harg4 arg5 harg5 arg6 harg6 arg7 harg7 arg8 harg8 arg9 harg9 hc0 hc1 x0 x1 x2 x3 x4 x5 xs0 xs1)]
  unfold kernelRun4_C
  dsimp only
  sl_unfold_words
  rw [View.canon_unit_zero hz4]
  simp only [View.readAt_eq_ld, harg1.read_unread, harg2.read_unread, harg3.read_unread, harg4.read_unread, harg5.read_unread, harg6.read_unread, harg8.read_unread, harg9.read_unread, View.ld_unit_zero (S := S2000x32) hz4, View.ld_unit_zero (S := S2000x1) hz4, View.ld_unit_zero (S := S32x32) hz4, View.ld_unit_zero (S := S32x1) hz4, View.ld_unit_zero (S := S32x512) hz4, View.ld_unit_zero (S := S1x512) hz4, View.readCov_unit_zero (S := S32x512) _ hz4, View.readCov_unit_zero (S := S1x512) _ hz4]

/-- At the last point the output block is the stored value, computed from the two updated scratches (read back) and the four small inputs. -/
theorem out4_C_6_eq (c : Dev nD) (i : grid4.Coords) (arg1 : Memref sig .tc .vmem S2000x32 .f32) (harg1 : arg1.IsWhole) (arg2 : Memref sig .tc .vmem S2000x1 .i32) (harg2 : arg2.IsWhole) (arg3 : Memref sig .tc .vmem S32x32 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x1 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S1x512 .f32) (harg9 : arg9.IsWhole) (hc0 : ¬cond4_0 i) (hc1 : cond4_1 i)
    (x0 : Vec F S2000x32 .f32) (x1 : Vec F S2000x1 .i32) (x2 : Vec F S32x32 .f32) (x3 : Vec F S32x1 .f32) (x4 : Vec F S32x32 .f32) (x5 : Vec F S32x1 .f32) (xs0 : Vec F S32x512 .f32) (xs1 : Vec F S1x512 .f32) :
    out4_C_6 c i arg1 harg1 arg2 harg2 arg3 harg3 arg4 harg4 arg5 harg5 arg6 harg6 arg7 harg7 arg8 harg8 arg9 harg9 hc0 hc1 x0 x1 x2 x3 x4 x5 xs0 xs1 = k4_pay6 (k4_pay4 x0 x1 xs0) (k4_pay5 x1 xs1) x2 x3 x4 x5 := by
  unfold out4_C_6
  rw [View.read_writes_eq_canon _ _ _ (cover4_C_6 c i arg1 harg1 arg2 harg2 arg3 harg3 arg4 harg4 arg5 harg5 arg6 harg6 arg7 harg7 arg8 harg8 arg9 harg9 hc0 hc1 x0 x1 x2 x3 x4 x5 xs0 xs1)]
  unfold kernelRun4_C
  dsimp only
  sl_unfold_words
  rw [View.canon_unit_zero hz4]
  simp only [View.readAt_eq_ld, harg1.read_unread, harg2.read_unread, harg3.read_unread, harg4.read_unread, harg5.read_unread, harg6.read_unread, harg8.read_unread, harg9.read_unread, View.ld_unit_zero (S := S2000x32) hz4, View.ld_unit_zero (S := S2000x1) hz4, View.ld_unit_zero (S := S32x32) hz4, View.ld_unit_zero (S := S32x1) hz4, View.ld_unit_zero (S := S32x512) hz4, View.ld_unit_zero (S := S1x512) hz4, View.readCov_unit_zero (S := S32x512) _ hz4, View.readCov_unit_zero (S := S1x512) _ hz4]

/-! ## The accumulation, case by case, over the skeleton's payloads -/

/-- After the first point the running sum is the update of the reset value by the point's blocks. -/
theorem outsAt4_A_sum (c : Dev nD) (t : Fin cfg4.N) (h0 : t.val = 0) (h1 : ¬t.val = 49) :
    (outsAt4 V c t.val t.isLt).2.1 = k4_pay4 (iblk4 V c 0 t) (iblk4 V c 1 t) (k4_pay1 (F := F)) := by
  rw [outsAt4_A V c t h0 h1]; dsimp only
  exact sout4_A_0_eq (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t)

/-- After the first point the running count is the update of the reset value by the point's batch block. -/
theorem outsAt4_A_cnt (c : Dev nD) (t : Fin cfg4.N) (h0 : t.val = 0) (h1 : ¬t.val = 49) :
    (outsAt4 V c t.val t.isLt).2.2 = k4_pay5 (iblk4 V c 1 t) (k4_pay2 (F := F)) := by
  rw [outsAt4_A V c t h0 h1]; dsimp only
  exact sout4_A_1_eq (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t)

/-! ## The scratches and the output buffer, position by position -/

/-- After the first point the running sum and the running count are the updates, by that point's blocks, of the
    reset values. -/
theorem outsAt4_first (c : Dev nD) (h : 0 < cfg4.N) :
    (outsAt4 V c 0 h).2.1 = k4_pay4 (iblk4 V c 0 ⟨0, h⟩) (iblk4 V c 1 ⟨0, h⟩) (k4_pay1 (F := F))
    ∧ (outsAt4 V c 0 h).2.2 = k4_pay5 (iblk4 V c 1 ⟨0, h⟩) (k4_pay2 (F := F)) :=
  ⟨outsAt4_A_sum V c ⟨0, h⟩ rfl (by decide : ¬(0 : ℕ) = 49), outsAt4_A_cnt V c ⟨0, h⟩ rfl (by decide : ¬(0 : ℕ) = 49)⟩

/-- `outsAt4` at a successor position that is the last point: the defining equation, its test decided. -/
theorem outsAt4_succ_C (c : Dev nD) (n : ℕ) (h : n + 1 < cfg4.N) (h1 : n + 1 = 49) :
    outsAt4 V c (n + 1) h = (out4_C_6 c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (ms4_6 ⟨n + 1, h⟩) (hs4_6 ⟨n + 1, h⟩) scM4_0 (Memref.isWhole_whole _) scM4_1 (Memref.isWhole_whole _) (fun e => Nat.succ_ne_zero n ((hcond4_0 ⟨n + 1, h⟩).mp e)) ((hcond4_1 ⟨n + 1, h⟩).mpr h1) (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (iblk4 V c 5 ⟨n + 1, h⟩) (outsAt4 V c n (Nat.lt_of_succ_lt h)).2.1 (outsAt4 V c n (Nat.lt_of_succ_lt h)).2.2, sout4_C_0 c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (ms4_6 ⟨n + 1, h⟩) (hs4_6 ⟨n + 1, h⟩) scM4_0 (Memref.isWhole_whole _) scM4_1 (Memref.isWhole_whole _) (fun e => Nat.succ_ne_zero n ((hcond4_0 ⟨n + 1, h⟩).mp e)) ((hcond4_1 ⟨n + 1, h⟩).mpr h1) (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (iblk4 V c 5 ⟨n + 1, h⟩) (outsAt4 V c n (Nat.lt_of_succ_lt h)).2.1 (outsAt4 V c n (Nat.lt_of_succ_lt h)).2.2, sout4_C_1 c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (ms4_6 ⟨n + 1, h⟩) (hs4_6 ⟨n + 1, h⟩) scM4_0 (Memref.isWhole_whole _) scM4_1 (Memref.isWhole_whole _) (fun e => Nat.succ_ne_zero n ((hcond4_0 ⟨n + 1, h⟩).mp e)) ((hcond4_1 ⟨n + 1, h⟩).mpr h1) (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (iblk4 V c 5 ⟨n + 1, h⟩) (outsAt4 V c n (Nat.lt_of_succ_lt h)).2.1 (outsAt4 V c n (Nat.lt_of_succ_lt h)).2.2) :=
  (dif_pos h1).trans rfl

/-- `outsAt4` at a successor position that is not the last point. -/
theorem outsAt4_succ_B (c : Dev nD) (n : ℕ) (h : n + 1 < cfg4.N) (h1 : ¬n + 1 = 49) :
    outsAt4 V c (n + 1) h = (out4_B_6 c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (ms4_6 ⟨n + 1, h⟩) (hs4_6 ⟨n + 1, h⟩) scM4_0 (Memref.isWhole_whole _) scM4_1 (Memref.isWhole_whole _) (fun e => Nat.succ_ne_zero n ((hcond4_0 ⟨n + 1, h⟩).mp e)) (fun e => h1 ((hcond4_1 ⟨n + 1, h⟩).mp e)) (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (iblk4 V c 5 ⟨n + 1, h⟩) (outsAt4 V c n (Nat.lt_of_succ_lt h)).2.1 (outsAt4 V c n (Nat.lt_of_succ_lt h)).2.2, sout4_B_0 c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (ms4_6 ⟨n + 1, h⟩) (hs4_6 ⟨n + 1, h⟩) scM4_0 (Memref.isWhole_whole _) scM4_1 (Memref.isWhole_whole _) (fun e => Nat.succ_ne_zero n ((hcond4_0 ⟨n + 1, h⟩).mp e)) (fun e => h1 ((hcond4_1 ⟨n + 1, h⟩).mp e)) (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (iblk4 V c 5 ⟨n + 1, h⟩) (outsAt4 V c n (Nat.lt_of_succ_lt h)).2.1 (outsAt4 V c n (Nat.lt_of_succ_lt h)).2.2, sout4_B_1 c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (ms4_6 ⟨n + 1, h⟩) (hs4_6 ⟨n + 1, h⟩) scM4_0 (Memref.isWhole_whole _) scM4_1 (Memref.isWhole_whole _) (fun e => Nat.succ_ne_zero n ((hcond4_0 ⟨n + 1, h⟩).mp e)) (fun e => h1 ((hcond4_1 ⟨n + 1, h⟩).mp e)) (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (iblk4 V c 5 ⟨n + 1, h⟩) (outsAt4 V c n (Nat.lt_of_succ_lt h)).2.1 (outsAt4 V c n (Nat.lt_of_succ_lt h)).2.2) :=
  (dif_neg h1).trans rfl

/-- After any later point each scratch is the update, by that point's blocks, of what the point before left in it. -/
theorem outsAt4_step (c : Dev nD) (n : ℕ) (h : n + 1 < cfg4.N) :
    (outsAt4 V c (n + 1) h).2.1 = k4_pay4 (iblk4 V c 0 ⟨n + 1, h⟩) (iblk4 V c 1 ⟨n + 1, h⟩) (outsAt4 V c n (Nat.lt_of_succ_lt h)).2.1
    ∧ (outsAt4 V c (n + 1) h).2.2 = k4_pay5 (iblk4 V c 1 ⟨n + 1, h⟩) (outsAt4 V c n (Nat.lt_of_succ_lt h)).2.2 := by
  by_cases h1 : n + 1 = 49
  · rw [outsAt4_succ_C V c n h h1]; dsimp only
    exact ⟨sout4_C_0_eq (F := F) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (ms4_6 ⟨n + 1, h⟩) (hs4_6 ⟨n + 1, h⟩) scM4_0 (Memref.isWhole_whole _) scM4_1 (Memref.isWhole_whole _) (fun e => Nat.succ_ne_zero n ((hcond4_0 ⟨n + 1, h⟩).mp e)) ((hcond4_1 ⟨n + 1, h⟩).mpr h1) (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (iblk4 V c 5 ⟨n + 1, h⟩) (outsAt4 V c n (Nat.lt_of_succ_lt h)).2.1 (outsAt4 V c n (Nat.lt_of_succ_lt h)).2.2,
      sout4_C_1_eq (F := F) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (ms4_6 ⟨n + 1, h⟩) (hs4_6 ⟨n + 1, h⟩) scM4_0 (Memref.isWhole_whole _) scM4_1 (Memref.isWhole_whole _) (fun e => Nat.succ_ne_zero n ((hcond4_0 ⟨n + 1, h⟩).mp e)) ((hcond4_1 ⟨n + 1, h⟩).mpr h1) (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (iblk4 V c 5 ⟨n + 1, h⟩) (outsAt4 V c n (Nat.lt_of_succ_lt h)).2.1 (outsAt4 V c n (Nat.lt_of_succ_lt h)).2.2⟩
  · rw [outsAt4_succ_B V c n h h1]; dsimp only
    exact ⟨sout4_B_0_eq (F := F) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (ms4_6 ⟨n + 1, h⟩) (hs4_6 ⟨n + 1, h⟩) scM4_0 (Memref.isWhole_whole _) scM4_1 (Memref.isWhole_whole _) (fun e => Nat.succ_ne_zero n ((hcond4_0 ⟨n + 1, h⟩).mp e)) (fun e => h1 ((hcond4_1 ⟨n + 1, h⟩).mp e)) (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (iblk4 V c 5 ⟨n + 1, h⟩) (outsAt4 V c n (Nat.lt_of_succ_lt h)).2.1 (outsAt4 V c n (Nat.lt_of_succ_lt h)).2.2,
      sout4_B_1_eq (F := F) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (ms4_6 ⟨n + 1, h⟩) (hs4_6 ⟨n + 1, h⟩) scM4_0 (Memref.isWhole_whole _) scM4_1 (Memref.isWhole_whole _) (fun e => Nat.succ_ne_zero n ((hcond4_0 ⟨n + 1, h⟩).mp e)) (fun e => h1 ((hcond4_1 ⟨n + 1, h⟩).mp e)) (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (iblk4 V c 5 ⟨n + 1, h⟩) (outsAt4 V c n (Nat.lt_of_succ_lt h)).2.1 (outsAt4 V c n (Nat.lt_of_succ_lt h)).2.2⟩

/-- At a successor position that is the last point the output block is the stored value over the two scratches
    as that point left them. -/
theorem outsAt4_succ_out (c : Dev nD) (n : ℕ) (h : n + 1 < cfg4.N) (h1 : n + 1 = 49) :
    (outsAt4 V c (n + 1) h).1 = k4_pay6 (outsAt4 V c (n + 1) h).2.1 (outsAt4 V c (n + 1) h).2.2 (iblk4 V c 2 ⟨n + 1, h⟩) (iblk4 V c 3 ⟨n + 1, h⟩) (iblk4 V c 4 ⟨n + 1, h⟩) (iblk4 V c 5 ⟨n + 1, h⟩) := by
  rw [(outsAt4_step V c n h).1, (outsAt4_step V c n h).2]
  rw [outsAt4_succ_C V c n h h1]; dsimp only
  exact out4_C_6_eq (F := F) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (ms4_6 ⟨n + 1, h⟩) (hs4_6 ⟨n + 1, h⟩) scM4_0 (Memref.isWhole_whole _) scM4_1 (Memref.isWhole_whole _) (fun e => Nat.succ_ne_zero n ((hcond4_0 ⟨n + 1, h⟩).mp e)) ((hcond4_1 ⟨n + 1, h⟩).mpr h1) (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (iblk4 V c 5 ⟨n + 1, h⟩) (outsAt4 V c n (Nat.lt_of_succ_lt h)).2.1 (outsAt4 V c n (Nat.lt_of_succ_lt h)).2.2

/-- After the last point the output block is the stored value over the final running sum and running count and the
    four small inputs' blocks. -/
theorem outsAt4_last (c : Dev nD) (h : 49 < cfg4.N) :
    (outsAt4 V c 49 h).1 = k4_pay6 (outsAt4 V c 49 h).2.1 (outsAt4 V c 49 h).2.2 (iblk4 V c 2 ⟨49, h⟩) (iblk4 V c 3 ⟨49, h⟩) (iblk4 V c 4 ⟨49, h⟩) (iblk4 V c 5 ⟨49, h⟩) := by
  generalize hk : (49 : ℕ) = k at h ⊢
  obtain ⟨n, rfl⟩ : ∃ n, k = n + 1 := ⟨48, hk.symm⟩
  exact outsAt4_succ_out V c n h hk.symm

end Cert.KernelIdeal.Hand

end
-- ==== Proof.KI.PoolDefs.lean ====
/-
  The running sum and running count of the pooling kernel as pure recursions over the grid position: position n
  adds, to what position n - 1 left (zeros before position 0), the contribution of rows 2000·n … 2000·n + 1999 of
  the node features and of the batch column. Stated over the two whole arrays, with the row blocks cut out by
  index arithmetic, so that the recursion can be summed in closed form without the pipeline in sight.
-/
import proofs.«409944_j24326694765162_4_alg».proof.Proof.Gen.KernelIdeal.Skeleton
import Idealize.ShloMosaic.Lib.ValueIdx

noncomputable section

namespace Cert.KernelIdeal.Hand

open Cert.KernelIdeal Cert.KernelIdeal.Gen
open Idealize.ShloMosaic Idealize.ShloMosaic.TcCoe Idealize.SL.Sem Idealize.ShloMosaic.ValueIdx

variable {F : FTy → Type} [FloatOps F]

/-- Row 2000·(n mod 50) + r of a 100000-row array, as a row index. -/
def rowOf (n : ℕ) (r : Fin 2000) : Fin 100000 := ⟨2000 * (n % 50) + r.val, by have := r.isLt; have := Nat.mod_lt n (show 0 < 50 by decide); omega⟩

/-- Rows 2000·n … 2000·n + 1999 of the node features. -/
def rowBlk (h2 : Vec F S100000x32 .f32) (n : ℕ) : Vec F S2000x32 .f32 :=
  fun y => h2 (ix2 (rowOf n ⟨(y 0).val, idx2_lt0 (n0 := 2000) (n1 := 32) y⟩) (⟨(y 1).val, idx2_lt1 (n0 := 2000) (n1 := 32) y⟩ : Fin 32))

/-- The same rows of the batch column. -/
def colBlk (bc : Vec F S100000x1 .i32) (n : ℕ) : Vec F S2000x1 .i32 :=
  fun y => bc (ix2 (rowOf n ⟨(y 0).val, idx2_lt0 (n0 := 2000) (n1 := 1) y⟩) (⟨(y 1).val, idx2_lt1 (n0 := 2000) (n1 := 1) y⟩ : Fin 1))

/-- The running sum after position n. -/
def accS (h2 : Vec F S100000x32 .f32) (bc : Vec F S100000x1 .i32) : ℕ → Vec F S32x512 .f32
  | 0 => k4_pay4 (rowBlk h2 0) (colBlk bc 0) (k4_pay1 (F := F))
  | n + 1 => k4_pay4 (rowBlk h2 (n + 1)) (colBlk bc (n + 1)) (accS h2 bc n)

/-- The running count after position n. -/
def accC (bc : Vec F S100000x1 .i32) : ℕ → Vec F S1x512 .f32
  | 0 => k4_pay5 (colBlk bc 0) (k4_pay2 (F := F))
  | n + 1 => k4_pay5 (colBlk bc (n + 1)) (accC bc n)

/-- One where node n belongs to graph g (its batch word is g), zero elsewhere: the membership weight both the
    one-hot product and the scatter sum reduce to. -/
def hot (bc : Vec Ideal S100000x1 .i32) (n : Fin 100000) (g : Fin 512) : EReal :=
  if bc (ix2 n (0 : Fin 1)) = BitVec.ofNat 32 g.val then 1 else 0

end Cert.KernelIdeal.Hand

end
-- ==== Proof.KI.V4Acc.lean ====
/-
  The pooling kernel's input blocks, running scratches and output as functions of the arrays the region finds.

  Windows 0 and 1 are cut into 50 row blocks of 2000 rows; a block's element (r, k) at grid position t sits in the
  array at row t * 2000 + r, column k, which is row 2000 * (t mod 50) + r for t < 50: the blocks are the row blocks
  of the pure recursion. Windows 2 to 6 take the whole array as their one block (block index (0, 0)), so reading the
  block is reading the array. With the blocks identified, the running sum and running count after position n are the
  recursions accS and accC by induction on n, and the output array, written back only at position 49 through a block
  that covers it, ends as the closing payload of those two after position 49 and of the four small arrays.
-/
import proofs.«409944_j24326694765162_4_alg».proof.Proof.KI.R4Pieces
import proofs.«409944_j24326694765162_4_alg».proof.Proof.KI.PoolDefs
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
open Idealize.ShloMosaic.ValueIdx

/-- The printed index maps of the two row-blocked windows, decided over the grid: block t starts at row block t,
    column block 0. -/
theorem idx_facts4_01 : ∀ t : Fin cfg4.N, win4_0.index t (0 : Fin 2) = t.val ∧ win4_0.index t (1 : Fin 2) = 0
    ∧ win4_1.index t (0 : Fin 2) = t.val ∧ win4_1.index t (1 : Fin 2) = 0 :=
  (by decide +kernel : ∀ t : Fin grid4.N, _)

/-- Window 0's block at position t is rows 2000·t … 2000·t + 1999 of the node features. -/
theorem iblk4_0_eq (c : Dev nD) (t : Fin cfg4.N) : iblk4 V c 0 t = rowBlk (V c main_v63 : Vec F S100000x32 .f32) t.val := by
  obtain ⟨e0, e1, -, -⟩ := idx_facts4_01 t
  have hN : t.val < 50 := lt_of_lt_of_eq t.isLt N_4
  funext y
  unfold iblk4
  rw [View.read_apply]
  show (V c main_v63 : Vec F S100000x32 .f32) (((cfg4.win 0).blk t).view.emb y) = _
  unfold rowBlk
  refine congrArg (V c main_v63 : Vec F S100000x32 .f32) ?_
  funext a
  apply Fin.ext
  match a with
  | ⟨0, _⟩ =>
    show win4_0.index t (0 : Fin 2) * 2000 + 1 * (y 0).val = 2000 * (t.val % 50) + (y 0).val
    rw [e0, Nat.mod_eq_of_lt hN]; omega
  | ⟨1, _⟩ =>
    show win4_0.index t (1 : Fin 2) * 32 + 1 * (y 1).val = (y 1).val
    rw [e1]; omega

/-- Window 1's block at position t is the same rows of the batch column. -/
theorem iblk4_1_eq (c : Dev nD) (t : Fin cfg4.N) : iblk4 V c 1 t = colBlk (V c main_v64 : Vec F S100000x1 .i32) t.val := by
  obtain ⟨-, -, e0, e1⟩ := idx_facts4_01 t
  have hN : t.val < 50 := lt_of_lt_of_eq t.isLt N_4
  funext y
  unfold iblk4
  rw [View.read_apply]
  show (V c main_v64 : Vec F S100000x1 .i32) (((cfg4.win 1).blk t).view.emb y) = _
  unfold colBlk
  refine congrArg (V c main_v64 : Vec F S100000x1 .i32) ?_
  funext a
  apply Fin.ext
  match a with
  | ⟨0, _⟩ =>
    show win4_1.index t (0 : Fin 2) * 2000 + 1 * (y 0).val = 2000 * (t.val % 50) + (y 0).val
    rw [e0, Nat.mod_eq_of_lt hN]; omega
  | ⟨1, _⟩ =>
    show win4_1.index t (1 : Fin 2) * 1 + 1 * (y 1).val = (y 1).val
    rw [e1]; omega

/-- The four small windows and the output window take their whole array as the one block: block index (0, 0) at
    every point. -/
theorem idx_facts4_whole : ∀ t : Fin cfg4.N, (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0) :=
  (by decide +kernel : ∀ t : Fin grid4.N, _)

/-- Window 2's block is its whole array at every position. -/
theorem iblk4_2_eq (c : Dev nD) (t : Fin cfg4.N) : iblk4 V c 2 t = (V c main_v65 : Vec F S32x32 .f32) := by
  obtain ⟨⟨e0, e1⟩, -⟩ := idx_facts4_whole t
  funext y
  unfold iblk4
  rw [View.read_apply]
  show (V c main_v65 : Vec F S32x32 .f32) (((cfg4.win 2).blk t).view.emb y) = (V c main_v65 : Vec F S32x32 .f32) y
  refine congrArg (V c main_v65 : Vec F S32x32 .f32) ?_
  funext a
  apply Fin.ext
  match a with
  | ⟨0, _⟩ => show win4_2.index t (0 : Fin 2) * 32 + 1 * (y 0).val = (y 0).val; rw [e0]; omega
  | ⟨1, _⟩ => show win4_2.index t (1 : Fin 2) * 32 + 1 * (y 1).val = (y 1).val; rw [e1]; omega

/-- Window 3's block is its whole array at every position. -/
theorem iblk4_3_eq (c : Dev nD) (t : Fin cfg4.N) : iblk4 V c 3 t = (V c main_v67 : Vec F S32x1 .f32) := by
  obtain ⟨-, ⟨e0, e1⟩, -⟩ := idx_facts4_whole t
  funext y
  unfold iblk4
  rw [View.read_apply]
  show (V c main_v67 : Vec F S32x1 .f32) (((cfg4.win 3).blk t).view.emb y) = (V c main_v67 : Vec F S32x1 .f32) y
  refine congrArg (V c main_v67 : Vec F S32x1 .f32) ?_
  funext a
  apply Fin.ext
  match a with
  | ⟨0, _⟩ => show win4_3.index t (0 : Fin 2) * 32 + 1 * (y 0).val = (y 0).val; rw [e0]; omega
  | ⟨1, _⟩ => show win4_3.index t (1 : Fin 2) * 1 + 1 * (y 1).val = (y 1).val; rw [e1]; omega

/-- Window 4's block is its whole array at every position. -/
theorem iblk4_4_eq (c : Dev nD) (t : Fin cfg4.N) : iblk4 V c 4 t = (V c main_v66 : Vec F S32x32 .f32) := by
  obtain ⟨-, -, ⟨e0, e1⟩, -⟩ := idx_facts4_whole t
  funext y
  unfold iblk4
  rw [View.read_apply]
  show (V c main_v66 : Vec F S32x32 .f32) (((cfg4.win 4).blk t).view.emb y) = (V c main_v66 : Vec F S32x32 .f32) y
  refine congrArg (V c main_v66 : Vec F S32x32 .f32) ?_
  funext a
  apply Fin.ext
  match a with
  | ⟨0, _⟩ => show win4_4.index t (0 : Fin 2) * 32 + 1 * (y 0).val = (y 0).val; rw [e0]; omega
  | ⟨1, _⟩ => show win4_4.index t (1 : Fin 2) * 32 + 1 * (y 1).val = (y 1).val; rw [e1]; omega

/-- Window 5's block is its whole array at every position. -/
theorem iblk4_5_eq (c : Dev nD) (t : Fin cfg4.N) : iblk4 V c 5 t = (V c main_v68 : Vec F S32x1 .f32) := by
  obtain ⟨-, -, -, ⟨e0, e1⟩, -⟩ := idx_facts4_whole t
  funext y
  unfold iblk4
  rw [View.read_apply]
  show (V c main_v68 : Vec F S32x1 .f32) (((cfg4.win 5).blk t).view.emb y) = (V c main_v68 : Vec F S32x1 .f32) y
  refine congrArg (V c main_v68 : Vec F S32x1 .f32) ?_
  funext a
  apply Fin.ext
  match a with
  | ⟨0, _⟩ => show win4_5.index t (0 : Fin 2) * 32 + 1 * (y 0).val = (y 0).val; rw [e0]; omega
  | ⟨1, _⟩ => show win4_5.index t (1 : Fin 2) * 1 + 1 * (y 1).val = (y 1).val; rw [e1]; omega

/-- After position n the two scratches hold the running sum and the running count of the pure recursion: position 0
    starts from the reset values, position n + 1 adds its row block onto what position n left. -/
theorem outsAt4_acc (c : Dev nD) (n : ℕ) (h : n < cfg4.N) :
    (outsAt4 V c n h).2.1 = accS (V c main_v63 : Vec F S100000x32 .f32) (V c main_v64 : Vec F S100000x1 .i32) n
    ∧ (outsAt4 V c n h).2.2 = accC (V c main_v64 : Vec F S100000x1 .i32) n := by
  induction n with
  | zero =>
    obtain ⟨h1, h2⟩ := outsAt4_first V c h
    rw [h1, h2, iblk4_0_eq, iblk4_1_eq, accS, accC]
    exact ⟨rfl, rfl⟩
  | succ n ih =>
    obtain ⟨h1, h2⟩ := outsAt4_step V c n h
    obtain ⟨i1, i2⟩ := ih (Nat.lt_of_succ_lt h)
    rw [h1, h2, i1, i2, iblk4_0_eq, iblk4_1_eq, accS, accC]
    exact ⟨rfl, rfl⟩

/-- What the output window's write-back moves of staging contents G is G read through the point's block: the block is the
    whole array at offsets zero, so both sides are G index by index. -/
theorem cut4_6_eq_read (t : Fin cfg4.N) (G : Vec F S32x512 .f32) :
    (cfg4.win 6).cut (grid4.coords t) G = ((cfg4.win 6).blk t).view.read (Elt F) G := by
  obtain ⟨-, -, -, -, ⟨e0, e1⟩⟩ := idx_facts4_whole t
  funext y
  rw [View.read_apply]
  show G ((cfg4.win 6).xinj (grid4.coords t) y) = G (((cfg4.win 6).blk t).view.emb y)
  refine congrArg G ?_
  funext a
  apply Fin.ext
  match a with
  | ⟨0, _⟩ => show (y 0).val = win4_6.index t (0 : Fin 2) * 32 + 1 * (y 0).val; rw [e0]; omega
  | ⟨1, _⟩ => show (y 1).val = win4_6.index t (1 : Fin 2) * 512 + 1 * (y 1).val; rw [e1]; omega

/-- The last grid position. -/
abbrev t4_last : Fin cfg4.N := ⟨49, by decide⟩

/-- What the body leaves in the output's staging buffer at the last position: the closing payload of the two running
    scratches after position 49 and the four small arrays. -/
theorem after4_6_last (c : Dev nD) (t : Fin cfg4.N) (h49 : t.val = 49) :
    (dat4 V c).after 6 t = k4_pay6 (accS (V c main_v63 : Vec F S100000x32 .f32) (V c main_v64 : Vec F S100000x1 .i32) 49) (accC (V c main_v64 : Vec F S100000x1 .i32) 49)
      (V c main_v65 : Vec F S32x32 .f32) (V c main_v67 : Vec F S32x1 .f32) (V c main_v66 : Vec F S32x32 .f32) (V c main_v68 : Vec F S32x1 .f32) := by
  rw [after4_6]
  obtain ⟨n, hn⟩ := t
  dsimp only at h49
  subst h49
  show (outsAt4 V c 49 hn).1 = _
  rw [outsAt4_last V c hn, (outsAt4_acc V c 49 hn).1, (outsAt4_acc V c 49 hn).2, iblk4_2_eq, iblk4_3_eq, iblk4_4_eq, iblk4_5_eq]

/-- The output array after the run: only position 49 writes it back, through a block that is the whole array, so it
    ends as the closing payload of the running sum and count after position 49 and of the four small arrays. -/
theorem final4_acc (c : Dev nD) :
    (dat4 V c).arrAt 6 cfg4.N = k4_pay6 (accS (V c main_v63 : Vec F S100000x32 .f32) (V c main_v64 : Vec F S100000x1 .i32) 49) (accC (V c main_v64 : Vec F S100000x1 .i32) 49)
      (V c main_v65 : Vec F S32x32 .f32) (V c main_v67 : Vec F S32x1 .f32) (V c main_v66 : Vec F S32x32 .f32) (V c main_v68 : Vec F S32x1 .f32) := by
  refine (dat4 V c).arrAt_eq_of_cover 6 _ (fun t hf => ?_) (fun i => ⟨t4_last, (flush4_6 t4_last).mpr rfl, ?_⟩)
  · have h49 : t.val = 49 := by
      have h1 := (flush4_6 t).mp hf
      have h2 : t.val < 50 := lt_of_lt_of_eq t.isLt N_4
      omega
    show (cfg4.win 6).cut (grid4.coords t) ((dat4 V c).after 6 t) = _
    rw [after4_6_last V c t h49]
    exact cut4_6_eq_read t _
  · obtain ⟨-, -, -, -, ⟨e0, e1⟩⟩ := idx_facts4_whole t4_last
    show i ∈ ((View.whole main_v69).slice (win4_6.rect t4_last)).set
    rw [View.set_slice_whole, Rect.mem_set_unit]
    intro a
    have h0 : (i 0 : Nat) < 32 := (i 0).isLt
    have h1 : (i 1 : Nat) < 512 := (i 1).isLt
    match a with
    | ⟨0, _⟩ =>
      show win4_6.index t4_last (0 : Fin 2) * 32 ≤ (i 0 : Nat) ∧ (i 0 : Nat) < win4_6.index t4_last (0 : Fin 2) * 32 + 32
      rw [e0]; omega
    | ⟨1, _⟩ =>
      show win4_6.index t4_last (1 : Fin 2) * 512 ≤ (i 1 : Nat) ∧ (i 1 : Nat) < win4_6.index t4_last (1 : Fin 2) * 512 + 512
      rw [e1]; omega

end Cert.KernelIdeal.Hand

end
-- ==== Proof.KI.PoolSum.lean ====
import proofs.«409944_j24326694765162_4_alg».proof.Proof.KI.PoolDefs
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem

/-
  The closed form of the pooling kernel's accumulation. The one-hot payload at row r and graph g is one where the
  row's batch word is g and zero elsewhere; one step of the running sum adds, at feature j and graph g, the sum over
  the block's 2000 rows of the row's feature times that weight (a contraction over the rows of both operands), and one
  step of the running count adds the sum of the weights (a reduction over the rows). Both start from zeros. By induction
  on the grid position the running sum after position n is the double sum over blocks 0 … n and the rows of each block;
  after position 49 the blocks cover the 100000 rows once each, (t, r) ↦ 2000·t + r being a bijection from
  50 × 2000 onto the rows, so the double sum is the sum over all rows. Only commutativity and associativity of the
  extended reals' sum and 0 + x = x are used.
-/

/-- A converted one-bit equality test: one where the words agree, zero elsewhere. -/
theorem sitofp_eq_word (x y : BitVec 32) :
    (FloatOps.sitofp (F := Ideal) .f32 ((IntOp.cmpi .eq x y).setWidth 32) : EReal) = if x = y then 1 else 0 := by
  show (((((IntOp.cmpi .eq x y).setWidth 32).toInt : ℝ)) : EReal) = _
  by_cases h : x = y
  · subst h
    rw [if_pos rfl]
    have : (IntOp.cmpi .eq x x).setWidth 32 = 1#32 := by
      simp [IntOp.cmpi]
    rw [this]
    norm_num
  · rw [if_neg h]
    have hb : (x == y) = false := by simpa using h
    have : (IntOp.cmpi .eq x y).setWidth 32 = 0#32 := by
      simp [IntOp.cmpi, hb]
    rw [this]
    norm_num

/-- The one-hot payload at row r and graph g: one where the row's batch word is g. -/
theorem pool_pay3_apply (v5 : Vec Ideal S2000x1 .i32) (r : Fin 2000) (g : Fin 512) :
    k4_pay3 (F := Ideal) v5 (ix2 r g) = if v5 (ix2 r (0 : Fin 1)) = BitVec.ofNat 32 g.val then 1 else 0 := by
  unfold k4_pay3
  simp only [shapeCast_self]
  rw [sitofp_apply, extui_apply]
  have hb : broadcastTo S2000x512 v5 broadcasts_S2000x1_S2000x512 (ix2 r g) = v5 (ix2 r (0 : Fin 1)) :=
    broadcastTo_apply v5 broadcasts_S2000x1_S2000x512 (ix2 r g) (ix2 r (0 : Fin 1)) (fun a => match a with
      | ⟨0, _⟩ => rfl
      | ⟨1, _⟩ => rfl)
  have hi : iota .tc S2000x512 32 [1] iota_S2000x512_d1_w32 (ix2 r g) = BitVec.ofNat 32 g.val :=
    iota_single_apply .tc S2000x512 32 1 iota_S2000x512_d1_w32 (ix2 r g)
  show FloatOps.sitofp .f32 ((IntOp.cmpi .eq (broadcastTo S2000x512 v5 broadcasts_S2000x1_S2000x512 (ix2 r g)) (iota .tc S2000x512 32 [1] iota_S2000x512_d1_w32 (ix2 r g))).setWidth 32) = _
  rw [hb, hi]
  exact sitofp_eq_word _ _

/-- The contraction's left index keeps the contracted coordinate on axis 0 … -/
theorem lhs_pool_0 (i : S32x512.Idx) (q : dot_S2000x32_S2000x512_S32x512_0_0_1_1_n_n.contr.Idx) :
    (dot_S2000x32_S2000x512_S32x512_0_0_1_1_n_n.lhsIdx i q 0).val = (q ⟨0, by decide⟩).val :=
  dot_S2000x32_S2000x512_S32x512_0_0_1_1_n_n.lhsIdx_val_of_single rfl i q
/-- … and the result's row coordinate on axis 1. -/
theorem lhs_pool_1 (i : S32x512.Idx) (q : dot_S2000x32_S2000x512_S32x512_0_0_1_1_n_n.contr.Idx) :
    (dot_S2000x32_S2000x512_S32x512_0_0_1_1_n_n.lhsIdx i q 1).val = (i 0).val := by
  unfold DotDims.lhsIdx
  rw [dif_neg (show ¬(1 : Fin S2000x32.rank) ∈ dot_S2000x32_S2000x512_S32x512_0_0_1_1_n_n.lhsBatch by decide), dif_pos (show (1 : Fin S2000x32.rank) ∈ dot_S2000x32_S2000x512_S32x512_0_0_1_1_n_n.lhsNonContracting by decide)]
  rfl
/-- The right index keeps the contracted coordinate on axis 0 … -/
theorem rhs_pool_0 (i : S32x512.Idx) (q : dot_S2000x32_S2000x512_S32x512_0_0_1_1_n_n.contr.Idx) :
    (dot_S2000x32_S2000x512_S32x512_0_0_1_1_n_n.rhsIdx i q 0).val = (q ⟨0, by decide⟩).val :=
  dot_S2000x32_S2000x512_S32x512_0_0_1_1_n_n.rhsIdx_val_of_single rfl i q
/-- … and the result's column coordinate on axis 1. -/
theorem rhs_pool_1 (i : S32x512.Idx) (q : dot_S2000x32_S2000x512_S32x512_0_0_1_1_n_n.contr.Idx) :
    (dot_S2000x32_S2000x512_S32x512_0_0_1_1_n_n.rhsIdx i q 1).val = (i 1).val := by
  unfold DotDims.rhsIdx
  rw [dif_neg (show ¬(1 : Fin S2000x512.rank) ∈ dot_S2000x32_S2000x512_S32x512_0_0_1_1_n_n.rhsBatch by decide), dif_pos (show (1 : Fin S2000x512.rank) ∈ dot_S2000x32_S2000x512_S32x512_0_0_1_1_n_n.rhsNonContracting by decide)]
  rfl

/-- One step of the running sum at an index: what was there plus the block's rows weighted by the one-hot payload. -/
theorem pool_pay4_apply (x : Vec Ideal S2000x32 .f32) (b : Vec Ideal S2000x1 .i32) (s : Vec Ideal S32x512 .f32) (j : Fin 32) (g : Fin 512) :
    k4_pay4 (F := Ideal) x b s (ix2 j g) = s (ix2 j g) + ∑ r : Fin 2000, x (ix2 r j) * k4_pay3 (F := Ideal) b (ix2 r g) := by
  unfold k4_pay4
  simp only [shapeCast_self]
  rw [addf_apply]
  simp only [matmul]
  rw [Ideal.matmul_constant_zero_apply, ← Equiv.sum_comp (contrEquiv1 dot_S2000x32_S2000x512_S32x512_0_0_1_1_n_n 2000 rfl rfl).symm]
  refine congrArg (s (ix2 j g) + ·) (Finset.sum_congr rfl fun k _ => ?_)
  have hk := contrEquiv1_symm_val dot_S2000x32_S2000x512_S32x512_0_0_1_1_n_n 2000 rfl rfl k
  have el : dot_S2000x32_S2000x512_S32x512_0_0_1_1_n_n.lhsIdx (ix2 j g) ((contrEquiv1 dot_S2000x32_S2000x512_S32x512_0_0_1_1_n_n 2000 rfl rfl).symm k) = ix2 k j := funext fun a => Fin.ext (by
    match a with
    | ⟨0, _⟩ => exact (lhs_pool_0 _ _).trans hk
    | ⟨1, _⟩ => exact lhs_pool_1 _ _)
  have er : dot_S2000x32_S2000x512_S32x512_0_0_1_1_n_n.rhsIdx (ix2 j g) ((contrEquiv1 dot_S2000x32_S2000x512_S32x512_0_0_1_1_n_n 2000 rfl rfl).symm k) = ix2 k g := funext fun a => Fin.ext (by
    match a with
    | ⟨0, _⟩ => exact (rhs_pool_0 _ _).trans hk
    | ⟨1, _⟩ => exact rhs_pool_1 _ _)
  rw [el, er]

/-- One step of the running count at an index: what was there plus the one-hot payload summed over the block's rows. -/
theorem pool_pay5_apply (b : Vec Ideal S2000x1 .i32) (s : Vec Ideal S1x512 .f32) (g : Fin 512) :
    k4_pay5 (F := Ideal) b s (ix2 (0 : Fin 1) g) = s (ix2 (0 : Fin 1) g) + ∑ r : Fin 2000, k4_pay3 (F := Ideal) b (ix2 r g) := by
  unfold k4_pay5
  simp only [shapeCast_self]
  rw [addf_apply]
  refine congrArg (s (ix2 (0 : Fin 1) g) + ·) ?_
  refine (shapeCast_apply _ shapeCasts_S512_S1x512 (ix2 (0 : Fin 1) g) (ix1 g) ?_).trans ?_
  · rw [Shape.rowMajor_val_one, Shape.rowMajor_val_two]
    show g.val = (0 : ℕ) * 512 + g.val
    omega
  · refine (Ideal.multiReduction_add_single (k4_pay3 (F := Ideal) b) 0x00000000#32 reduces_S2000x512_S512 (.inl rfl) rfl (ix1 g)).trans ?_
    refine Finset.sum_congr rfl fun r _ => ?_
    refine congrArg (k4_pay3 (F := Ideal) b) (funext fun a => Fin.ext ?_)
    match a with
    | ⟨0, _⟩ => rfl
    | ⟨1, _⟩ => rfl

/-- The sum over 50 blocks of 2000 rows is the sum over the 100000 rows: (t, r) ↦ 2000·t + r is a bijection. -/
theorem sum_rows {M : Type*} [AddCommMonoid M] (f : Fin 100000 → M) :
    ∑ t ∈ Finset.range 50, ∑ r : Fin 2000, f (rowOf t r) = ∑ n : Fin 100000, f n := by
  rw [Finset.sum_range (fun t => ∑ r : Fin 2000, f (rowOf t r)), ← Fintype.sum_prod_type']
  refine Fintype.sum_equiv ((finProdFinEquiv (m := 50) (n := 2000)).trans (finCongr (by norm_num))) _ _ (fun p => ?_)
  refine congrArg f (Fin.ext ?_)
  have h1 := p.1.isLt
  have h2 := p.2.isLt
  show 2000 * (p.1.val % 50) + p.2.val = p.2.val + 2000 * p.1.val
  rw [Nat.mod_eq_of_lt h1]
  omega

/-- The running sum starts from zeros … -/
theorem pool_pay1_apply (i : S32x512.Idx) : k4_pay1 (F := Ideal) i = 0 := by
  unfold k4_pay1
  simp only [shapeCast_self]
  exact Ideal.ofBits_zero_f32
/-- … and so does the running count. -/
theorem pool_pay2_apply (i : S1x512.Idx) : k4_pay2 (F := Ideal) i = 0 := by
  unfold k4_pay2
  simp only [shapeCast_self]
  exact Ideal.ofBits_zero_f32

/-- A row block read at a row and a feature is the array at the block's row. -/
theorem rowBlk_apply (h2 : Vec Ideal S100000x32 .f32) (n : ℕ) (r : Fin 2000) (j : Fin 32) :
    rowBlk h2 n (ix2 r j) = h2 (ix2 (rowOf n r) j) := rfl
/-- The batch column's block likewise. -/
theorem colBlk_apply (bc : Vec Ideal S100000x1 .i32) (n : ℕ) (r : Fin 2000) :
    colBlk bc n (ix2 r (0 : Fin 1)) = bc (ix2 (rowOf n r) (0 : Fin 1)) := rfl

/-- The one-hot payload of a block of the batch column is the membership weight of the block's rows. -/
theorem pool_pay3_colBlk (bc : Vec Ideal S100000x1 .i32) (n : ℕ) (r : Fin 2000) (g : Fin 512) :
    k4_pay3 (F := Ideal) (colBlk bc n) (ix2 r g) = hot bc (rowOf n r) g := by
  rw [pool_pay3_apply, colBlk_apply]
  rfl

/-- The running sum after position n: the weighted rows of blocks 0 … n. -/
theorem accS_apply (h2 : Vec Ideal S100000x32 .f32) (bc : Vec Ideal S100000x1 .i32) (j : Fin 32) (g : Fin 512) (n : ℕ) :
    accS (F := Ideal) h2 bc n (ix2 j g)
      = ∑ t ∈ Finset.range (n + 1), ∑ r : Fin 2000, h2 (ix2 (rowOf t r) j) * hot bc (rowOf t r) g := by
  induction n with
  | zero =>
    show k4_pay4 (F := Ideal) (rowBlk h2 0) (colBlk bc 0) (k4_pay1 (F := Ideal)) (ix2 j g) = _
    rw [pool_pay4_apply, pool_pay1_apply, zero_add, Finset.sum_range_one]
    exact Finset.sum_congr rfl fun r _ => by rw [rowBlk_apply, pool_pay3_colBlk]
  | succ n ih =>
    show k4_pay4 (F := Ideal) (rowBlk h2 (n + 1)) (colBlk bc (n + 1)) (accS (F := Ideal) h2 bc n) (ix2 j g) = _
    rw [pool_pay4_apply, ih, Finset.sum_range_succ _ (n + 1)]
    exact congrArg (_ + ·) (Finset.sum_congr rfl fun r _ => by rw [rowBlk_apply, pool_pay3_colBlk])

/-- The running count after position n: the weights of the rows of blocks 0 … n. -/
theorem accC_apply (bc : Vec Ideal S100000x1 .i32) (g : Fin 512) (n : ℕ) :
    accC (F := Ideal) bc n (ix2 (0 : Fin 1) g)
      = ∑ t ∈ Finset.range (n + 1), ∑ r : Fin 2000, hot bc (rowOf t r) g := by
  induction n with
  | zero =>
    show k4_pay5 (F := Ideal) (colBlk bc 0) (k4_pay2 (F := Ideal)) (ix2 (0 : Fin 1) g) = _
    rw [pool_pay5_apply, pool_pay2_apply, zero_add, Finset.sum_range_one]
    exact Finset.sum_congr rfl fun r _ => pool_pay3_colBlk bc 0 r g
  | succ n ih =>
    show k4_pay5 (F := Ideal) (colBlk bc (n + 1)) (accC (F := Ideal) bc n) (ix2 (0 : Fin 1) g) = _
    rw [pool_pay5_apply, ih, Finset.sum_range_succ _ (n + 1)]
    exact congrArg (_ + ·) (Finset.sum_congr rfl fun r _ => pool_pay3_colBlk bc (n + 1) r g)

/-- After the last position the running sum holds, per feature and graph, the sum of the graph's node features. -/
theorem accS_closed (h2 : Vec Ideal S100000x32 .f32) (bc : Vec Ideal S100000x1 .i32) (j : Fin 32) (g : Fin 512) :
    accS (F := Ideal) h2 bc 49 (ix2 j g) = ∑ n : Fin 100000, h2 (ix2 n j) * hot bc n g := by
  rw [accS_apply]
  exact sum_rows fun n => h2 (ix2 n j) * hot bc n g

/-- After the last position the running count holds, per graph, the number of its nodes. -/
theorem accC_closed (bc : Vec Ideal S100000x1 .i32) (g : Fin 512) :
    accC (F := Ideal) bc 49 (ix2 (0 : Fin 1) g) = ∑ n : Fin 100000, hot bc n g := by
  rw [accC_apply]
  exact sum_rows fun n => hot bc n g

end Cert.KernelIdeal.Hand

end
-- ==== Proof.KI.PoolHead.lean ====
/-
  The reference's pooling scatters in closed form, and the pooling head of the kernel against the reference's.
  A scatter-add with one start index per update lands update n on the operand element whose graph coordinate is the
  batch word of node n read signed (and whose feature coordinate is the update's own), so the per-graph sums and the
  per-graph counts are sums over all nodes weighted by the membership indicator "the batch word of n is g". The head
  then reads both programs at one element: the kernel computes it transposed (features × graphs), the reference per
  graph (graphs × features); both are the same two affine layers with a max with zero between them, applied to the sums
  divided by the count floored at one, and they agree term by term up to the commutativity of the product and of max.
-/
import proofs.«409944_j24326694765162_4_alg».proof.Proof.KI.PoolDefs
import proofs.«409944_j24326694765162_4_alg».proof.Proof.KI.Stages
import proofs.«409944_j24326694765162_4_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem

/-! ## Scatter decoding and small readings -/

namespace PoolHead

/-- An update lands on operand index i exactly when, on every axis, the signed start plus the window coordinate is
    i's coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro e a
      have := congrFun (Option.some.inj e) a
      have hv := congrArg Fin.val this
      simp only at hv
      have := h a
      omega
    · intro e
      refine congrArg some (funext fun a => Fin.ext ?_)
      have := e a
      have := h a
      simp only
      omega
  · rename_i h
    constructor
    · intro e; exact absurd e (by simp)
    · intro e
      exact absurd (fun a => by have := e a; have := (i a).isLt; omega) h

/-- A 32-bit word read signed is g, for g below 512, exactly when it is the word of g. -/
theorem toInt_eq_iff (w : BitVec 32) (g : Fin 512) : w.toInt = (g.val : Int) ↔ w = BitVec.ofNat 32 g.val := by
  have hg := g.isLt
  constructor
  · intro h
    apply BitVec.eq_of_toNat_eq
    rw [BitVec.toNat_ofNat]
    rw [BitVec.toInt_eq_toNat_cond] at h
    have := w.isLt
    split at h <;> omega
  · rintro rfl
    rw [BitVec.toInt_eq_toNat_cond, BitVec.toNat_ofNat]
    have : g.val % 2 ^ 32 = g.val := Nat.mod_eq_of_lt (by omega)
    rw [this]
    split <;> omega

/-- The count scatter: on the one operand axis the start is the batch word of the update's node, read signed … -/
theorem count_start (j : Cert.ReferenceIdeal.S100000.Idx) (idx : IVec Cert.ReferenceIdeal.S100000x1 32) :
    Cert.ReferenceIdeal.scatter_S512_S100000x1_S100000_n_0_0_1.start j idx 0 = (idx (ix2 (j 0) (0 : Fin 1))).toInt := by
  unfold ScatterDims.start
  rw [dif_pos (show (0 : Fin Cert.ReferenceIdeal.S512.rank) ∈ Cert.ReferenceIdeal.scatter_S512_S100000x1_S100000_n_0_0_1.scatterDimsToOperandDims by decide)]
  congr 2
  funext b
  refine Fin.ext ?_
  match b with
  | ⟨0, _⟩ => rfl
  | ⟨1, _⟩ => rfl

/-- … and there is no window coordinate on it. -/
theorem count_window (j : Cert.ReferenceIdeal.S100000.Idx) :
    Cert.ReferenceIdeal.scatter_S512_S100000x1_S100000_n_0_0_1.window j 0 = 0 := by
  unfold ScatterDims.window
  rw [dif_neg (show ¬ (0 : Fin Cert.ReferenceIdeal.S512.rank) ∈ Cert.ReferenceIdeal.scatter_S512_S100000x1_S100000_n_0_0_1.sKept by decide)]

/-- The row scatter: on the graph axis the start is the batch word of the update's node, read signed … -/
theorem sums_start0 (p : Cert.ReferenceIdeal.S100000x32.Idx) (idx : IVec Cert.ReferenceIdeal.S100000x1 32) :
    Cert.ReferenceIdeal.scatter_S512x32_S100000x1_S100000x32_1_0_0_1.start p idx 0 = (idx (ix2 (p 0) (0 : Fin 1))).toInt := by
  unfold ScatterDims.start
  rw [dif_pos (show (0 : Fin Cert.ReferenceIdeal.S512x32.rank) ∈ Cert.ReferenceIdeal.scatter_S512x32_S100000x1_S100000x32_1_0_0_1.scatterDimsToOperandDims by decide)]
  congr 2
  funext b
  refine Fin.ext ?_
  match b with
  | ⟨0, _⟩ => rfl
  | ⟨1, _⟩ => rfl

/-- … with no window coordinate; -/
theorem sums_window0 (p : Cert.ReferenceIdeal.S100000x32.Idx) :
    Cert.ReferenceIdeal.scatter_S512x32_S100000x1_S100000x32_1_0_0_1.window p 0 = 0 := by
  unfold ScatterDims.window
  rw [dif_neg (show ¬ (0 : Fin Cert.ReferenceIdeal.S512x32.rank) ∈ Cert.ReferenceIdeal.scatter_S512x32_S100000x1_S100000x32_1_0_0_1.sKept by decide)]

/-- on the feature axis the start is zero … -/
theorem sums_start1 (p : Cert.ReferenceIdeal.S100000x32.Idx) (idx : IVec Cert.ReferenceIdeal.S100000x1 32) :
    Cert.ReferenceIdeal.scatter_S512x32_S100000x1_S100000x32_1_0_0_1.start p idx 1 = 0 := by
  unfold ScatterDims.start
  rw [dif_neg (show ¬ (1 : Fin Cert.ReferenceIdeal.S512x32.rank) ∈ Cert.ReferenceIdeal.scatter_S512x32_S100000x1_S100000x32_1_0_0_1.scatterDimsToOperandDims by decide)]

/-- … and the window coordinate is the update's feature coordinate. -/
theorem sums_window1 (p : Cert.ReferenceIdeal.S100000x32.Idx) :
    Cert.ReferenceIdeal.scatter_S512x32_S100000x1_S100000x32_1_0_0_1.window p 1 = (p 1).val := by
  unfold ScatterDims.window
  rw [dif_pos (show (1 : Fin Cert.ReferenceIdeal.S512x32.rank) ∈ Cert.ReferenceIdeal.scatter_S512x32_S100000x1_S100000x32_1_0_0_1.sKept by decide)]
  rfl

/-- The batch vector as a column reads, at row n, the vector at n. -/
theorem bcol_apply (x2 : (⟨Cert.ReferenceIdeal.S100000, .i32⟩ : BufTy).Contents (Elt Ideal)) (n : Fin 100000) :
    broadcastInDim Cert.ReferenceIdeal.S100000x1 ![0] Cert.ReferenceIdeal.Facts₀.bcast_S100000_S100000x1_0 x2 (ix2 n (0 : Fin 1)) = x2 (ix1 n) :=
  broadcastInDim_apply _ Cert.ReferenceIdeal.Facts₀.bcast_S100000_S100000x1_0 x2 (ix2 n (0 : Fin 1)) (ix1 n) (fun a => match a with
    | ⟨0, _⟩ => by show n.val = if (100000 : Nat) = 1 then 0 else n.val; rw [if_neg (by decide)])

/-- A scalar constant broadcast to any shape reads, everywhere, the extended real its word denotes. -/
theorem bscalar_apply {t : Shape} (h : Cert.ReferenceIdeal.S_.BroadcastsInDim t (![] : Fin 0 → Fin t.rank)) (b : BitVec 32) (i : t.Idx) :
    broadcastInDim t ![] h (constant (F := Ideal) Cert.ReferenceIdeal.S_ .f32 b) i = Ideal.ofBits .f32 b :=
  broadcastInDim_apply _ h _ i (fun a => a.elim0) (fun a => a.elim0)

/-- The f32 word 0x3F800000 denotes one. -/
theorem ofBits_one : Ideal.ofBits .f32 0x3F800000#32 = 1 := IdealRules.sign_bit.ideal_onePat .f32

/-- A rank-1 index set is its coordinate range, so a sum over it is the sum over the coordinate. -/
theorem sum_idx1 {M : Type*} [AddCommMonoid M] {n : Nat} (f : (⟨1, ![n]⟩ : Shape).Idx → M) :
    ∑ i, f i = ∑ a : Fin n, f (ix1 a) := by
  let e : Fin n ≃ (⟨1, ![n]⟩ : Shape).Idx :=
    { toFun := fun a => ix1 a, invFun := fun i => i 0, left_inv := fun _ => rfl, right_inv := fun i => (eq_ix1 i).symm }
  exact (Equiv.sum_comp e f).symm

end PoolHead

open PoolHead

/-! ## The two scatters in closed form -/

/-- The per-graph node count in closed form: the number of nodes whose batch word is g. -/
theorem count_closed (x2 : (⟨Cert.ReferenceIdeal.S100000, .i32⟩ : BufTy).Contents (Elt Ideal)) (g : Fin 512) :
    Cert.ReferenceIdeal.Stages.count (F := Ideal) x2 (ix1 g) = ∑ n : Fin 100000, (if x2 (ix1 n) = BitVec.ofNat 32 g.val then (1 : EReal) else 0) := by
  unfold Cert.ReferenceIdeal.Stages.count
  simp only [Host.scatterAdd, Ideal.hostScatterAdd_def]
  unfold Ideal.hostScatterAdd
  rw [bscalar_apply, Ideal.ofBits_zero_f32, zero_add, Finset.sum_filter, sum_idx1]
  refine Finset.sum_congr rfl fun n _ => ?_
  rw [bscalar_apply, ofBits_one]
  refine if_congr ?_ rfl rfl
  rw [resultIdx?_eq_some_iff]
  have h1 : Cert.ReferenceIdeal.scatter_S512_S100000x1_S100000_n_0_0_1.start (ix1 n)
      (broadcastInDim Cert.ReferenceIdeal.S100000x1 ![0] Cert.ReferenceIdeal.Facts₀.bcast_S100000_S100000x1_0 x2) 0 = (x2 (ix1 n)).toInt :=
    (count_start (ix1 n) _).trans (congrArg BitVec.toInt (bcol_apply x2 n))
  have h2 := count_window (ix1 n)
  constructor
  · intro h
    have h0 := h 0
    rw [h1, h2] at h0
    change _ + _ = (g.val : Int) at h0
    exact (toInt_eq_iff _ g).1 (by omega)
  · intro h a
    obtain rfl : a = 0 := Subsingleton.elim _ _
    rw [h1, h2]
    have := (toInt_eq_iff _ g).2 h
    change _ + _ = (g.val : Int)
    omega

/-- The per-graph sums of the node rows in closed form: row n counts towards graph g exactly when its batch word is g. -/
theorem sums_closed (h2 : (⟨Cert.ReferenceIdeal.S100000x32, .f32⟩ : BufTy).Contents (Elt Ideal)) (x2 : (⟨Cert.ReferenceIdeal.S100000, .i32⟩ : BufTy).Contents (Elt Ideal)) (g : Fin 512) (j : Fin 32) :
    Cert.ReferenceIdeal.Stages.sums (F := Ideal) h2 x2 (ix2 g j) = ∑ n : Fin 100000, h2 (ix2 n j) * (if x2 (ix1 n) = BitVec.ofNat 32 g.val then (1 : EReal) else 0) := by
  unfold Cert.ReferenceIdeal.Stages.sums
  simp only [Host.scatterAdd, Ideal.hostScatterAdd_def]
  unfold Ideal.hostScatterAdd
  rw [bscalar_apply, Ideal.ofBits_zero_f32, zero_add, Finset.sum_filter, sum_idx2]
  refine Finset.sum_congr rfl fun n _ => ?_
  have key : ∀ j' : Fin 32,
      (Cert.ReferenceIdeal.scatter_S512x32_S100000x1_S100000x32_1_0_0_1.resultIdx? (ix2 n j')
        (broadcastInDim Cert.ReferenceIdeal.S100000x1 ![0] Cert.ReferenceIdeal.Facts₀.bcast_S100000_S100000x1_0 x2) = some (ix2 g j))
      ↔ (j = j' ∧ x2 (ix1 n) = BitVec.ofNat 32 g.val) := by
    intro j'
    rw [resultIdx?_eq_some_iff]
    have h1 : Cert.ReferenceIdeal.scatter_S512x32_S100000x1_S100000x32_1_0_0_1.start (ix2 n j')
        (broadcastInDim Cert.ReferenceIdeal.S100000x1 ![0] Cert.ReferenceIdeal.Facts₀.bcast_S100000_S100000x1_0 x2) 0 = (x2 (ix1 n)).toInt :=
      (sums_start0 (ix2 n j') _).trans (congrArg BitVec.toInt (bcol_apply x2 n))
    have h2 := sums_window0 (ix2 n j')
    have h3 := sums_start1 (ix2 n j') (broadcastInDim Cert.ReferenceIdeal.S100000x1 ![0] Cert.ReferenceIdeal.Facts₀.bcast_S100000_S100000x1_0 x2)
    have h4 : Cert.ReferenceIdeal.scatter_S512x32_S100000x1_S100000x32_1_0_0_1.window (ix2 n j') 1 = j'.val := sums_window1 (ix2 n j')
    constructor
    · intro h
      have h0 := h 0
      have h1' := h 1
      rw [h1, h2] at h0
      rw [h3, h4] at h1'
      change _ + _ = (g.val : Int) at h0
      change _ + _ = (j.val : Int) at h1'
      exact ⟨Fin.ext (by omega), (toInt_eq_iff _ g).1 (by omega)⟩
    · rintro ⟨rfl, h⟩ a
      have := (toInt_eq_iff _ g).2 h
      match a with
      | ⟨0, _⟩ =>
        change Cert.ReferenceIdeal.scatter_S512x32_S100000x1_S100000x32_1_0_0_1.start _ _ 0 + ((Cert.ReferenceIdeal.scatter_S512x32_S100000x1_S100000x32_1_0_0_1.window _ 0 : Nat) : Int) = (g.val : Int)
        rw [h1, h2]; omega
      | ⟨1, _⟩ =>
        change Cert.ReferenceIdeal.scatter_S512x32_S100000x1_S100000x32_1_0_0_1.start _ _ 1 + ((Cert.ReferenceIdeal.scatter_S512x32_S100000x1_S100000x32_1_0_0_1.window _ 1 : Nat) : Int) = (j.val : Int)
        rw [h3, h4]; omega
  rw [Finset.sum_congr rfl fun j' _ => if_congr (key j') rfl rfl]
  simp only [ite_and]
  rw [Finset.sum_ite_eq]
  simp only [Finset.mem_univ, if_true, mul_ite, mul_one, mul_zero]

namespace PoolHead

/-! ## The kernel's head read at an element -/

theorem lhsK_0 (i : S32x512.Idx) (q : dot_S32x32_S32x512_S32x512_1_0_0_1_n_n.contr.Idx) :
    (dot_S32x32_S32x512_S32x512_1_0_0_1_n_n.lhsIdx i q 0).val = (i 0).val := by
  unfold DotDims.lhsIdx
  rw [dif_neg (show ¬(0 : Fin S32x32.rank) ∈ dot_S32x32_S32x512_S32x512_1_0_0_1_n_n.lhsBatch by decide), dif_pos (show (0 : Fin S32x32.rank) ∈ dot_S32x32_S32x512_S32x512_1_0_0_1_n_n.lhsNonContracting by decide)]
  rfl
theorem lhsK_1 (i : S32x512.Idx) (q : dot_S32x32_S32x512_S32x512_1_0_0_1_n_n.contr.Idx) :
    (dot_S32x32_S32x512_S32x512_1_0_0_1_n_n.lhsIdx i q 1).val = (q ⟨0, by decide⟩).val :=
  dot_S32x32_S32x512_S32x512_1_0_0_1_n_n.lhsIdx_val_of_single rfl i q
theorem rhsK_0 (i : S32x512.Idx) (q : dot_S32x32_S32x512_S32x512_1_0_0_1_n_n.contr.Idx) :
    (dot_S32x32_S32x512_S32x512_1_0_0_1_n_n.rhsIdx i q 0).val = (q ⟨0, by decide⟩).val :=
  dot_S32x32_S32x512_S32x512_1_0_0_1_n_n.rhsIdx_val_of_single rfl i q
theorem rhsK_1 (i : S32x512.Idx) (q : dot_S32x32_S32x512_S32x512_1_0_0_1_n_n.contr.Idx) :
    (dot_S32x32_S32x512_S32x512_1_0_0_1_n_n.rhsIdx i q 1).val = (i 1).val := by
  unfold DotDims.rhsIdx
  rw [dif_neg (show ¬(1 : Fin S32x512.rank) ∈ dot_S32x32_S32x512_S32x512_1_0_0_1_n_n.rhsBatch by decide), dif_pos (show (1 : Fin S32x512.rank) ∈ dot_S32x32_S32x512_S32x512_1_0_0_1_n_n.rhsNonContracting by decide)]
  rfl

/-- A weight matrix times a features × graphs block, onto zero, at (a, g): the sum over the contracted feature. -/
theorem matK_apply (A : FVec Ideal S32x32 .f32) (B : FVec Ideal S32x512 .f32) (a : Fin 32) (g : Fin 512) :
    matmul dot_S32x32_S32x512_S32x512_1_0_0_1_n_n none A B (constant S32x512 .f32 0x00000000#32) (ix2 a g)
      = ∑ k : Fin 32, A (ix2 a k) * B (ix2 k g) := by
  simp only [matmul]
  rw [Ideal.matmul_constant_zero_apply, ← Equiv.sum_comp (contrEquiv1 dot_S32x32_S32x512_S32x512_1_0_0_1_n_n 32 rfl rfl).symm]
  refine Finset.sum_congr rfl fun k _ => ?_
  have hk := contrEquiv1_symm_val dot_S32x32_S32x512_S32x512_1_0_0_1_n_n 32 rfl rfl k
  have el : dot_S32x32_S32x512_S32x512_1_0_0_1_n_n.lhsIdx (ix2 a g) ((contrEquiv1 dot_S32x32_S32x512_S32x512_1_0_0_1_n_n 32 rfl rfl).symm k) = ix2 a k := funext fun ax => Fin.ext (by
    match ax with
    | ⟨0, _⟩ => exact lhsK_0 _ _
    | ⟨1, _⟩ => exact (lhsK_1 _ _).trans hk)
  have er : dot_S32x32_S32x512_S32x512_1_0_0_1_n_n.rhsIdx (ix2 a g) ((contrEquiv1 dot_S32x32_S32x512_S32x512_1_0_0_1_n_n 32 rfl rfl).symm k) = ix2 k g := funext fun ax => Fin.ext (by
    match ax with
    | ⟨0, _⟩ => exact (rhsK_0 _ _).trans hk
    | ⟨1, _⟩ => exact rhsK_1 _ _)
  rw [el, er]

/-- A column broadcast over the graphs reads, at (a, g), the column at a. -/
theorem colK_apply (v : FVec Ideal S32x1 .f32) (a : Fin 32) (g : Fin 512) :
    broadcastTo S32x512 v broadcasts_S32x1_S32x512 (ix2 a g) = v (ix2 a (0 : Fin 1)) := by
  refine broadcastTo_apply v broadcasts_S32x1_S32x512 (ix2 a g) (ix2 a (0 : Fin 1)) fun ax => ?_
  match ax with
  | ⟨0, _⟩ => show a.val = if (32 : Nat) = 1 then 0 else a.val; rw [if_neg (by decide)]
  | ⟨1, _⟩ => rfl

/-- A row broadcast over the features reads, at (a, g), the row at g. -/
theorem rowK_apply (v : FVec Ideal S1x512 .f32) (a : Fin 32) (g : Fin 512) :
    broadcastTo S32x512 v broadcasts_S1x512_S32x512 (ix2 a g) = v (ix2 (0 : Fin 1) g) :=
  broadcastTo_1b_ab_apply v broadcasts_S1x512_S32x512 a g

/-- The kernel's head at (j, g): the second layer over the first, over the sums divided by the floored count. -/
theorem pay6_apply (S : Vec Ideal S32x512 .f32) (Cn : Vec Ideal S1x512 .f32) (w1T : Vec Ideal S32x32 .f32) (b1c : Vec Ideal S32x1 .f32)
    (w2T : Vec Ideal S32x32 .f32) (b2c : Vec Ideal S32x1 .f32) (j : Fin 32) (g : Fin 512) :
    k4_pay6 (F := Ideal) S Cn w1T b1c w2T b2c (ix2 j g)
      = (∑ k : Fin 32, w2T (ix2 j k) * max ((∑ k' : Fin 32, w1T (ix2 k k') * Ideal.div (S (ix2 k' g)) (max (Cn (ix2 (0 : Fin 1) g)) 1)) + b1c (ix2 k (0 : Fin 1))) 0)
        + b2c (ix2 j (0 : Fin 1)) := by
  unfold k4_pay6
  simp only [shapeCast_self, Ideal.ofBits_def, Ideal.ofBits_zero_f32, ofBits_one]
  rw [addf_apply, matK_apply, colK_apply]
  refine congrArg (· + b2c (ix2 j (0 : Fin 1))) (Finset.sum_congr rfl fun k _ => ?_)
  rw [maximumf_apply, addf_apply, matK_apply, colK_apply, broadcast_apply]
  refine congrArg (fun t => w2T (ix2 j k) * max (t + b1c (ix2 k (0 : Fin 1))) 0) (Finset.sum_congr rfl fun k' _ => ?_)
  rw [divf_apply, rowK_apply, maximumf_apply, broadcast_apply]

/-- The host's quotient at an index is the quotient of the elements. -/
theorem hostDivf_apply {s : Shape} (a b : FVec Ideal s .f32) (i : s.Idx) : Host.divf a b i = Ideal.div (a i) (b i) := rfl

/-! ## The reference's head read at an element -/

theorem lhsR_0 (i : Cert.ReferenceIdeal.S512x32.Idx) (q : Cert.ReferenceIdeal.dot_S512x32_S32x32_S512x32_1_0_0_1_n_n.contr.Idx) :
    (Cert.ReferenceIdeal.dot_S512x32_S32x32_S512x32_1_0_0_1_n_n.lhsIdx i q 0).val = (i 0).val := by
  unfold DotDims.lhsIdx
  rw [dif_neg (show ¬(0 : Fin Cert.ReferenceIdeal.S512x32.rank) ∈ Cert.ReferenceIdeal.dot_S512x32_S32x32_S512x32_1_0_0_1_n_n.lhsBatch by decide), dif_pos (show (0 : Fin Cert.ReferenceIdeal.S512x32.rank) ∈ Cert.ReferenceIdeal.dot_S512x32_S32x32_S512x32_1_0_0_1_n_n.lhsNonContracting by decide)]
  rfl
theorem lhsR_1 (i : Cert.ReferenceIdeal.S512x32.Idx) (q : Cert.ReferenceIdeal.dot_S512x32_S32x32_S512x32_1_0_0_1_n_n.contr.Idx) :
    (Cert.ReferenceIdeal.dot_S512x32_S32x32_S512x32_1_0_0_1_n_n.lhsIdx i q 1).val = (q ⟨0, by decide⟩).val :=
  Cert.ReferenceIdeal.dot_S512x32_S32x32_S512x32_1_0_0_1_n_n.lhsIdx_val_of_single rfl i q
theorem rhsR_0 (i : Cert.ReferenceIdeal.S512x32.Idx) (q : Cert.ReferenceIdeal.dot_S512x32_S32x32_S512x32_1_0_0_1_n_n.contr.Idx) :
    (Cert.ReferenceIdeal.dot_S512x32_S32x32_S512x32_1_0_0_1_n_n.rhsIdx i q 0).val = (q ⟨0, by decide⟩).val :=
  Cert.ReferenceIdeal.dot_S512x32_S32x32_S512x32_1_0_0_1_n_n.rhsIdx_val_of_single rfl i q
theorem rhsR_1 (i : Cert.ReferenceIdeal.S512x32.Idx) (q : Cert.ReferenceIdeal.dot_S512x32_S32x32_S512x32_1_0_0_1_n_n.contr.Idx) :
    (Cert.ReferenceIdeal.dot_S512x32_S32x32_S512x32_1_0_0_1_n_n.rhsIdx i q 1).val = (i 1).val := by
  unfold DotDims.rhsIdx
  rw [dif_neg (show ¬(1 : Fin Cert.ReferenceIdeal.S32x32.rank) ∈ Cert.ReferenceIdeal.dot_S512x32_S32x32_S512x32_1_0_0_1_n_n.rhsBatch by decide), dif_pos (show (1 : Fin Cert.ReferenceIdeal.S32x32.rank) ∈ Cert.ReferenceIdeal.dot_S512x32_S32x32_S512x32_1_0_0_1_n_n.rhsNonContracting by decide)]
  rfl

/-- A graphs × features block times a weight matrix at (g, j): the sum over the contracted feature. -/
theorem dotR_apply (A : FVec Ideal Cert.ReferenceIdeal.S512x32 .f32) (B : FVec Ideal Cert.ReferenceIdeal.S32x32 .f32) (g : Fin 512) (j : Fin 32) :
    Host.dotGeneral Cert.ReferenceIdeal.dot_S512x32_S32x32_S512x32_1_0_0_1_n_n none A B (ix2 g j)
      = ∑ k : Fin 32, A (ix2 g k) * B (ix2 k j) := by
  simp only [Host.dotGeneral]
  rw [Ideal.dotGeneral_apply, ← Equiv.sum_comp (contrEquiv1 Cert.ReferenceIdeal.dot_S512x32_S32x32_S512x32_1_0_0_1_n_n 32 rfl rfl).symm]
  refine Finset.sum_congr rfl fun k _ => ?_
  have hk := contrEquiv1_symm_val Cert.ReferenceIdeal.dot_S512x32_S32x32_S512x32_1_0_0_1_n_n 32 rfl rfl k
  have el : Cert.ReferenceIdeal.dot_S512x32_S32x32_S512x32_1_0_0_1_n_n.lhsIdx (ix2 g j) ((contrEquiv1 Cert.ReferenceIdeal.dot_S512x32_S32x32_S512x32_1_0_0_1_n_n 32 rfl rfl).symm k) = ix2 g k := funext fun ax => Fin.ext (by
    match ax with
    | ⟨0, _⟩ => exact lhsR_0 _ _
    | ⟨1, _⟩ => exact (lhsR_1 _ _).trans hk)
  have er : Cert.ReferenceIdeal.dot_S512x32_S32x32_S512x32_1_0_0_1_n_n.rhsIdx (ix2 g j) ((contrEquiv1 Cert.ReferenceIdeal.dot_S512x32_S32x32_S512x32_1_0_0_1_n_n 32 rfl rfl).symm k) = ix2 k j := funext fun ax => Fin.ext (by
    match ax with
    | ⟨0, _⟩ => exact (rhsR_0 _ _).trans hk
    | ⟨1, _⟩ => exact rhsR_1 _ _)
  rw [el, er]

/-- A bias vector made a row and broadcast over the graphs reads, at (g, j), the vector at j. -/
theorem browR_apply (x : (⟨Cert.ReferenceIdeal.S32, .f32⟩ : BufTy).Contents (Elt Ideal)) (g : Fin 512) (j : Fin 32) :
    broadcastInDim Cert.ReferenceIdeal.S512x32 ![0, 1] Cert.ReferenceIdeal.Facts₀.bcast_S1x32_S512x32_0_1
      (broadcastInDim Cert.ReferenceIdeal.S1x32 ![1] Cert.ReferenceIdeal.Facts₀.bcast_S32_S1x32_1 x) (ix2 g j) = x (ix1 j) := by
  refine (broadcastInDim_apply _ Cert.ReferenceIdeal.Facts₀.bcast_S1x32_S512x32_0_1 _ (ix2 g j) (ix2 (0 : Fin 1) j) (fun a => match a with
    | ⟨0, _⟩ => by show 0 = if (1 : Nat) = 1 then 0 else g.val; rw [if_pos rfl]
    | ⟨1, _⟩ => by show j.val = if (32 : Nat) = 1 then 0 else j.val; rw [if_neg (by decide)])).trans ?_
  exact broadcastInDim_apply _ Cert.ReferenceIdeal.Facts₀.bcast_S32_S1x32_1 x (ix2 (0 : Fin 1) j) (ix1 j) (fun a => match a with
    | ⟨0, _⟩ => by show j.val = if (32 : Nat) = 1 then 0 else j.val; rw [if_neg (by decide)])

/-- A per-graph vector made a column and broadcast over the features reads, at (g, j), the vector at g. -/
theorem bcolR_apply (v : (⟨Cert.ReferenceIdeal.S512, .f32⟩ : BufTy).Contents (Elt Ideal)) (g : Fin 512) (j : Fin 32) :
    broadcastInDim Cert.ReferenceIdeal.S512x32 ![0, 1] Cert.ReferenceIdeal.Facts₀.bcast_S512x1_S512x32_0_1
      (broadcastInDim Cert.ReferenceIdeal.S512x1 ![0] Cert.ReferenceIdeal.Facts₀.bcast_S512_S512x1_0 v) (ix2 g j) = v (ix1 g) := by
  refine (broadcastInDim_apply _ Cert.ReferenceIdeal.Facts₀.bcast_S512x1_S512x32_0_1 _ (ix2 g j) (ix2 g (0 : Fin 1)) (fun a => match a with
    | ⟨0, _⟩ => by show g.val = if (512 : Nat) = 1 then 0 else g.val; rw [if_neg (by decide)]
    | ⟨1, _⟩ => by show 0 = if (1 : Nat) = 1 then 0 else j.val; rw [if_pos rfl])).trans ?_
  exact broadcastInDim_apply _ Cert.ReferenceIdeal.Facts₀.bcast_S512_S512x1_0 v (ix2 g (0 : Fin 1)) (ix1 g) (fun a => match a with
    | ⟨0, _⟩ => by show g.val = if (512 : Nat) = 1 then 0 else g.val; rw [if_neg (by decide)])

/-- The reference's head at (g, j): the second layer over the first, over the sums divided by the floored count. -/
theorem head_apply (h2 : (⟨Cert.ReferenceIdeal.S100000x32, .f32⟩ : BufTy).Contents (Elt Ideal)) (x2 : (⟨Cert.ReferenceIdeal.S100000, .i32⟩ : BufTy).Contents (Elt Ideal))
    (x7 : (⟨Cert.ReferenceIdeal.S32x32, .f32⟩ : BufTy).Contents (Elt Ideal)) (x8 : (⟨Cert.ReferenceIdeal.S32, .f32⟩ : BufTy).Contents (Elt Ideal))
    (x9 : (⟨Cert.ReferenceIdeal.S32x32, .f32⟩ : BufTy).Contents (Elt Ideal)) (x10 : (⟨Cert.ReferenceIdeal.S32, .f32⟩ : BufTy).Contents (Elt Ideal))
    (g : Fin 512) (j : Fin 32) :
    Cert.ReferenceIdeal.Stages.head (F := Ideal) h2 x2 x7 x8 x9 x10 (ix2 g j)
      = (∑ k : Fin 32, max ((∑ k' : Fin 32, Ideal.div (Cert.ReferenceIdeal.Stages.sums (F := Ideal) h2 x2 (ix2 g k'))
              (max 1 (Cert.ReferenceIdeal.Stages.count (F := Ideal) x2 (ix1 g))) * x7 (ix2 k' k)) + x8 (ix1 k)) 0 * x9 (ix2 k j))
        + x10 (ix1 j) := by
  unfold Cert.ReferenceIdeal.Stages.head
  rw [addf_apply, dotR_apply, browR_apply]
  refine congrArg (· + x10 (ix1 j)) (Finset.sum_congr rfl fun k _ => ?_)
  rw [maximumf_apply, addf_apply, dotR_apply, browR_apply, bscalar_apply, Ideal.ofBits_zero_f32]
  refine congrArg (fun t => max (t + x8 (ix1 k)) 0 * x9 (ix2 k j)) (Finset.sum_congr rfl fun k' _ => ?_)
  unfold Cert.ReferenceIdeal.Stages.pooled
  refine congrArg (· * x7 (ix2 k' k)) ?_
  rw [hostDivf_apply, bcolR_apply, maximumf_apply]
  simp only [id_eq]
  rw [bscalar_apply, ofBits_one]

end PoolHead

/-! ## The two heads agree -/

/-- The kernel's head, computed features × graphs from the transposed weights and the bias columns, is the reference's
    head computed graphs × features, element by element: the same sums of the same products, each product written
    with its factors the other way round, and the floor max (count, 1) written as max (1, count). -/
theorem head_eq (S : Vec Ideal S32x512 .f32) (Cn : Vec Ideal S1x512 .f32) (w1T : Vec Ideal S32x32 .f32) (b1c : Vec Ideal S32x1 .f32) (w2T : Vec Ideal S32x32 .f32) (b2c : Vec Ideal S32x1 .f32)
    (h2 : (⟨Cert.ReferenceIdeal.S100000x32, .f32⟩ : BufTy).Contents (Elt Ideal)) (x2 : (⟨Cert.ReferenceIdeal.S100000, .i32⟩ : BufTy).Contents (Elt Ideal))
    (x7 : (⟨Cert.ReferenceIdeal.S32x32, .f32⟩ : BufTy).Contents (Elt Ideal)) (x8 : (⟨Cert.ReferenceIdeal.S32, .f32⟩ : BufTy).Contents (Elt Ideal))
    (x9 : (⟨Cert.ReferenceIdeal.S32x32, .f32⟩ : BufTy).Contents (Elt Ideal)) (x10 : (⟨Cert.ReferenceIdeal.S32, .f32⟩ : BufTy).Contents (Elt Ideal))
    (hS : ∀ (j : Fin 32) (g : Fin 512), S (ix2 j g) = Cert.ReferenceIdeal.Stages.sums (F := Ideal) h2 x2 (ix2 g j))
    (hC : ∀ g : Fin 512, Cn (ix2 (0 : Fin 1) g) = Cert.ReferenceIdeal.Stages.count (F := Ideal) x2 (ix1 g))
    (h1 : ∀ a b : Fin 32, w1T (ix2 a b) = x7 (ix2 b a)) (hb1 : ∀ a : Fin 32, b1c (ix2 a (0 : Fin 1)) = x8 (ix1 a))
    (h2' : ∀ a b : Fin 32, w2T (ix2 a b) = x9 (ix2 b a)) (hb2 : ∀ a : Fin 32, b2c (ix2 a (0 : Fin 1)) = x10 (ix1 a)) :
    ∀ (g : Fin 512) (j : Fin 32), k4_pay6 (F := Ideal) S Cn w1T b1c w2T b2c (ix2 j g) = Cert.ReferenceIdeal.Stages.head (F := Ideal) h2 x2 x7 x8 x9 x10 (ix2 g j) := by
  intro g j
  rw [pay6_apply, head_apply, hb2 j]
  refine congrArg (· + x10 (ix1 j)) (Finset.sum_congr rfl fun k _ => ?_)
  rw [h2' j k, hb1 k, hC g, max_comm (Cert.ReferenceIdeal.Stages.count (F := Ideal) x2 (ix1 g)) 1, mul_comm (x9 (ix2 k j))]
  refine congrArg (fun t => max (t + x8 (ix1 k)) 0 * x9 (ix2 k j)) (Finset.sum_congr rfl fun k' _ => ?_)
  rw [h1 k k', hS k' g, mul_comm (x7 (ix2 k' k))]

end Cert.KernelIdeal.Hand

end
-- ==== Proof.KI.V4.lean ====
/-
  The pooling region's output array, entry by entry: at (feature j, graph g) it is the reference's head at (g, j).
  The region's last grid point stores the two-layer head of the running sum and running count; those are, by the
  closed form of the accumulation, the sums over all nodes of the node row (resp. of one) weighted by membership
  in graph g — which is what the reference's scatter sums are —, and the head is then the same arithmetic on both
  sides, written features × graphs in the kernel and graphs × features in the reference.
-/
import proofs.«409944_j24326694765162_4_alg».proof.Proof.KI.V4Acc
import proofs.«409944_j24326694765162_4_alg».proof.Proof.KI.PoolSum
import proofs.«409944_j24326694765162_4_alg».proof.Proof.KI.PoolHead

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The membership weight read off the batch column is the one read off the batch vector it is a reshape of. -/
theorem hot_eq (bc : Vec Ideal S100000x1 .i32) (x2 : (⟨Cert.ReferenceIdeal.S100000, .i32⟩ : BufTy).Contents (Elt Ideal))
    (h : ∀ n : Fin 100000, bc (ix2 n (0 : Fin 1)) = x2 (ix1 n)) (n : Fin 100000) (g : Fin 512) :
    hot bc n g = if x2 (ix1 n) = BitVec.ofNat 32 g.val then (1 : EReal) else 0 := by
  unfold hot; rw [h n]

theorem final4 (c : Dev nD)
    (x2 : (⟨Cert.ReferenceIdeal.S100000, .i32⟩ : BufTy).Contents (Elt Ideal))
    (x7 : (⟨Cert.ReferenceIdeal.S32x32, .f32⟩ : BufTy).Contents (Elt Ideal)) (x8 : (⟨Cert.ReferenceIdeal.S32, .f32⟩ : BufTy).Contents (Elt Ideal))
    (x9 : (⟨Cert.ReferenceIdeal.S32x32, .f32⟩ : BufTy).Contents (Elt Ideal)) (x10 : (⟨Cert.ReferenceIdeal.S32, .f32⟩ : BufTy).Contents (Elt Ideal))
    (h64 : ∀ n : Fin 100000, (V c main_v64 : Vec Ideal S100000x1 .i32) (ix2 n (0 : Fin 1)) = x2 (ix1 n))
    (h65 : ∀ a b : Fin 32, (V c main_v65 : Vec Ideal S32x32 .f32) (ix2 a b) = x7 (ix2 b a))
    (h67 : ∀ a : Fin 32, (V c main_v67 : Vec Ideal S32x1 .f32) (ix2 a (0 : Fin 1)) = x8 (ix1 a))
    (h66 : ∀ a b : Fin 32, (V c main_v66 : Vec Ideal S32x32 .f32) (ix2 a b) = x9 (ix2 b a))
    (h68 : ∀ a : Fin 32, (V c main_v68 : Vec Ideal S32x1 .f32) (ix2 a (0 : Fin 1)) = x10 (ix1 a))
    (g : Fin 512) (j : Fin 32) :
    ((dat4 V c).arrAt 6 cfg4.N : Vec Ideal S32x512 .f32) (ix2 j g)
      = Cert.ReferenceIdeal.Stages.head (F := Ideal) (V c main_v63) x2 x7 x8 x9 x10 (ix2 g j) := by
  rw [final4_acc V c]
  refine head_eq _ _ _ _ _ _ (V c main_v63) x2 x7 x8 x9 x10 ?_ ?_ h65 h67 h66 h68 g j
  · intro j g
    rw [accS_closed, sums_closed]
    exact Finset.sum_congr rfl fun n _ => by rw [hot_eq _ x2 h64]
  · intro g
    rw [accC_closed, count_closed]
    exact Finset.sum_congr rfl fun n _ => hot_eq _ x2 h64 n g

end Cert.KernelIdeal.Hand

end
-- ==== Proof.KI.Chain.lean ====
/-
  The kernel program's result is the reference's: the five regions' output arrays are the reference's five dense
  stages of the arrays that enter them, the host stretches between them are the reference's own gather / scatter
  stretches, and the closing transpose reads the pooling head's features × graphs output as graphs × features.
-/
import proofs.«409944_j24326694765162_4_alg».proof.Proof.KI.ChainHost
import proofs.«409944_j24326694765162_4_alg».proof.Proof.KI.V0
import proofs.«409944_j24326694765162_4_alg».proof.Proof.KI.V1
import proofs.«409944_j24326694765162_4_alg».proof.Proof.KI.V2
import proofs.«409944_j24326694765162_4_alg».proof.Proof.KI.V3
import proofs.«409944_j24326694765162_4_alg».proof.Proof.KI.V4

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem
open Idealize.ShloMosaic.Pipeline (Dat Cfg Window)

variable (m : (ℓ : Loc nD τ sig) → Buf (Elt Ideal) ℓ) (c : Dev nD)

/-- Region 0 leaves x · W₁ in its output array. -/
theorem W4_v32 : W4 m c (Proc.devRef .tc main_v32)
    = Cert.ReferenceIdeal.Stages.proj1 (F := Ideal) (m ((c : Thread nD τ).loc main_arg0)) (m ((c : Thread nD τ).loc main_arg3)) := by
  rw [show W4 m c (Proc.devRef .tc main_v32) = (dat0 (V3 m) c).arrAt 2 cfg0.N from W4_arr m c 2, final0 (V3 m) c]
  dsimp only [V3]
  rw [W3_arg0 m c, W3_arg3 m c]

/-- Region 1 leaves max (agg₁ + b₁, 0), agg₁ the first gather / scatter stretch of region 0's output. -/
theorem W6_v47 : W6 m c (Proc.devRef .tc main_v47)
    = Cert.ReferenceIdeal.Stages.act1 (F := Ideal) (glue1 (Cert.ReferenceIdeal.Stages.proj1 (F := Ideal) (m ((c : Thread nD τ).loc main_arg0)) (m ((c : Thread nD τ).loc main_arg3))) (m ((c : Thread nD τ).loc main_arg1)))
        (m ((c : Thread nD τ).loc main_arg4)) := by
  rw [show W6 m c (Proc.devRef .tc main_v47) = (dat1 (V5 m) c).arrAt 2 cfg1.N from W6_arr m c 2,
    final1 (V5 m) c (m ((c : Thread nD τ).loc main_arg4)) (fun j => W5_v46_apply m c j)]
  dsimp only [V5]
  rw [W5_v45 m c, W4_v32 m c]

/-- Region 2 leaves h₁ · W₂. -/
theorem W7_v48 : W7 m c (Proc.devRef .tc main_v48)
    = Cert.ReferenceIdeal.Stages.proj2 (F := Ideal) (W6 m c (Proc.devRef .tc main_v47)) (m ((c : Thread nD τ).loc main_arg5)) := by
  rw [show W7 m c (Proc.devRef .tc main_v48) = (dat2 (V6 m) c).arrAt 2 cfg2.N from W7_arr m c 2, final2 (V6 m) c]
  dsimp only [V6]
  rw [W6_arg5 m c]

/-- Region 3 leaves agg₂ + b₂. -/
theorem W9_v63 : W9 m c (Proc.devRef .tc main_v63)
    = Cert.ReferenceIdeal.Stages.act2 (F := Ideal) (glue2 (W7 m c (Proc.devRef .tc main_v48)) (m ((c : Thread nD τ).loc main_arg1))) (m ((c : Thread nD τ).loc main_arg6)) := by
  rw [show W9 m c (Proc.devRef .tc main_v63) = (dat3 (V8 m) c).arrAt 2 cfg3.N from W9_arr m c 2,
    final3 (V8 m) c (m ((c : Thread nD τ).loc main_arg6)) (fun j => W8_v62_apply m c j)]
  dsimp only [V8]
  rw [W8_v61 m c]

/-- THE RESULT: what the kernel program returns is the reference's composed term of the arguments. -/
theorem result_eq : W12 m c (Proc.devRef .tc main_v70)
    = Cert.ReferenceIdeal.ReadP.val_main_v86 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10)) := by
  rw [ref_eq]
  funext i
  obtain ⟨g, j, rfl⟩ : ∃ (g : Fin 512) (j : Fin 32), i = ix2 g j := ⟨i 0, i 1, eq_ix2 i⟩
  refine (W12_v70_apply m c g j).trans ?_
  rw [show W11 m c (Proc.devRef .tc main_v69) = (dat4 (V10 m) c).arrAt 6 cfg4.N from W11_arr m c 6]
  refine (final4 (V10 m) c (m ((c : Thread nD τ).loc main_arg2)) (m ((c : Thread nD τ).loc main_arg7)) (m ((c : Thread nD τ).loc main_arg8))
    (m ((c : Thread nD τ).loc main_arg9)) (m ((c : Thread nD τ).loc main_arg10))
    (W10_v64_apply m c) (W10_v65_apply m c) (W10_v67_apply m c) (W10_v66_apply m c) (W10_v68_apply m c) g j).trans ?_
  dsimp only [V10]
  rw [W10_v63 m c, W9_v63 m c, W7_v48 m c, W6_v47 m c]

end Cert.KernelIdeal.Hand

end
-- ==== Proof.lean ====
/-
  The certificate. The kernel program — two graph-convolution layers and a mean-pool head, its dense steps five
  kernel regions among the edge gather / scatter stretches the reference also runs — and the reference compute, over
  the extended reals, the same function of the arguments: each matrix product is the same sum of products in either
  spelling; the bias steps are the same sums; and the pooling head's one-hot product summed over fifty row blocks is
  the reference's scatter sum by the batch vector (x · 0 = 0 and x · 1 = x for every extended real, sums reorder
  freely), after which both apply the same two affine layers, the kernel transposed. No finiteness of the inputs
  is used. Each program terminates without fault and leaves its argument arrays as launched: the kernel programs by
  composing their host stretches and regions, the reference by its run read back.
-/
import proofs.«409944_j24326694765162_4_alg».proof.Defs
import proofs.«409944_j24326694765162_4_alg».proof.Proof.Gen.Kernel
import proofs.«409944_j24326694765162_4_alg».proof.Proof.Gen.KernelIdeal
import proofs.«409944_j24326694765162_4_alg».proof.Proof.Gen.ReferenceIdeal
import proofs.«409944_j24326694765162_4_alg».proof.Proof.Gen.Pre_finite_inputs
import proofs.«409944_j24326694765162_4_alg».proof.Proof.KB.Launch
import proofs.«409944_j24326694765162_4_alg».proof.Proof.KI.Launch
import proofs.«409944_j24326694765162_4_alg».proof.Proof.KI.Chain
import proofs.«409944_j24326694765162_4_alg».proof.Proof.RefRead
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the kernel program's folded valuation at the result buffer: the kernel program by its run,
    the reference because its composed term of the (agreeing) arguments is that value. -/
theorem algebraic : Cert.algebraic_KernelIdeal_ReferenceIdeal := by
  intro m ρ m' ρ' _ hagree
  refine ⟨fun c => Cert.KernelIdeal.Hand.W12 m c (Proc.devRef .tc Cert.KernelIdeal.main_v70), Cert.KernelIdeal.Hand.run_result m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10⟩ := hagree c
  rw [Cert.ReferenceIdeal.ReadP.val_main_v86_eq m' c, h0, h1, h2, h3, h4, h5, h6, h7, h8, h9, h10]
  exact (Cert.KernelIdeal.Hand.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
